-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S256x128 : Shape := ⟨2, ![256, 128]⟩
abbrev S128 : Shape := ⟨1, ![128]⟩
abbrev S384x1 : Shape := ⟨2, ![384, 1]⟩
abbrev S1 : Shape := ⟨1, ![1]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x1 : S_.BroadcastsInDim S384x1 (![] : Fin 0 → Fin S384x1.rank)
  reducesTo_S384x1_S_d0_1 : S384x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S128 .f32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128 .f32) (main_arg12 : FVec F S128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S1 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_v48 main_v49 main_v50

def fn_part1 {F : FTy → Type} [FloatOps F] (main_arg4 : FVec F S256x128 .f32) (main_arg5 : FVec F S128 .f32) (main_arg6 : FVec F S384x1 .f32) (main_arg7 : FVec F S1 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x1 .f32 := Host.absf main_arg6
  let main_cst_10 : FVec F S_ .f32 := constant S_ .f32 0x7F800000#32
  let main_v30 : FVec F S384x1 .f32 := broadcastInDim S384x1 ![] bcast_S_S384x1 main_cst_10
  let main_v31 : IVec S384x1 1 := cmpf .olt main_v29 main_v30
  let main_c_11 : IVec S_ 1 := constantI S_ 1 1#1
  let main_v32 : IVec S_ 1 := (fun x v => Host.reduce IntOp.andi x v reducesTo_S384x1_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x8192 .f32) (main_arg1 : FVec F S8192x128 .f32) (main_arg2 : FVec F S256x128 .f32) (main_arg3 : FVec F S128 .f32) (main_arg4 : FVec F S256x128 .f32) (main_arg5 : FVec F S128 .f32) (main_arg6 : FVec F S384x1 .f32) (main_arg7 : FVec F S1 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x8192 : Shape := ⟨2, ![8192, 8192]⟩
abbrev S8192x128 : Shape := ⟨2, ![8192, 128]⟩
abbrev S256x128 : Shape := ⟨2, ![256, 128]⟩
abbrev S128 : Shape := ⟨1, ![128]⟩
abbrev S384x1 : Shape := ⟨2, ![384, 1]⟩
abbrev S1 : Shape := ⟨1, ![1]⟩
abbrev S8192 : Shape := ⟨1, ![8192]⟩
abbrev S1x128 : Shape := ⟨2, ![1, 128]⟩
abbrev S256x8192 : Shape := ⟨2, ![256, 8192]⟩
abbrev S256x256 : Shape := ⟨2, ![256, 256]⟩
abbrev S1x1 : Shape := ⟨2, ![1, 1]⟩
abbrev S8192x1 : Shape := ⟨2, ![8192, 1]⟩
abbrev S256x1 : Shape := ⟨2, ![256, 1]⟩
abbrev S256x384 : Shape := ⟨2, ![256, 384]⟩

abbrev nBuf : Space → Nat
  | .hbm => 31
  | .vmem => 32
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S384x1, .f32⟩
  | .hbm, ⟨7, _⟩ => ⟨S1, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S8192, .i32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S8192x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x1, .f32⟩
  | .hbm, ⟨29, _⟩ => ⟨S8192x1, .i32⟩
  | .hbm, ⟨30, _⟩ => ⟨S256x1, .f32⟩
  | .local _ .vmem, ⟨0, _⟩ => ⟨S256x8192, .f32⟩
  | .local _ .vmem, ⟨1, _⟩ => ⟨S256x8192, .f32⟩
  | .local _ .vmem, ⟨2, _⟩ => ⟨S8192x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S256x128, .f32⟩
  | .local _ .vmem, ⟨12, _⟩ => ⟨S256x128, .f32⟩
  | .local _ .vmem, ⟨13, _⟩ => ⟨S256x8192, .f32⟩
  | .local _ .vmem, ⟨14, _⟩ => ⟨S256x8192, .f32⟩
  | .local _ .vmem, ⟨15, _⟩ => ⟨S8192x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x1, .i32⟩
  | .local _ .vmem, ⟨21, _⟩ => ⟨S256x1, .i32⟩
  | .local _ .vmem, ⟨22, _⟩ => ⟨S256x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S384x1, .f32⟩
  | .local _ .vmem, ⟨29, _⟩ => ⟨S1x1, .f32⟩
  | .local _ .vmem, ⟨30, _⟩ => ⟨S256x1, .f32⟩
  | .local _ .vmem, ⟨31, _⟩ => ⟨S256x384, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v56 : BitVec 1 := Scalar.cmpi .eq arg0 c31_i32
  let v57 : BitVec 32 := Scalar.extui v56
  let c0_i32_32 : BitVec 32 := 0#32
  let v58 : BitVec 1 := Scalar.cmpi .ne v57 c0_i32_32
  v58

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S384x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

class Facts₀ : Prop where
  shapeCasts_S128_S1x128 : S128.ShapeCasts S1x128
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  inb_S256x128_S256x128_0_0 : ∀ a, (![0, 0] : Fin 2 → Nat) a + S256x128.size a ≤ S256x128.size a
  h_S256x128 : 0 < S256x128.numel
  concatenates_S256x128_S256x128_S256x256_d1 : Shape.Concatenates [S256x128, S256x128] S256x256 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  shapeCasts_S1_S1x1 : S1.ShapeCasts S1x1
  shapeCasts_S8192_S8192x1 : S8192.ShapeCasts S8192x1
  inb_S256x384_S256x384_0_0 : ∀ a, (![0, 0] : Fin 2 → Nat) a + S256x384.size a ≤ S256x384.size a
  h_S256x384 : 0 < S256x384.numel
  shapeCasts_S256x384_S256x384 : S256x384.ShapeCasts S256x384
  shapeCasts_S8192x128_S8192x128 : S8192x128.ShapeCasts S8192x128
  shapeCasts_S256x128_S256x128 : S256x128.ShapeCasts S256x128
  concatenates_S256x128_S256x128_S256x128_S256x384_d1 : Shape.Concatenates [S256x128, S256x128, S256x128] S256x384 1
  iota_S256x256_d1_w32 : S256x256.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  natLt_1_32 : 1 < 32
  inb_S384x1_S384x1_0_0 : ∀ a, (![0, 0] : Fin 2 → Nat) a + S384x1.size a ≤ S384x1.size a
  h_S384x1 : 0 < S384x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  dot_S256x8192_S8192x128_S256x128_1_0_0_1_n_n_wf : DotDims.WF S256x8192 S8192x128 S256x128 [1] [0] [0] [1] [] []
  dot_S256x256_S256x128_S256x128_1_0_0_1_n_n_wf : DotDims.WF S256x256 S256x128 S256x128 [1] [0] [0] [1] [] []
  dot_S256x256_S256x384_S256x384_0_0_1_1_n_n_wf : DotDims.WF S256x256 S256x384 S256x384 [0] [0] [1] [1] [] []
  dot_S256x384_S384x1_S256x1_1_0_0_1_n_n_wf : DotDims.WF S256x384 S384x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S8192x128.size a
  hwx0_2 : ∀ i : grid0.Coords, EltTy.bits .f32 = 32 ∨ (Rect.block (s := S8192x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S8192x128.size a
  hwx0_9 : ∀ i : grid0.Coords, EltTy.bits .f32 = 32 ∨ (Rect.block (s := S8192x128) S256x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S8192x128.size a
  hwx1_2 : ∀ i : grid1.Coords, EltTy.bits .f32 = 32 ∨ (Rect.block (s := S8192x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S8192x128.size a
  hwx1_3 : ∀ i : grid1.Coords, EltTy.bits .f32 = 32 ∨ (Rect.block (s := S8192x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S8192x1.size a
  hwx1_4 : ∀ i : grid1.Coords, EltTy.bits .i32 = 32 ∨ (Rect.block (s := S8192x1) S256x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S384x1.size a ≤ S384x1.size a
  hwx1_11 : ∀ i : grid1.Coords, EltTy.bits .f32 = 32 ∨ (Rect.block (s := S384x1) S384x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S256x1.size a ≤ S256x1.size a
  hwx1_13 : ∀ i : grid1.Coords, EltTy.bits .f32 = 32 ∨ (Rect.block (s := S256x1) S256x1.size (cc1_transform_13 i) (hinb1_13 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x256_S256x384_S256x384_0_0_1_1_n_n : DotDims S256x256 S256x384 S256x384 where
  lhsContracting := [0]
  rhsContracting := [0]
  lhsNonContracting := [1]
  rhsNonContracting := [1]
  lhsBatch := []
  rhsBatch := []
  wf := dot_S256x256_S256x384_S256x384_0_0_1_1_n_n_wf
def dot_S256x384_S384x1_S256x1_1_0_0_1_n_n : DotDims S256x384 S384x1 S256x1 where
  lhsContracting := [1]
  rhsContracting := [0]
  lhsNonContracting := [0]
  rhsNonContracting := [1]
  lhsBatch := []
  rhsBatch := []
  wf := dot_S256x384_S384x1_S256x1_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S256x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v9) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v10) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg6) S384x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v11) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v13) S256x1.size cc1_transform_13 reads1_13 true true 1 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev idle1 : Fin 14 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k1_cond2 i == 1#1) | ⟨_ + 14, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S256x128 : Shape := ⟨2, ![256, 128]⟩
abbrev S128 : Shape := ⟨1, ![128]⟩
abbrev S384x1 : Shape := ⟨2, ![384, 1]⟩
abbrev S1 : Shape := ⟨1, ![1]⟩
abbrev S8192 : Shape := ⟨1, ![8192]⟩
abbrev S8192x256 : Shape := ⟨2, ![8192, 256]⟩
abbrev S1x128 : Shape := ⟨2, ![1, 128]⟩
abbrev S_ : Shape := ⟨0, ![]⟩
abbrev S8192x384 : Shape := ⟨2, ![8192, 384]⟩
abbrev S256x384 : Shape := ⟨2, ![256, 384]⟩
abbrev S8192x1 : Shape := ⟨2, ![8192, 1]⟩
abbrev S256x1 : Shape := ⟨2, ![256, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S384x1, .f32⟩
  | .hbm, ⟨7, _⟩ => ⟨S1, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S8192, .i32⟩
  | .hbm, ⟨17, _⟩ => ⟨S8192x128, .f32⟩
  | .hbm, ⟨18, _⟩ => ⟨S8192x256, .f32⟩
  | .hbm, ⟨19, _⟩ => ⟨S8192x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S1x128, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S8192x128, .f32⟩
  | .hbm, ⟨35, _⟩ => ⟨S8192x128, .f32⟩
  | .hbm, ⟨36, _⟩ => ⟨S1x128, .f32⟩
  | .hbm, ⟨37, _⟩ => ⟨S8192x128, .f32⟩
  | .hbm, ⟨38, _⟩ => ⟨S8192x128, .f32⟩
  | .hbm, ⟨39, _⟩ => ⟨S1x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x256, .f32⟩
  | .hbm, ⟨44, _⟩ => ⟨S8192x128, .f32⟩
  | .hbm, ⟨45, _⟩ => ⟨S1x128, .f32⟩
  | .hbm, ⟨46, _⟩ => ⟨S8192x128, .f32⟩
  | .hbm, ⟨47, _⟩ => ⟨S8192x128, .f32⟩
  | .hbm, ⟨48, _⟩ => ⟨S_, .f32⟩
  | .hbm, ⟨49, _⟩ => ⟨S8192x128, .f32⟩
  | .hbm, ⟨50, _⟩ => ⟨S8192x128, .f32⟩
  | .hbm, ⟨51, _⟩ => ⟨S1x128, .f32⟩
  | .hbm, ⟨52, _⟩ => ⟨S8192x128, .f32⟩
  | .hbm, ⟨53, _⟩ => ⟨S8192x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S8192x128, .f32⟩
  | .hbm, ⟨60, _⟩ => ⟨S8192x128, .f32⟩
  | .hbm, ⟨61, _⟩ => ⟨S1x128, .f32⟩
  | .hbm, ⟨62, _⟩ => ⟨S8192x128, .f32⟩
  | .hbm, ⟨63, _⟩ => ⟨S8192x128, .f32⟩
  | .hbm, ⟨64, _⟩ => ⟨S1x128, .f32⟩
  | .hbm, ⟨65, _⟩ => ⟨S8192x128, .f32⟩
  | .hbm, ⟨66, _⟩ => ⟨S8192x128, .f32⟩
  | .hbm, ⟨67, _⟩ => ⟨S8192x384, .f32⟩
  | .hbm, ⟨68, _⟩ => ⟨S_, .f32⟩
  | .hbm, ⟨69, _⟩ => ⟨S256x384, .f32⟩
  | .hbm, ⟨70, _⟩ => ⟨S8192x1, .i32⟩
  | .hbm, ⟨71, _⟩ => ⟨S256x384, .f32⟩
  | .hbm, ⟨72, _⟩ => ⟨S256x1, .f32⟩
  | .hbm, ⟨73, _⟩ => ⟨S1x1, .f32⟩
  | .hbm, ⟨74, _⟩ => ⟨S256x1, .f32⟩
  | .hbm, ⟨75, _⟩ => ⟨S256x1, .f32⟩
  | .hbm, ⟨76, _⟩ => ⟨S_, .f32⟩
  | .hbm, ⟨77, _⟩ => ⟨S256x1, .f32⟩
  | .hbm, ⟨78, _⟩ => ⟨S256x1, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call0_cst : Ref sig .tc := ⟨.hbm, 23, rfl⟩
abbrev main_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_cst : Ref sig .tc := ⟨.hbm, 48, rfl⟩
abbrev main_call1_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_1 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩

abbrev nD : Nat := 1
abbrev τ : Topo := Topo.v7x

variable {F : FTy → Type} [FloatOps F]

class Facts₀ : Prop where
  concatenates_S8192x128_S8192x128_S8192x256_d1 : Shape.Concatenates [S8192x128, S8192x128] S8192x256 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S_S128 : S_.BroadcastsInDim S128 (![] : Fin 0 → Fin S128.rank)
  concatenates_S8192x128_S8192x128_S8192x128_S8192x384_d1 : Shape.Concatenates [S8192x128, S8192x128, S8192x128] S8192x384 1
  bcast_S_S256x384 : S_.BroadcastsInDim S256x384 (![] : Fin 0 → Fin S256x384.rank)
  bcast_S8192_S8192x1_0 : S8192.BroadcastsInDim S8192x1 (![0] : Fin 1 → Fin S8192x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  dot_S8192x8192_S8192x128_S8192x128_1_0_0_1_n_n_wf : DotDims.WF S8192x8192 S8192x128 S8192x128 [1] [0] [0] [1] [] []
  dot_S8192x256_S256x128_S8192x128_1_0_0_1_n_n_wf : DotDims.WF S8192x256 S256x128 S8192x128 [1] [0] [0] [1] [] []
  scatter_S256x384_S8192x1_S8192x384_1_0_0_1_wf : ScatterDims.WF S256x384 S8192x1 S8192x384 [1] [0] [0] 1
  dot_S256x384_S384x1_S256x1_1_0_0_1_n_n_wf : DotDims.WF S256x384 S384x1 S256x1 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def scatter_S256x384_S8192x1_S8192x384_1_0_0_1 : ScatterDims S256x384 S8192x1 S8192x384 where
  updateWindowDims := [1]
  insertedWindowDims := [0]
  scatterDimsToOperandDims := [0]
  indexVectorDim := 1
  wf := scatter_S256x384_S8192x1_S8192x384_1_0_0_1_wf
def dot_S256x384_S384x1_S256x1_1_0_0_1_n_n : DotDims S256x384 S384x1 S256x1 where
  lhsContracting := [1]
  rhsContracting := [0]
  lhsNonContracting := [0]
  rhsNonContracting := [1]
  lhsBatch := []
  rhsBatch := []
  wf := dot_S256x384_S384x1_S256x1_1_0_0_1_n_n_wf

class Facts : Prop extends Facts₀ where

variable [Facts]
-- ==== Proof.Kernel.Data.lean ====
/-
  The pipelines' proof data for the two kernel regions, at any float instance and at the buffer contents `V` a
  region is entered from.

  Region 0 (one row tile of 256 nodes per grid point): the body reads the adjacency tile, the whole feature
  matrix, the same matrix's row tile, the first layer's weights and five row vectors, and stores ONE block:
  the first layer's activations of the tile. Every input window's staging buffer holds its array's block;
  the output window's holds the body's single store over those blocks.

  Region 1 (the same tiling, 32 points in order): besides its input blocks the body keeps a 256 × 384
  scratch across the grid. Point 0 overwrites it with zeros before adding; every point adds the tile's
  pooled contribution; the last point reads it back and stores the projected, rectified result into the
  output block. `sAfter1 n` is the scratch after point `n`, by recursion on the point.
-/
import proofs.«420502_j10273561772114_1_alg».proof.Proof.Gen.Kernel.Launch
import proofs.«420502_j10273561772114_1_alg».proof.Proof.Gen.Kernel.Skeleton
import proofs.«420502_j10273561772114_1_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

/-! ## The whole-buffer rectangles the bodies load and store through -/

abbrev rAdj : Rect S256x8192 := Rect.unit (s := S256x8192) ![0, 0] S256x8192.size inb_S256x8192_S256x8192_0_0
abbrev rFull : Rect S8192x128 := Rect.unit (s := S8192x128) ![0, 0] S8192x128.size inb_S8192x128_S8192x128_0_0
abbrev rTile : Rect S256x128 := Rect.unit (s := S256x128) ![0, 0] S256x128.size inb_S256x128_S256x128_0_0
abbrev rRow : Rect S1x128 := Rect.unit (s := S1x128) ![0, 0] S1x128.size inb_S1x128_S1x128_0_0
abbrev rIdx : Rect S256x1 := Rect.unit (s := S256x1) ![0, 0] S256x1.size inb_S256x1_S256x1_0_0
abbrev rPool : Rect S256x384 := Rect.unit (s := S256x384) ![0, 0] S256x384.size inb_S256x384_S256x384_0_0
abbrev rW4 : Rect S384x1 := Rect.unit (s := S384x1) ![0, 0] S384x1.size inb_S384x1_S384x1_0_0
abbrev rOne : Rect S1x1 := Rect.unit (s := S1x1) ![0, 0] S1x1.size inb_S1x1_S1x1_0_0

section AtEntry

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body's one store leaves in the output block, from the nine input blocks. -/
def out0_9 (x0 : Vec F S256x8192 .f32) (x1 : Vec F S8192x128 .f32) (x2 x3 : Vec F S256x128 .f32)
    (x4 x5 x6 x7 x8 : Vec F S1x128 .f32) : Vec F S256x128 .f32 :=
  View.canon [⟨rTile, k0_pay1 (View.ld x0 rAdj) (View.ld x1 rFull) (View.ld x2 rTile) (View.ld x3 rTile)
    (View.ld x4 rRow) (View.ld x5 rRow) (View.ld x6 rRow) (View.ld x7 rRow) (View.ld x8 rRow)⟩]

/-- The output block at point `t`. -/
def oblk0 (c : Dev nD) (t : Fin cfg0.N) : Vec F S256x128 .f32 :=
  out0_9 (iblk0 V c 0 t) (iblk0 V c 1 t) (iblk0 V c 2 t) (iblk0 V c 3 t) (iblk0 V c 4 t) (iblk0 V c 5 t)
    (iblk0 V c 6 t) (iblk0 V c 7 t) (iblk0 V c 8 t)

/-- Region 0's proof data. The feature matrix reaches the body through two windows (whole, and by row tile):
    they hold its buffer at the two halves of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => oblk0 V c t
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = oblk0 V c t := by dsimp only [dat0]
theorem Phi0 (c : Dev nD) (t : Fin (cfg0.N + 1)) : (dat0 V c).Φ t = Pipeline.ΦA spec0 c := rfl
theorem owed0 (c : Dev nD) (t : Fin (cfg0.N + 1)) : (dat0 V c).owed t = 0 := rfl

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch once point 0 has overwritten it: zeros. -/
def sReset1 : Vec F S256x384 .f32 := View.canon [⟨rPool, k1_pay3 (F := F)⟩]

/-- One point's update of the scratch: what the body's store leaves there when it found `prev`, from the
    input blocks of the point (the adjacency tile, the first layer's activations whole and by tile, the
    features' tile, the graph ids' tile, the second layer's weights and five row vectors). -/
def sStep1 (x0 : Vec F S256x8192 .f32) (x1 : Vec F S8192x128 .f32) (x2 x3 : Vec F S256x128 .f32) (x4 : Vec F S256x1 .i32)
    (x5 : Vec F S256x128 .f32) (x6 x7 x8 x9 x10 : Vec F S1x128 .f32) (prev : Vec F S256x384 .f32) : Vec F S256x384 .f32 :=
  View.canon [⟨rPool, k1_pay1 (k1_pay4 (View.ld x7 rRow)) (k1_pay5 (View.ld x8 rRow))
    (k1_pay6 (View.ld x0 rAdj) (View.ld x1 rFull) (View.ld x2 rTile) (View.ld x5 rTile) (View.ld x6 rRow) (View.ld x9 rRow))
    (k1_pay7 (View.ld x10 rRow)) (View.ld x3 rTile) (View.ld x2 rTile) (View.ld x4 rIdx) (View.ld prev rPool)⟩]

/-- The update at point `t`, over that point's blocks. -/
def sStepAt1 (c : Dev nD) (t : Fin cfg1.N) (prev : Vec F S256x384 .f32) : Vec F S256x384 .f32 :=
  sStep1 (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) prev

/-- The scratch after point `n`: point 0 updates the zeroed scratch, each later point what the point before left. -/
def sAfter1 (c : Dev nD) : ℕ → Vec F S256x384 .f32
  | 0 => sStepAt1 V c ⟨0, by decide⟩ sReset1
  | n + 1 => if h : n + 1 < cfg1.N then sStepAt1 V c ⟨n + 1, h⟩ (sAfter1 c n) else sAfter1 c n

theorem sAfter1_zero (c : Dev nD) : sAfter1 V c 0 = sStepAt1 V c ⟨0, by decide⟩ sReset1 := rfl
theorem sAfter1_succ (c : Dev nD) (n : ℕ) (h : n + 1 < cfg1.N) :
    sAfter1 V c (n + 1) = sStepAt1 V c ⟨n + 1, h⟩ (sAfter1 V c n) := by
  rw [sAfter1, dif_pos h]

/-- What the last point's store leaves in the output block: the scratch it has just updated, projected by the
    last layer's weights, shifted by its bias and rectified. -/
def out1_13 (s : Vec F S256x384 .f32) (x11 : Vec F S384x1 .f32) (x12 : Vec F S1x1 .f32) : Vec F S256x1 .f32 :=
  View.canon [⟨rIdx, k1_pay2 (View.ld s rPool) (View.ld x11 rW4) (View.ld x12 rOne)⟩]

/-- The output block as point `t` would store it (the pipeline consults it at the last point only). -/
def oblk1 (c : Dev nD) (t : Fin cfg1.N) : Vec F S256x1 .f32 :=
  out1_13 (sAfter1 V c t.val) (iblk1 V c 11 t) (iblk1 V c 12 t)

/-- The core's scoped buffers that are neither a staging buffer of region 1 nor its scratch, each at some
    contents (the buffers region 0 staged through). -/
def scopedOther1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- Region 1's invariant between points: before point 0 the scratch holds anything (the class's invariant);
    after point `n` it holds `sAfter1 n`, the other scoped buffers and the generator register as they were. -/
def Phi1 (c : Dev nD) : Fin (cfg1.N + 1) → sProp 𝕄
  | ⟨0, _⟩ => Pipeline.ΦA spec1 c
  | ⟨n + 1, _⟩ => iprop(scopedOther1 c ∗ owns (c : Thread nD τ) (Memref.whole cc1_scratch0) fullShare (sAfter1 V c n) ∗ ∃ r, prngReg c r)

/-- Region 1's proof data. The first layer's activations reach the body through two windows (whole, and by
    row tile): they hold that buffer at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => oblk1 V c t
  Φ := Phi1 V c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = oblk1 V c t := by dsimp only [dat1]
theorem Phi1_eq (c : Dev nD) (t : Fin (cfg1.N + 1)) : (dat1 V c).Φ t = Phi1 V c t := rfl
theorem Phi1_zero (c : Dev nD) : Phi1 V c 0 = Pipeline.ΦA spec1 c := rfl
theorem Phi1_succ (c : Dev nD) (n : ℕ) (h : n + 1 < cfg1.N + 1) :
    Phi1 V c ⟨n + 1, h⟩ = iprop(scopedOther1 c ∗ owns (c : Thread nD τ) (Memref.whole cc1_scratch0) fullShare (sAfter1 V c n) ∗ ∃ r, prngReg c r) := rfl
theorem owed1 (c : Dev nD) (t : Fin (cfg1.N + 1)) : (dat1 V c).owed t = 0 := rfl

end AtEntry

end Cert.Kernel.Hand

end
-- ==== Proof.Kernel.Body0.lean ====
/-
  Region 0's body at a generic grid point.

  The body reads ten staging buffers whole (the adjacency tile, the feature matrix, the matrix's row tile, the
  weights, five row vectors, and the output buffer, whose value it drops), computes one 256 × 128 value from
  the first nine, and writes that value over the whole output buffer. Three facts are put together here:

  * every input window's current buffer holds that window's block of its array at every point, whether the
    pipeline moved the block in at that point or left the buffer alone because the block index had not
    changed: the body never writes an input buffer, so what it leaves is what it found;
  * run on ten whole buffers, nine at known contents and the tenth at any, the body hands the nine back
    untouched and leaves in the tenth the single write of its value, which covers the buffer and so does not
    depend on what the buffer held;
  * the invariant between points and the empty tally of owed transfers are not read by the body and pass
    through it unchanged.
-/
import proofs.«420502_j10273561772114_1_alg».proof.Proof.Kernel.Data
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

section AtEntry

variable (V : (c : Dev nD) → (b : Ref sig .tc) → Buf (Elt F) ((c : Thread nD τ).loc b))

/-! ## What the body finds in the input buffers

An input window is never written by the body, is cut nowhere and is idle nowhere. So at a point where its block
is moved in the buffer holds the block, and at a point where it is not the block index is the one of the point
before, whose block the buffer still holds. Either way the buffer holds the point's block of the array. -/

theorem found0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem found0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem found0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem found0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem found0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem found0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

theorem found0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

theorem found0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

theorem found0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-! ## The body on ten whole buffers -/

/-- The one write of the body into the output buffer is through the whole-buffer rectangle, so every index of
    the buffer lies under it. -/
theorem whole_write_covers (p : Vec F S256x128 .f32) (y : S256x128.Idx) :
    ∃ pc ∈ ([⟨rTile, p⟩] : List (View.Piece (Elt F) S256x128 .f32)), y ∈ pc.1.set :=
  View.cover_of_tiled [⟨rTile, p⟩] S256x128.size (by rfl) y

set_option maxHeartbeats 1000000 in
/-- The kernel function called on ten whole buffers, the first nine reading `x0 … x8` and the tenth holding
    anything: the ten loads change nothing, the value is computed from the nine, and the store leaves the tenth
    reading `out0_9 x0 … x8`. Whatever is to follow (`K`) may assume the ten buffers so. -/
theorem layer1_on_buffers (c : Dev nD) (E : Set ℕ) (i : grid0.Coords) (a0 : Memref sig .tc .vmem S256x8192 .f32) (w0 : a0.IsWhole) (a1 : Memref sig .tc .vmem S8192x128 .f32) (w1 : a1.IsWhole) (a2 : Memref sig .tc .vmem S256x128 .f32) (w2 : a2.IsWhole) (a3 : Memref sig .tc .vmem S256x128 .f32) (w3 : a3.IsWhole) (a4 : Memref sig .tc .vmem S1x128 .f32) (w4 : a4.IsWhole) (a5 : Memref sig .tc .vmem S1x128 .f32) (w5 : a5.IsWhole) (a6 : Memref sig .tc .vmem S1x128 .f32) (w6 : a6.IsWhole) (a7 : Memref sig .tc .vmem S1x128 .f32) (w7 : a7.IsWhole) (a8 : Memref sig .tc .vmem S1x128 .f32) (w8 : a8.IsWhole) (a9 : Memref sig .tc .vmem S256x128 .f32) (w9 : a9.IsWhole)
    (x0 : Vec F S256x8192 .f32) (x1 : Vec F S8192x128 .f32) (x2 : Vec F S256x128 .f32) (x3 : Vec F S256x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out0_9 x0 x1 x2 x3 x4 x5 x6 x7 x8)) -∗ K ⟨⟩))
      ⊢ wp frame (wpE (defs₀ (F := F)) Variants.none c none) E (cc0__layer1_kernel i a0 w0 a1 w1 a2 w2 a3 w3 a4 w4 a5 w5 a6 w6 a7 w7 a8 w8 a9 w9) K := by
  simp only [cc0__layer1_kernel_eq_skeleton]; unfold cc0__layer1_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  subst e0 e1 e2 e3 e4 e5 e6 e7 e8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (whole_write_covers _)

/-! ## The obligation at a point -/

/-- What the pipeline hands the body at point `t`: the invariant between points, the tally of what the core
    owes, and every window's current buffer at what it then holds. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What the body gives back: the same invariant and tally one point on, and every current buffer at what the
    proof data say the body leaves there. -/
def givenBack0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point. The nine input buffers hold their blocks (`found0_w`), the output buffer holds
    something, so the run on ten whole buffers applies with the blocks as the contents read; the invariant and
    the tally are carried across unread. -/
theorem body_at_point0 (c : Dev nD) (t : Fin cfg0.N) :
    handed0 V c t ⊢ wp frame (wpE (defs₀ (F := F)) Variants.none c none) Set.univ (bodyAt0 t) (fun _ => givenBack0 V c t) := by
  unfold handed0 givenBack0 bodyAt0
  simp only [found0_0, found0_1, found0_2, found0_3, found0_4, found0_5, found0_6, found0_7, found0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  unfold oblk0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (layer1_on_buffers c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t)
    (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end AtEntry

/-- The library's body obligation for region 0's proof data, at every point and any entry contents `V`. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact body_at_point0 V c t

end Cert.Kernel.Hand

end
-- ==== Proof.Kernel.Body1.lean ====
/-
  Region 1's body obligation: the body run at a generic grid point, by the three cases of its two conditionals.

  The body keeps a 256 × 384 scratch across the 32 points. At the first point it overwrites the scratch with
  zeros; at every point it loads eleven input blocks and the scratch and stores the scratch's update; at the
  last point it loads the updated scratch and two more input blocks and stores the projected, rectified result
  whole into the output block. So over the grid there are three cases: the first point (reset, update), a
  middle point (update), the last point (update, output store). In each the input blocks are left as found, the
  scratch goes from what the point before left (anything, at the first point) to this point's update, and the
  output block is stored at the last point only and handed back as found elsewhere.
-/
import proofs.«420502_j10273561772114_1_alg».proof.Proof.Kernel.Data
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

/-! ## The two conditions over the grid, and where the output window is idle -/

/-- The first conditional's condition (the point is the first), from the grid coordinate. -/
abbrev condFirst1 (i : grid1.Coords) : Prop :=
  (Scalar.cmpi .ne (Scalar.extui (Scalar.cmpi .eq (BitVec.ofNat 32 (i 0).val) 0#32)) 0#32) = 1#1

/-- It holds at point 0 only. -/
theorem hcondFirst1 : ∀ t : Fin cfg1.N, condFirst1 (grid1.coords t) ↔ t.val % 32 = 0 :=
  (by decide +kernel : ∀ t : Fin grid1.N, condFirst1 (grid1.coords t) ↔ t.val % 32 = 0)

/-- The second conditional's condition (the point is the last). -/
abbrev condLast1 (i : grid1.Coords) : Prop := k1_cond2 i = 1#1

/-- It holds at point 31 only. -/
theorem hcondLast1 : ∀ t : Fin cfg1.N, condLast1 (grid1.coords t) ↔ t.val % 32 = 31 :=
  (by decide +kernel : ∀ t : Fin grid1.N, condLast1 (grid1.coords t) ↔ t.val % 32 = 31)

/-- The output window is idle wherever the point is not the last, -/
theorem idleAt1_13 : ∀ t : Fin cfg1.N, ¬condLast1 (grid1.coords t) → cfg1.idle 13 (grid1.coords t) = true := by
  decide +kernel
/-- and live at the last. -/
theorem liveAt1_13 : ∀ t : Fin cfg1.N, condLast1 (grid1.coords t) → cfg1.idle 13 (grid1.coords t) = false := by
  decide +kernel
/-- Where the point is not the last the output block is not written back. -/
theorem noFlush1_13 : ∀ t : Fin cfg1.N, ¬condLast1 (grid1.coords t) → (cfg1.win 13).flush t = false := by
  decide +kernel

/-! ## Whole-buffer stores and loads -/

section Whole

variable {sig' : RefSig} {κ : Kind} {sp : Space} {S : Shape} {e : EltTy} {Val : EltTy → Type}

/-- What a buffer reads after a list of stores whose LAST one goes through a rectangle that holds every index:
    that store's payload alone, as the canonical contents of the one piece — whatever the earlier stores and the
    prior contents were. -/
theorem read_writes_cons_whole [∀ e, Nonempty (Val e)] (v : View sig' κ sp S e) (f : v.ty.Contents Val) (r : Rect S)
    (w : r.shape.Idx → Val e) (L : List (View.Piece Val S e)) (h : ∀ y, y ∈ r.set) :
    v.read Val (v.writes Val f (⟨r, w⟩ :: L)) = View.canon [⟨r, w⟩] := by
  funext y
  obtain ⟨x, rfl⟩ := r.exists_idx_of_mem (h y)
  show v.read Val (v.writes Val f (⟨r, w⟩ :: L)) (r.emb x) = View.canon [⟨r, w⟩] (r.emb x)
  rw [View.read_writes_cons_emb, View.canon_cons_emb]

/-- A load through such a rectangle after such a list of stores reads the last store's canonical contents. -/
theorem readCov_cons_whole [∀ e, Nonempty (Val e)] (v : View sig' κ sp S e) (r : Rect S)
    (w : r.shape.Idx → Val e) (L : List (View.Piece Val S e)) (h : ∀ y, y ∈ r.set) :
    v.readCov (⟨r, w⟩ :: L) r.toLoadRect = View.ld (View.canon [⟨r, w⟩]) r := by
  rw [View.readCov_eq_canon']
  funext j
  show View.canon (⟨r, w⟩ :: L) (r.emb j) = View.canon [⟨r, w⟩] (r.emb j)
  rw [View.canon_cons_emb, View.canon_cons_emb]

end Whole

/-- The two zero offsets, as the constant function. -/
theorem off00 : (![0, 0] : Fin 2 → ℕ) = fun _ => 0 := by
  funext a; fin_cases a <;> rfl

/-- The scratch's whole rectangle holds every index of the scratch, -/
theorem rPool_full (y : S256x384.Idx) : y ∈ rPool.set := View.mem_set_unit_zero off00 _ y
/-- and the output block's whole rectangle every index of the block. -/
theorem rIdx_full (y : S256x1.Idx) : y ∈ rIdx.set := View.mem_set_unit_zero off00 _ y

section AtEntry

variable (V : (c : Dev nD) → (b : Ref sig .tc) → Buf (Elt F) ((c : Thread nD τ).loc b))

/-! ## What the body finds in each input window's buffer: the window's block, fetched at the point or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)

theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)

theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)

theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)

theorem before1_12 (c : Dev nD) (t : Fin cfg1.N) (d) : (dat1 V c).before 12 t d = iblk1 V c 12 t :=
  ((dat1 V c).before_in_eq_fetched 12 rfl (fun _ => rfl) (fun _ _ _ => rfl)
    (fun t => by rw [after1_12]; unfold Dat.blockOf iblk1; rw [A_eq1]; try rfl) t d).trans
    (by unfold Dat.fetched Dat.blockOf iblk1; rw [A_eq1]; try rfl)

end AtEntry

section Runs

/-! ## The body on any whole staging memrefs, case by case

In each case the thirteen input buffers are read and left as found. What the scratch and the output buffer end
with is read off the stores: each is stored whole, so each reads as its last store's payload. -/

set_option maxHeartbeats 4000000 in
/-- The first point: the scratch, found at anything, is overwritten with zeros and then updated; the output's
    buffer is left as found. -/
theorem run_first1 (c : Dev nD) (E : Set ℕ) (i : grid1.Coords) (arg1 : Memref sig .tc .vmem S256x8192 .f32) (harg1 : arg1.IsWhole) (arg2 : Memref sig .tc .vmem S8192x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1 .i32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S384x1 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x384 .f32) (harg15 : arg15.IsWhole)
    (hc1 : condFirst1 i) (hc2 : ¬condLast1 i)
    (x0 : Vec F S256x8192 .f32) (x1 : Vec F S8192x128 .f32) (x2 : Vec F S256x128 .f32) (x3 : Vec F S256x128 .f32) (x4 : Vec F S256x1 .i32) (x5 : Vec F S256x128 .f32) (x6 : Vec F S1x128 .f32) (x7 : Vec F S1x128 .f32) (x8 : Vec F S1x128 .f32) (x9 : Vec F S1x128 .f32) (x10 : Vec F S1x128 .f32) (x11 : Vec F S384x1 .f32) (x12 : Vec F S1x1 .f32) (xo : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare (sStep1 x0 x1 x2 x3 x4 x5 x6 x7 x8 x9 x10 (sReset1 (F := F)))) -∗ K ⟨⟩))
      ⊢ wp frame (wpE (defs₀ (F := F)) Variants.none c none) E (cc1__layer2_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fo, %hfo, Ho⟩, ⟨%ds, %fs, -, HS⟩, Hk⟩
  subst hf0; subst hf1; subst hf2; subst hf3; subst hf4; subst hf5; subst hf6; subst hf7; subst hf8; subst hf9; subst hf10; subst hf11; subst hf12; subst hfo
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [Ho]
  · iexists fo; isplitr; · ipureintro; rfl
    iexact Ho
  iexists _; isplitr
  swap; · iexact HS
  ipureintro
  sl_unfold_run_names
  unfold sStep1 sReset1
  rw [readCov_cons_whole _ _ _ _ rPool_full]
  simp only [View.readAt_eq_ld]
  exact read_writes_cons_whole _ _ _ _ _ rPool_full

set_option maxHeartbeats 4000000 in
/-- A middle point: the scratch goes from what the point before left to its update; the output's buffer is left
    as found. -/
theorem run_mid1 (c : Dev nD) (E : Set ℕ) (i : grid1.Coords) (arg1 : Memref sig .tc .vmem S256x8192 .f32) (harg1 : arg1.IsWhole) (arg2 : Memref sig .tc .vmem S8192x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1 .i32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S384x1 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x384 .f32) (harg15 : arg15.IsWhole)
    (hc1 : ¬condFirst1 i) (hc2 : ¬condLast1 i)
    (x0 : Vec F S256x8192 .f32) (x1 : Vec F S8192x128 .f32) (x2 : Vec F S256x128 .f32) (x3 : Vec F S256x128 .f32) (x4 : Vec F S256x1 .i32) (x5 : Vec F S256x128 .f32) (x6 : Vec F S1x128 .f32) (x7 : Vec F S1x128 .f32) (x8 : Vec F S1x128 .f32) (x9 : Vec F S1x128 .f32) (x10 : Vec F S1x128 .f32) (x11 : Vec F S384x1 .f32) (x12 : Vec F S1x1 .f32) (xo : Vec F S256x1 .f32) (prev : Vec F S256x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare prev
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare (sStep1 x0 x1 x2 x3 x4 x5 x6 x7 x8 x9 x10 prev)) -∗ K ⟨⟩))
      ⊢ wp frame (wpE (defs₀ (F := F)) Variants.none c none) E (cc1__layer2_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fo, %hfo, Ho⟩, ⟨%fs, %hfs, HS⟩, Hk⟩
  subst hf0; subst hf1; subst hf2; subst hf3; subst hf4; subst hf5; subst hf6; subst hf7; subst hf8; subst hf9; subst hf10; subst hf11; subst hf12; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [Ho]
  · iexists fo; isplitr; · ipureintro; rfl
    iexact Ho
  iexists _; isplitr
  swap; · iexact HS
  ipureintro
  sl_unfold_run_names
  unfold sStep1
  simp only [View.readAt_eq_ld]
  exact read_writes_cons_whole _ _ _ _ _ rPool_full

set_option maxHeartbeats 4000000 in
/-- The last point: the scratch is updated, read back, and the projected, rectified result stored whole into the
    output's buffer, found at anything. -/
theorem run_last1 (c : Dev nD) (E : Set ℕ) (i : grid1.Coords) (arg1 : Memref sig .tc .vmem S256x8192 .f32) (harg1 : arg1.IsWhole) (arg2 : Memref sig .tc .vmem S8192x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1 .i32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S384x1 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x384 .f32) (harg15 : arg15.IsWhole)
    (hc1 : ¬condFirst1 i) (hc2 : condLast1 i)
    (x0 : Vec F S256x8192 .f32) (x1 : Vec F S8192x128 .f32) (x2 : Vec F S256x128 .f32) (x3 : Vec F S256x128 .f32) (x4 : Vec F S256x1 .i32) (x5 : Vec F S256x128 .f32) (x6 : Vec F S1x128 .f32) (x7 : Vec F S1x128 .f32) (x8 : Vec F S1x128 .f32) (x9 : Vec F S1x128 .f32) (x10 : Vec F S1x128 .f32) (x11 : Vec F S384x1 .f32) (x12 : Vec F S1x1 .f32) (prev : Vec F S256x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare prev
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out1_13 (sStep1 x0 x1 x2 x3 x4 x5 x6 x7 x8 x9 x10 prev) x11 x12) ∗ owns (c : Thread nD τ) arg15 fullShare (sStep1 x0 x1 x2 x3 x4 x5 x6 x7 x8 x9 x10 prev)) -∗ K ⟨⟩))
      ⊢ wp frame (wpE (defs₀ (F := F)) Variants.none c none) E (cc1__layer2_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%dout, %fo, -, Ho⟩, ⟨%fs, %hfs, HS⟩, Hk⟩
  subst hf0; subst hf1; subst hf2; subst hf3; subst hf4; subst hf5; subst hf6; subst hf7; subst hf8; subst hf9; subst hf10; subst hf11; subst hf12; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [Ho]
  · iexists _; isplitr
    swap; · iexact Ho
    ipureintro
    sl_unfold_run_names
    unfold out1_13 sStep1
    rw [readCov_cons_whole _ _ _ _ rPool_full]
    simp only [View.readAt_eq_ld]
    exact read_writes_cons_whole _ _ _ _ _ rIdx_full
  iexists _; isplitr
  swap; · iexact HS
  ipureintro
  sl_unfold_run_names
  unfold sStep1
  simp only [View.readAt_eq_ld]
  exact read_writes_cons_whole _ _ _ _ _ rPool_full

end Runs

section AtEntry2

variable (V : (c : Dev nD) → (b : Ref sig .tc) → Buf (Elt F) ((c : Thread nD τ).loc b))

/-! ## The invariant and the scratch's contents, point by point -/

/-- The class's invariant hands out the scratch, at some contents, apart from the other scoped buffers. -/
theorem PhiA1_split (c : Dev nD) :
    (Pipeline.ΦA spec1 c : sProp 𝕄)
      ⊢ iprop(scopedOther1 (F := F) c ∗ (∃ d, owns (c : Thread nD τ) (Memref.whole cc1_scratch0) fullShare d) ∗ ∃ r, prngReg c r) := by
  unfold Pipeline.ΦA scopedOther1; rw [scopedRest1_eq]
  iintro ⟨⟨B0, B1, B2, B3, B4, B5, B6, B7, B8, B9, B10, B11, B12, ⟨%f, HS⟩⟩, Hg⟩
  isplitl [B0 B1 B2 B3 B4 B5 B6 B7 B8 B9 B10 B11 B12]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexact B12
  isplitl [HS]
  · iexists f; rw [owns_whole]; iexact HS
  iexact Hg

/-- Before the first point the invariant is the class's. -/
theorem Phi1_castSucc_zero (c : Dev nD) (t : Fin cfg1.N) (hz : t.val = 0) :
    Phi1 V c t.castSucc = Pipeline.ΦA spec1 c := by
  obtain ⟨n, hn⟩ := t
  cases n with
  | zero => rfl
  | succ n => exact absurd hz (Nat.succ_ne_zero n)

/-- Before a later point it holds the scratch at what the point before left. -/
theorem Phi1_castSucc_pos (c : Dev nD) (t : Fin cfg1.N) (hz : t.val ≠ 0) :
    Phi1 V c t.castSucc = iprop(scopedOther1 c ∗ owns (c : Thread nD τ) (Memref.whole cc1_scratch0) fullShare (sAfter1 V c (t.val - 1)) ∗ ∃ r, prngReg c r) := by
  obtain ⟨n, hn⟩ := t
  cases n with
  | zero => exact absurd rfl hz
  | succ n => rfl

/-- After a point it holds the scratch at what that point left. -/
theorem Phi1_succ_val (c : Dev nD) (t : Fin cfg1.N) :
    Phi1 V c t.succ = iprop(scopedOther1 c ∗ owns (c : Thread nD τ) (Memref.whole cc1_scratch0) fullShare (sAfter1 V c t.val) ∗ ∃ r, prngReg c r) := rfl

/-- What the first point leaves in the scratch: its update of the zeroed scratch. -/
theorem sAfter1_first (c : Dev nD) (t : Fin cfg1.N) (hz : t.val = 0) : sAfter1 V c t.val = sStepAt1 V c t sReset1 := by
  obtain ⟨n, hn⟩ := t
  cases n with
  | zero => exact sAfter1_zero V c
  | succ n => exact absurd hz (Nat.succ_ne_zero n)

/-- What a later point leaves: its update of what the point before left. -/
theorem sAfter1_later (c : Dev nD) (t : Fin cfg1.N) (hz : t.val ≠ 0) :
    sAfter1 V c t.val = sStepAt1 V c t (sAfter1 V c (t.val - 1)) := by
  obtain ⟨n, hn⟩ := t
  cases n with
  | zero => exact absurd rfl hz
  | succ n => exact sAfter1_succ V c n hn

/-! ## The body obligation, at a generic point -/

/-- What the body is called with at point `t`: the invariant, the core's tallies, every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t)

set_option maxHeartbeats 4000000 in
/-- The body at any point. Every input's buffer holds its block; the point's position on the grid says which of
    the three cases it is in; the invariant hands the body the scratch (at anything before the first point, at
    what the point before left afterwards) and takes it back at this point's update; the output's buffer is
    handed back as found, but at the last point, where it holds the stored result. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).owesAt () t.succ = (dat1 V c).owesAt () t.castSucc from rfl]
  rw [Phi1_eq, Phi1_eq, Phi1_succ_val]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [show (dat1 V c).leavesExact 3 t = owns (c : Thread nD τ) (st1_3 t) fullShare ((dat1 V c).after 3 t) from rfl, after1_3]
  rw [show (dat1 V c).leavesExact 4 t = owns (c : Thread nD τ) (st1_4 t) fullShare ((dat1 V c).after 4 t) from rfl, after1_4]
  rw [show (dat1 V c).leavesExact 5 t = owns (c : Thread nD τ) (st1_5 t) fullShare ((dat1 V c).after 5 t) from rfl, after1_5]
  rw [show (dat1 V c).leavesExact 6 t = owns (c : Thread nD τ) (st1_6 t) fullShare ((dat1 V c).after 6 t) from rfl, after1_6]
  rw [show (dat1 V c).leavesExact 7 t = owns (c : Thread nD τ) (st1_7 t) fullShare ((dat1 V c).after 7 t) from rfl, after1_7]
  rw [show (dat1 V c).leavesExact 8 t = owns (c : Thread nD τ) (st1_8 t) fullShare ((dat1 V c).after 8 t) from rfl, after1_8]
  rw [show (dat1 V c).leavesExact 9 t = owns (c : Thread nD τ) (st1_9 t) fullShare ((dat1 V c).after 9 t) from rfl, after1_9]
  rw [show (dat1 V c).leavesExact 10 t = owns (c : Thread nD τ) (st1_10 t) fullShare ((dat1 V c).after 10 t) from rfl, after1_10]
  rw [show (dat1 V c).leavesExact 11 t = owns (c : Thread nD τ) (st1_11 t) fullShare ((dat1 V c).after 11 t) from rfl, after1_11]
  rw [show (dat1 V c).leavesExact 12 t = owns (c : Thread nD τ) (st1_12 t) fullShare ((dat1 V c).after 12 t) from rfl, after1_12]
  have hN : t.val < 32 := lt_of_lt_of_eq t.isLt (show cfg1.N = 32 from N_1)
  by_cases h0 : t.val % 32 = 0
  · have hz : t.val = 0 := by omega
    have h1 : ¬t.val % 32 = 31 := by omega
    have hc1 : condFirst1 (grid1.coords t) := (hcondFirst1 t).mpr h0
    have hc2 : ¬condLast1 (grid1.coords t) := fun h => h1 ((hcondLast1 t).mp h)
    rw [Dat.leavesExact_idle (dat1 V c) 13 t (idleAt1_13 t hc2) (noFlush1_13 t hc2)]
    rw [Phi1_castSucc_zero V c t hz, sAfter1_first V c t hz]
    unfold sStepAt1
    refine (sep_mono (PhiA1_split c) .rfl).trans ?_
    iintro ⟨⟨Hoth, HS, Hg⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_first1 c Set.univ (grid1.coords t) _ _ _ _ _ _ _ _ _ _ _ _ _ _ _ _ _ _ _ _ _ _ _ _ _ _ _ _ _ _ hc1 hc2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) ((dat1 V c).before 13 t d13) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS]; · iexact HS
    iintro ⟨H0, H1, H2, H3, H4, H5, H6, H7, H8, H9, H10, H11, H12, H13, HS⟩
    isplitl [Hoth HS Hg]
    · isplitl [Hoth]; · iexact Hoth
      isplitl [HS]; · iexact HS
      iexact Hg
    isplitl [Howe]; · iexact Howe
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13
  · have hz : t.val ≠ 0 := by omega
    have hc1 : ¬condFirst1 (grid1.coords t) := fun h => h0 ((hcondFirst1 t).mp h)
    rw [Phi1_castSucc_pos V c t hz]
    by_cases h1 : t.val % 32 = 31
    · have hc2 : condLast1 (grid1.coords t) := (hcondLast1 t).mpr h1
      rw [show (dat1 V c).leavesExact 13 t = owns (c : Thread nD τ) (st1_13 t) fullShare ((dat1 V c).after 13 t) from by
        unfold Dat.leavesExact; rw [liveAt1_13 t hc2], after1_13]
      unfold oblk1
      rw [sAfter1_later V c t hz]
      unfold sStepAt1
      iintro ⟨⟨Hoth, HS, Hg⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_last1 c Set.univ (grid1.coords t) _ _ _ _ _ _ _ _ _ _ _ _ _ _ _ _ _ _ _ _ _ _ _ _ _ _ _ _ _ _ hc1 hc2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (sAfter1 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [HS]; · iexact HS
      iintro ⟨H0, H1, H2, H3, H4, H5, H6, H7, H8, H9, H10, H11, H12, H13, HS⟩
      isplitl [Hoth HS Hg]
      · isplitl [Hoth]; · iexact Hoth
        isplitl [HS]; · iexact HS
        iexact Hg
      isplitl [Howe]; · iexact Howe
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · have hc2 : ¬condLast1 (grid1.coords t) := fun h => h1 ((hcondLast1 t).mp h)
      rw [Dat.leavesExact_idle (dat1 V c) 13 t (idleAt1_13 t hc2) (noFlush1_13 t hc2)]
      rw [sAfter1_later V c t hz]
      unfold sStepAt1
      iintro ⟨⟨Hoth, HS, Hg⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_mid1 c Set.univ (grid1.coords t) _ _ _ _ _ _ _ _ _ _ _ _ _ _ _ _ _ _ _ _ _ _ _ _ _ _ _ _ _ _ hc1 hc2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) ((dat1 V c).before 13 t d13) (sAfter1 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS]; · iexact HS
      iintro ⟨H0, H1, H2, H3, H4, H5, H6, H7, H8, H9, H10, H11, H12, H13, HS⟩
      isplitl [Hoth HS Hg]
      · isplitl [Hoth]; · iexact Hoth
        isplitl [HS]; · iexact HS
        iexact Hg
      isplitl [Howe]; · iexact Howe
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists d13; iexact H13

end AtEntry2

/-- The library's body obligation for region 1's proof data, at every point and any entry contents `V`. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

end Cert.Kernel.Hand

end
-- ==== Proof.Kernel.Regs.lean ====
/-
  The two kernel regions as segments of the program's run, and the run itself: every weakly fair execution
  terminates with the argument arrays as launched, and the result array at what region 1's write-back leaves.

  Between two items a core holds every unscoped buffer whole at a valuation, beside its generator register at
  some state and its dues at nothing. Region 0 is entered from the launch contents after the first host stretch;
  it leaves every buffer as entered but its output array, which holds the 32 write-backs folded. Region 1 is
  entered from those contents after the second host stretch and leaves its own output array likewise.

  In each region two input windows read ONE array (the whole matrix, and the same matrix by row tile). The core
  holds that array's buffer once, at the full share; the pipeline holds an array per window. At the entry the
  buffer's points-to is halved along the share (left half to the first of the two windows, right half to the
  second) and at the exit the two halves, which hold the same contents, are joined again.
-/
import proofs.«420502_j10273561772114_1_alg».proof.Proof.Kernel.Data
import proofs.«420502_j10273561772114_1_alg».proof.Proof.Kernel.Body0
import proofs.«420502_j10273561772114_1_alg».proof.Proof.Kernel.Body1
import proofs.«420502_j10273561772114_1_alg».proof.Proof.Gen.Kernel.Regions
import Idealize.ShloMosaic.Lib.Pipeline.RegionsLoop
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents between the items -/

/-- Region 0 is entered from the launch contents after the first host stretch. -/
abbrev Vin0 : (c : Dev nD) → (b : Ref sig .tc) → Buf (Elt F) ((c : Thread nD τ).loc b) := fun c b => Gen.V1 m c b

/-- What region 0 leaves in its output array: its 32 write-backs folded. -/
def x1Out (c : Dev nD) : Buf (Elt F) ((c : Thread nD τ).loc main_v5) := (dat0 (Vin0 m) c).arrAt 9 cfg0.N

/-- The contents after region 0 alone, whatever the item: region 0's entry contents with its output array replaced. -/
def outsA : Gen.Outs (F := F) := fun _ r c => Function.update (Vin0 m c) main_v5 (x1Out m c) r

/-- Region 1's entry contents, written over region 0's exit alone. -/
abbrev Vin1A : (c : Dev nD) → (b : Ref sig .tc) → Buf (Elt F) ((c : Thread nD τ).loc b) := fun c b => Gen.V3 m (outsA m) c b

/-- What region 1 leaves in its output array: its write-backs folded. -/
def x2Out (c : Dev nD) : Buf (Elt F) ((c : Thread nD τ).loc main_v13) := (dat1 (Vin1A m) c).arrAt 13 cfg1.N

/-- The contents the regions leave: after item 1 region 0's exit contents, after item 3 region 1's entry contents
    with its output array replaced. -/
def outs : Gen.Outs (F := F) := fun j r c =>
  if j = 2 then Function.update (Vin0 m c) main_v5 (x1Out m c) r
  else Function.update (Vin1A m c) main_v13 (x2Out m c) r

/-- Region 1 is entered from those contents after the second host stretch. -/
abbrev Vin1 : (c : Dev nD) → (b : Ref sig .tc) → Buf (Elt F) ((c : Thread nD τ).loc b) := fun c b => Gen.V3 m (outs m) c b

theorem outs_v5 (c : Dev nD) : outs m 2 main_v5 c = (dat0 (Vin0 m) c).arrAt 9 cfg0.N := by
  unfold outs
  rw [if_pos rfl, Function.update_self]
  rfl

theorem outs_two (c : Dev nD) : outs m 2 main_v5 c = outsA m 2 main_v5 c := by
  unfold outs outsA
  rw [if_pos rfl]

/-- The second host stretch runs from the same contents whichever way region 0's exit is written. -/
theorem V2_eq (c : Dev nD) : Gen.V2 m (outs m) c = Gen.V2 m (outsA m) c := by
  show Function.update (Gen.V1 m c) main_v5 (outs m 2 main_v5 c) = Function.update (Gen.V1 m c) main_v5 (outsA m 2 main_v5 c)
  rw [outs_two]

theorem Vin1_eq : Vin1 m = Vin1A m := by
  funext c b
  show StableHlo.after hostOps1 (Gen.V2 m (outs m) c) b = StableHlo.after hostOps1 (Gen.V2 m (outsA m) c) b
  rw [V2_eq]

theorem outs_v13 (c : Dev nD) : outs m 4 main_v13 c = (dat1 (Vin1 m) c).arrAt 13 cfg1.N := by
  rw [Vin1_eq]
  unfold outs
  rw [if_neg (by decide), Function.update_self]
  rfl

section Arrays0

variable (V : (c : Dev nD) → (b : Ref sig .tc) → Buf (Elt F) ((c : Thread nD τ).loc b))

/-- Region 0's windowed arrays at contents read off a valuation `W`, window by window: each array's buffer at the
    window's share, the two windows on one array at the two halves of the full share. -/
theorem arrays0_eq (c : Dev nD) (W : (b : Ref sig .tc) → Buf (Elt F) ((c : Thread nD τ).loc b))
    (Fa : (w : Fin cfg0.W) → Buf (Elt F) ((cfg0.win w).arr.view.loc (c.tc : Thread nD τ)))
    (hF : ∀ w, Fa w = W (Pipeline.arrRef spec0 w)) :
    ((dat0 V c).arrays Fa : sProp 𝕄) = iprop((((c : Thread nD τ).loc main_arg0) ↦{fullShare} W main_arg0) ∗ (((c : Thread nD τ).loc main_arg1) ↦{fullShare.left} W main_arg1) ∗ (((c : Thread nD τ).loc main_arg1) ↦{fullShare.right} W main_arg1) ∗ (((c : Thread nD τ).loc main_arg2) ↦{fullShare} W main_arg2) ∗ (((c : Thread nD τ).loc main_v0) ↦{fullShare} W main_v0) ∗ (((c : Thread nD τ).loc main_v1) ↦{fullShare} W main_v1) ∗ (((c : Thread nD τ).loc main_v2) ↦{fullShare} W main_v2) ∗ (((c : Thread nD τ).loc main_v3) ↦{fullShare} W main_v3) ∗ (((c : Thread nD τ).loc main_v4) ↦{fullShare} W main_v4) ∗ (((c : Thread nD τ).loc main_v5) ↦{fullShare} W main_v5)) := by
  have h : ((dat0 V c).arrays Fa : sProp 𝕄)
      = bigSep Finset.univ fun w => (((c.tc : Thread nD τ).loc (Pipeline.arrRef spec0 w)) ↦{(dat0 V c).share w} W (Pipeline.arrRef spec0 w) : sProp 𝕄) := by
    unfold Pipeline.Dat.arrays
    exact bigSep_congr fun w _ => by rw [(arr_whole0 w).set_eq_univ, hF]
  rw [h, bigSep_W0]
  rfl

/-- The distinct buffers behind region 0's arrays, one by one, each whole at the full share. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄) = iprop((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_v0) ↦{fullShare} W main_v0) ∗ (((c : Thread nD τ).loc main_v1) ↦{fullShare} W main_v1) ∗ (((c : Thread nD τ).loc main_v2) ↦{fullShare} W main_v2) ∗ (((c : Thread nD τ).loc main_v3) ↦{fullShare} W main_v3) ∗ (((c : Thread nD τ).loc main_v4) ↦{fullShare} W main_v4) ∗ (((c : Thread nD τ).loc main_v5) ↦{fullShare} W main_v5)) := by
  unfold Pipeline.arrBufs
  exact bigSep_eq_bigSepL_of_eq [main_arg0, main_arg1, main_arg2, main_v0, main_v1, main_v2, main_v3, main_v4, main_v5] (by decide) (by decide) _

/-- ENTRY: the buffers behind the arrays make the windows' arrays; the shared buffer's points-to is halved. -/
theorem arrays0_of_bufs (c : Dev nD) (W : (b : Ref sig .tc) → Buf (Elt F) ((c : Thread nD τ).loc b))
    (Fa : (w : Fin cfg0.W) → Buf (Elt F) ((cfg0.win w).arr.view.loc (c.tc : Thread nD τ)))
    (hF : ∀ w, Fa w = W (Pipeline.arrRef spec0 w)) :
    (Pipeline.arrBufs (Ix := Unit) (Name := ℕ) (U := UR sig nD τ) (Lvl := ℕ) spec0 c W : sProp 𝕄) ⊢ (dat0 V c).arrays Fa := by
  rw [arrBufs0_eq, arrays0_eq V c W Fa hF]
  iintro ⟨H0, H1, H2, H3, H4, H5, H6, H7, H8⟩
  ihave Hs := (pointsTo_share (PosShare.mem_left_op_right fullShare)).1 $$ H1
  icases Hs with ⟨Hl, Hr⟩
  isplitl [H0]; · iexact H0
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  iexact H8

/-- EXIT: the windows' arrays make the buffers behind them; the two halves of the shared buffer, at the same
    contents, are joined. -/
theorem bufs_of_arrays0 (c : Dev nD) (W : (b : Ref sig .tc) → Buf (Elt F) ((c : Thread nD τ).loc b))
    (Fa : (w : Fin cfg0.W) → Buf (Elt F) ((cfg0.win w).arr.view.loc (c.tc : Thread nD τ)))
    (hF : ∀ w, Fa w = W (Pipeline.arrRef spec0 w)) :
    ((dat0 V c).arrays Fa : sProp 𝕄) ⊢ Pipeline.arrBufs (Ix := Unit) (Name := ℕ) (U := UR sig nD τ) (Lvl := ℕ) spec0 c W := by
  rw [arrBufs0_eq, arrays0_eq V c W Fa hF]
  iintro ⟨G0, G1, G2, G3, G4, G5, G6, G7, G8, G9⟩
  ihave H1 := (pointsTo_share (PosShare.mem_left_op_right fullShare)).2 $$ [G1 G2]
  · isplitl [G1]; · iexact G1
    iexact G2
  isplitl [G0]; · iexact G0
  isplitl [H1]; · iexact H1
  isplitl [G3]; · iexact G3
  isplitl [G4]; · iexact G4
  isplitl [G5]; · iexact G5
  isplitl [G6]; · iexact G6
  isplitl [G7]; · iexact G7
  isplitl [G8]; · iexact G8
  iexact G9

end Arrays0

section Arrays1

variable (V : (c : Dev nD) → (b : Ref sig .tc) → Buf (Elt F) ((c : Thread nD τ).loc b))

/-- Region 1's windowed arrays at contents read off a valuation `W`, window by window: each array's buffer at the
    window's share, the two windows on one array at the two halves of the full share. -/
theorem arrays1_eq (c : Dev nD) (W : (b : Ref sig .tc) → Buf (Elt F) ((c : Thread nD τ).loc b))
    (Fa : (w : Fin cfg1.W) → Buf (Elt F) ((cfg1.win w).arr.view.loc (c.tc : Thread nD τ)))
    (hF : ∀ w, Fa w = W (Pipeline.arrRef spec1 w)) :
    ((dat1 V c).arrays Fa : sProp 𝕄) = iprop((((c : Thread nD τ).loc main_arg0) ↦{fullShare} W main_arg0) ∗ (((c : Thread nD τ).loc main_v5) ↦{fullShare.left} W main_v5) ∗ (((c : Thread nD τ).loc main_v5) ↦{fullShare.right} W main_v5) ∗ (((c : Thread nD τ).loc main_arg1) ↦{fullShare} W main_arg1) ∗ (((c : Thread nD τ).loc main_v12) ↦{fullShare} W main_v12) ∗ (((c : Thread nD τ).loc main_arg4) ↦{fullShare} W main_arg4) ∗ (((c : Thread nD τ).loc main_v6) ↦{fullShare} W main_v6) ∗ (((c : Thread nD τ).loc main_v7) ↦{fullShare} W main_v7) ∗ (((c : Thread nD τ).loc main_v8) ↦{fullShare} W main_v8) ∗ (((c : Thread nD τ).loc main_v9) ↦{fullShare} W main_v9) ∗ (((c : Thread nD τ).loc main_v10) ↦{fullShare} W main_v10) ∗ (((c : Thread nD τ).loc main_arg6) ↦{fullShare} W main_arg6) ∗ (((c : Thread nD τ).loc main_v11) ↦{fullShare} W main_v11) ∗ (((c : Thread nD τ).loc main_v13) ↦{fullShare} W main_v13)) := by
  have h : ((dat1 V c).arrays Fa : sProp 𝕄)
      = bigSep Finset.univ fun w => (((c.tc : Thread nD τ).loc (Pipeline.arrRef spec1 w)) ↦{(dat1 V c).share w} W (Pipeline.arrRef spec1 w) : sProp 𝕄) := by
    unfold Pipeline.Dat.arrays
    exact bigSep_congr fun w _ => by rw [(arr_whole1 w).set_eq_univ, hF]
  rw [h, bigSep_W1]
  rfl

/-- The distinct buffers behind region 1's arrays, one by one, each whole at the full share. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄) = iprop((((c : Thread nD τ).loc main_arg0) ↦{fullShare} W main_arg0) ∗ (((c : Thread nD τ).loc main_v5) ↦{fullShare} W main_v5) ∗ (((c : Thread nD τ).loc main_arg1) ↦{fullShare} W main_arg1) ∗ (((c : Thread nD τ).loc main_v12) ↦{fullShare} W main_v12) ∗ (((c : Thread nD τ).loc main_arg4) ↦{fullShare} W main_arg4) ∗ (((c : Thread nD τ).loc main_v6) ↦{fullShare} W main_v6) ∗ (((c : Thread nD τ).loc main_v7) ↦{fullShare} W main_v7) ∗ (((c : Thread nD τ).loc main_v8) ↦{fullShare} W main_v8) ∗ (((c : Thread nD τ).loc main_v9) ↦{fullShare} W main_v9) ∗ (((c : Thread nD τ).loc main_v10) ↦{fullShare} W main_v10) ∗ (((c : Thread nD τ).loc main_arg6) ↦{fullShare} W main_arg6) ∗ (((c : Thread nD τ).loc main_v11) ↦{fullShare} W main_v11) ∗ (((c : Thread nD τ).loc main_v13) ↦{fullShare} W main_v13)) := by
  unfold Pipeline.arrBufs
  exact bigSep_eq_bigSepL_of_eq [main_arg0, main_v5, main_arg1, main_v12, main_arg4, main_v6, main_v7, main_v8, main_v9, main_v10, main_arg6, main_v11, main_v13] (by decide) (by decide) _

/-- ENTRY: the buffers behind the arrays make the windows' arrays; the shared buffer's points-to is halved. -/
theorem arrays1_of_bufs (c : Dev nD) (W : (b : Ref sig .tc) → Buf (Elt F) ((c : Thread nD τ).loc b))
    (Fa : (w : Fin cfg1.W) → Buf (Elt F) ((cfg1.win w).arr.view.loc (c.tc : Thread nD τ)))
    (hF : ∀ w, Fa w = W (Pipeline.arrRef spec1 w)) :
    (Pipeline.arrBufs (Ix := Unit) (Name := ℕ) (U := UR sig nD τ) (Lvl := ℕ) spec1 c W : sProp 𝕄) ⊢ (dat1 V c).arrays Fa := by
  rw [arrBufs1_eq, arrays1_eq V c W Fa hF]
  iintro ⟨H0, H1, H2, H3, H4, H5, H6, H7, H8, H9, H10, H11, H12⟩
  ihave Hs := (pointsTo_share (PosShare.mem_left_op_right fullShare)).1 $$ H1
  icases Hs with ⟨Hl, Hr⟩
  isplitl [H0]; · iexact H0
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- EXIT: the windows' arrays make the buffers behind them; the two halves of the shared buffer, at the same
    contents, are joined. -/
theorem bufs_of_arrays1 (c : Dev nD) (W : (b : Ref sig .tc) → Buf (Elt F) ((c : Thread nD τ).loc b))
    (Fa : (w : Fin cfg1.W) → Buf (Elt F) ((cfg1.win w).arr.view.loc (c.tc : Thread nD τ)))
    (hF : ∀ w, Fa w = W (Pipeline.arrRef spec1 w)) :
    ((dat1 V c).arrays Fa : sProp 𝕄) ⊢ Pipeline.arrBufs (Ix := Unit) (Name := ℕ) (U := UR sig nD τ) (Lvl := ℕ) spec1 c W := by
  rw [arrBufs1_eq, arrays1_eq V c W Fa hF]
  iintro ⟨G0, G1, G2, G3, G4, G5, G6, G7, G8, G9, G10, G11, G12, G13⟩
  ihave H1 := (pointsTo_share (PosShare.mem_left_op_right fullShare)).2 $$ [G1 G2]
  · isplitl [G1]; · iexact G1
    iexact G2
  isplitl [G0]; · iexact G0
  isplitl [H1]; · iexact H1
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  iexact G13

end Arrays1

/-! ## The proof data and the rest state -/

/-- Each pipeline's proof data at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## Region 0 -/

/-- At region 0's exit every window's array holds what the valuation after the region reads there: the output
    array its folded write-backs, an input array what it held at entry. -/
theorem exitF0 (c : Dev nD) (w : Fin cfg0.W) :
    (dat0 (Vin0 m) c).arrAt w cfg0.N = Gen.V2 m (outs m) c (Pipeline.arrRef spec0 w) := by
  by_cases hw : w = 9
  · subst hw
    have h : Gen.V2 m (outs m) c (Pipeline.arrRef spec0 9) = outs m 2 main_v5 c := by
      show Function.update (Gen.V1 m c) (Proc.devRef .tc main_v5) (outs m 2 main_v5 c) (Proc.devRef .tc main_v5) = _
      exact Function.update_self ..
    rw [h, outs_v5]
  · have hin : (cfg0.win w).isOut = false := by revert w; decide
    have hne : Pipeline.arrRef spec0 w ∉ ([main_v5] : List (Ref sig .tc)) := by revert w; decide
    rw [(dat0 (Vin0 m) c).arrAt_in w hin, A_eq0, V2_of m (outs m) c _ hne]

/-- The buffers no window of region 0 reads or writes hold after it what they held before. -/
theorem rest0_eq (c : Dev nD) :
    (Pipeline.unscopedRest (Ix := Unit) (Name := ℕ) (U := UR sig nD τ) (Lvl := ℕ) spec0 c (Vin0 m c) : sProp 𝕄)
      = Pipeline.unscopedRest spec0 c (fun b => Gen.V2 m (outs m) c b) := by
  unfold Pipeline.unscopedRest
  refine bigSep_congr fun b hb => ?_
  have hne : b ∉ ([main_v5] : List (Ref sig .tc)) := fun h => by
    rw [List.mem_singleton] at h; subst h
    exact (Finset.mem_sdiff.mp hb).2 (Finset.mem_image.mpr ⟨9, Finset.mem_univ _, rfl⟩)
  beta_reduce
  rw [V2_of m (outs m) c b hne]

set_option backward.isDefEq.respectTransparency.types false in
/-- REGION 0 over the thread state: entered from every unscoped buffer at the contents after the first host
    stretch, left at those contents with the output array replaced. Its arrays are split out of the unscoped
    buffers at entry and put back at exit; the generator register goes into the class invariant and out; nothing
    is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (StableHlo.held (c : Thread nD τ) (Pipeline.ucRefs τ sig) (Gen.V1 m c) : sProp 𝕄)
        ⊢ iprop((pdats m 0 c).arrays ((pdats m 0 c).arrAt · 0)
            ∗ Pipeline.unscopedRest (Ix := Unit) (Name := ℕ) (U := UR sig nD τ) (Lvl := ℕ) spec0 c (Vin0 m c)) := by
      rw [← Pipeline.unscopedBufs_held (Ix := Unit) (Name := ℕ) (U := UR sig nD τ) (Lvl := ℕ) c (Gen.V1 m c),
        show unscopedBufs c (fun b => Gen.V1 m c b) = iprop((Pipeline.arrBufs spec0 c (Vin0 m c) : sProp 𝕄) ∗ Pipeline.unscopedRest spec0 c (Vin0 m c))
          from Pipeline.unscopedBufs_split₀ cfgs 0 winFacts₀0.arr_unscoped c (Vin0 m c)]
      exact sep_mono (arrays0_of_bufs (Vin0 m) c (Vin0 m c) _ fun w => A_eq0 (Vin0 m) c w) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (Vin0 m c))
        ⊢ (StableHlo.held (c : Thread nD τ) (Pipeline.ucRefs τ sig) (Gen.V2 m (outs m) c) : sProp 𝕄) := by
      rw [← Pipeline.unscopedBufs_held (Ix := Unit) (Name := ℕ) (U := UR sig nD τ) (Lvl := ℕ) c (Gen.V2 m (outs m) c),
        show unscopedBufs c (fun b => Gen.V2 m (outs m) c b) = iprop((Pipeline.arrBufs spec0 c (fun b => Gen.V2 m (outs m) c b) : sProp 𝕄) ∗ Pipeline.unscopedRest spec0 c (fun b => Gen.V2 m (outs m) c b))
          from Pipeline.unscopedBufs_split₀ cfgs 0 winFacts₀0.arr_unscoped c (fun b => Gen.V2 m (outs m) c b),
        rest0_eq m c]
      exact sep_mono (bufs_of_arrays0 (Vin0 m) c (fun b => Gen.V2 m (outs m) c b) _ fun w => exitF0 m c w) .rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit every window's array holds what the valuation after the region reads there. -/
theorem exitF1 (c : Dev nD) (w : Fin cfg1.W) :
    (dat1 (Vin1 m) c).arrAt w cfg1.N = Gen.V4 m (outs m) c (Pipeline.arrRef spec1 w) := by
  by_cases hw : w = 13
  · subst hw
    have h : Gen.V4 m (outs m) c (Pipeline.arrRef spec1 13) = outs m 4 main_v13 c := by
      show Function.update (Gen.V3 m (outs m) c) (Proc.devRef .tc main_v13) (outs m 4 main_v13 c) (Proc.devRef .tc main_v13) = _
      exact Function.update_self ..
    rw [h, outs_v13]
  · have hin : (cfg1.win w).isOut = false := by revert w; decide
    have hne : Pipeline.arrRef spec1 w ∉ ([main_v13] : List (Ref sig .tc)) := by revert w; decide
    rw [(dat1 (Vin1 m) c).arrAt_in w hin, A_eq1, V4_of m (outs m) c _ hne]

/-- The buffers no window of region 1 reads or writes hold after it what they held before. -/
theorem rest1_eq (c : Dev nD) :
    (Pipeline.unscopedRest (Ix := Unit) (Name := ℕ) (U := UR sig nD τ) (Lvl := ℕ) spec1 c (Vin1 m c) : sProp 𝕄)
      = Pipeline.unscopedRest spec1 c (fun b => Gen.V4 m (outs m) c b) := by
  unfold Pipeline.unscopedRest
  refine bigSep_congr fun b hb => ?_
  have hne : b ∉ ([main_v13] : List (Ref sig .tc)) := fun h => by
    rw [List.mem_singleton] at h; subst h
    exact (Finset.mem_sdiff.mp hb).2 (Finset.mem_image.mpr ⟨13, Finset.mem_univ _, rfl⟩)
  beta_reduce
  rw [V4_of m (outs m) c b hne]

set_option backward.isDefEq.respectTransparency.types false in
/-- REGION 1 over the thread state: entered from every unscoped buffer at the contents after the second host
    stretch, left at those contents with the output array replaced. Its invariant starts as the class invariant and
    ends with the scratch at the last point's update, which is forgotten again among the scoped buffers. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit : (StableHlo.held (c : Thread nD τ) (Pipeline.ucRefs τ sig) (Gen.V3 m (outs m) c) : sProp 𝕄)
        ⊢ iprop((pdats m 1 c).arrays ((pdats m 1 c).arrAt · 0)
            ∗ Pipeline.unscopedRest (Ix := Unit) (Name := ℕ) (U := UR sig nD τ) (Lvl := ℕ) spec1 c (Vin1 m c)) := by
      rw [← Pipeline.unscopedBufs_held (Ix := Unit) (Name := ℕ) (U := UR sig nD τ) (Lvl := ℕ) c (Gen.V3 m (outs m) c),
        show unscopedBufs c (fun b => Gen.V3 m (outs m) c b) = iprop((Pipeline.arrBufs spec1 c (Vin1 m c) : sProp 𝕄) ∗ Pipeline.unscopedRest spec1 c (Vin1 m c))
          from Pipeline.unscopedBufs_split₀ cfgs 1 winFacts₀1.arr_unscoped c (Vin1 m c)]
      exact sep_mono (arrays1_of_bufs (Vin1 m) c (Vin1 m c) _ fun w => A_eq1 (Vin1 m) c w) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _)
        = iprop(scopedOther1 c ∗ owns (c : Thread nD τ) (Memref.whole cc1_scratch0) fullShare (sAfter1 (Vin1 m) c 31) ∗ ∃ r, prngReg c r)
        from Phi1_succ (Vin1 m) c 31 (by decide),
      owns_whole (c : Thread nD τ) cc1_scratch0 fullShare,
      show (Pipeline.scopedRest (Ix := Unit) (Name := ℕ) (U := UR sig nD τ) (Lvl := ℕ) (Val := Elt F) (Pipeline.pin (pcfgs (F := F)) adm 1).spec c : sProp 𝕄) = _
        from scopedRest1_eq c]
    unfold scopedOther1
    iintro ⟨⟨S0, S1, S2, S3, S4, S5, S6, S7, S8, S9, S10, S11, S12⟩, Hs, Hp⟩
    isplitl [Hp]; · iexact Hp
    isplitr; · iempintro
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexists _; iexact Hs
  hexit c := by
    have hjoin : iprop((pdats m 1 c).arrays ((pdats m 1 c).arrAt · cfg1.N)
          ∗ Pipeline.unscopedRest (Ix := Unit) (Name := ℕ) (U := UR sig nD τ) (Lvl := ℕ) spec1 c (Vin1 m c))
        ⊢ (StableHlo.held (c : Thread nD τ) (Pipeline.ucRefs τ sig) (Gen.V4 m (outs m) c) : sProp 𝕄) := by
      rw [← Pipeline.unscopedBufs_held (Ix := Unit) (Name := ℕ) (U := UR sig nD τ) (Lvl := ℕ) c (Gen.V4 m (outs m) c),
        show unscopedBufs c (fun b => Gen.V4 m (outs m) c b) = iprop((Pipeline.arrBufs spec1 c (fun b => Gen.V4 m (outs m) c b) : sProp 𝕄) ∗ Pipeline.unscopedRest spec1 c (fun b => Gen.V4 m (outs m) c b))
          from Pipeline.unscopedBufs_split₀ cfgs 1 winFacts₀1.arr_unscoped c (fun b => Gen.V4 m (outs m) c b),
        rest1_eq m c]
      exact sep_mono (bufs_of_arrays1 (Vin1 m) c (fun b => Gen.V4 m (outs m) c b) _ fun w => exitF1 m c w) .rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The last valuation reads, at the result array, what region 1 leaves there. -/
theorem V4_v13 (c : Dev nD) : Gen.V4 m (outs m) c main_v13 = outs m 4 main_v13 c := by
  show Function.update (Gen.V3 m (outs m) c) (Proc.devRef .tc main_v13) (outs m 4 main_v13 c) (Proc.devRef .tc main_v13) = _
  exact Function.update_self ..

/-- The launch element yields the pipeline library's at every staging cell; no ghost resource besides. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the rest state on every core: its generator register, and its dues, which are none. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME, at any float instance: every weakly fair execution terminates and every final memory holds each
    argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Gen.frame_cond m emb₁ () 𝒱₀ L lv (fun _ _ => rfl) ρ (outs m) (pdats m) 0 (fun _ => BI.emp)
    (initOf (Pipeline.cells cfgs cellOf_inj) (Pipeline.launchToks cfgs cellOf_inj)) hu₀
    (fun _ c => R c) (hE0 ρ) (fun c => by iintro ⟨-, HO⟩; iexact HO)
    (reg0 m) (fun _ => .rfl) (fun _ => .rfl) (reg1 m) (fun _ => .rfl) (fun _ => .rfl)

set_option backward.isDefEq.respectTransparency.types false in
/-- THE RUN WITH THE RESULT NAMED: the same launch, the last thread state read at the result array too, which holds
    what region 1's write-backs leave. -/
theorem run_value (ρ : Dev nD → PrngReg) : θ_run defs (onTc (τ := τ) (main (F := F))) ⟨m, fun _ => 0, ρ⟩ (fun r => ∀ c : Dev nD,
      r.2.mem ((c.tc : Thread nD τ).loc main_v13) = (dat1 (Vin1 m) c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine Pipeline.θ_run_regions_kit_dev (pcfgs (F := F)) adm (pdats m) () cellOf_inj emb₁ defs₀ 𝒱₀ L lv m ρ main
    (Gen.segs m (outs m) 𝒱₀ L lv (fun _ c => R c) () (pdats m) (reg0 m) (reg1 m))
    (fun c Q => by
      rewrite [main_chain c, Pipeline.Seg.run_eq_chain,
        show (Gen.segs m (outs m) 𝒱₀ L lv (fun _ c => R c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide) 0 (fun _ _ => rfl) (fun _ => BI.emp)
    (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held (Ix := Unit) (Name := ℕ) (U := UR sig nD τ) (Lvl := ℕ) c (Gen.V0 m c)]
      iintro ⟨⟨Hh, -, HO, -, Hp, -⟩, -⟩
      imodintro
      isplitl [Hh]; · iexact Hh
      isplitl [Hp]; · iexists _; iexact Hp
      iexists ∅; iexact HO) (QY := fun c s => s.mem ((c.tc : Thread nD τ).loc main_v13) = (dat1 (Vin1 m) c).arrAt 13 cfg1.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16))
    (hfin := fun c s' => ?_) (hQ := fun _ h => h)
  · -- the end: the result array and each argument's buffer read off the last valuation
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨((h (Proc.devRef .tc main_v13) (Finset.mem_filter.mpr ⟨StableHlo.devRef_mem_tcRefs main_v13, by decide⟩)).trans (V4_v13 m c)).trans (outs_v13 m c),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c),
        (h (Proc.devRef .tc main_arg6) (Finset.mem_filter.mpr ⟨StableHlo.devRef_mem_tcRefs main_arg6, by decide⟩)).trans (V4_main_arg6 m (outs m) c),
        (h (Proc.devRef .tc main_arg7) (Finset.mem_filter.mpr ⟨StableHlo.devRef_mem_tcRefs main_arg7, by decide⟩)).trans (V4_main_arg7 m (outs m) c),
        (h (Proc.devRef .tc main_arg8) (Finset.mem_filter.mpr ⟨StableHlo.devRef_mem_tcRefs main_arg8, by decide⟩)).trans (V4_main_arg8 m (outs m) c),
        (h (Proc.devRef .tc main_arg9) (Finset.mem_filter.mpr ⟨StableHlo.devRef_mem_tcRefs main_arg9, by decide⟩)).trans (V4_main_arg9 m (outs m) c),
        (h (Proc.devRef .tc main_arg10) (Finset.mem_filter.mpr ⟨StableHlo.devRef_mem_tcRefs main_arg10, by decide⟩)).trans (V4_main_arg10 m (outs m) c),
        (h (Proc.devRef .tc main_arg11) (Finset.mem_filter.mpr ⟨StableHlo.devRef_mem_tcRefs main_arg11, by decide⟩)).trans (V4_main_arg11 m (outs m) c),
        (h (Proc.devRef .tc main_arg12) (Finset.mem_filter.mpr ⟨StableHlo.devRef_mem_tcRefs main_arg12, by decide⟩)).trans (V4_main_arg12 m (outs m) c),
        (h (Proc.devRef .tc main_arg13) (Finset.mem_filter.mpr ⟨StableHlo.devRef_mem_tcRefs main_arg13, by decide⟩)).trans (V4_main_arg13 m (outs m) c),
        (h (Proc.devRef .tc main_arg14) (Finset.mem_filter.mpr ⟨StableHlo.devRef_mem_tcRefs main_arg14, by decide⟩)).trans (V4_main_arg14 m (outs m) c),
        (h (Proc.devRef .tc main_arg15) (Finset.mem_filter.mpr ⟨StableHlo.devRef_mem_tcRefs main_arg15, by decide⟩)).trans (V4_main_arg15 m (outs m) c),
        (h (Proc.devRef .tc main_arg16) (Finset.mem_filter.mpr ⟨StableHlo.devRef_mem_tcRefs main_arg16, by decide⟩)).trans (V4_main_arg16 m (outs m) c)⟩
    · iexact HSI

end Cert.Kernel.Hand

end
-- ==== Proof.KernelIdeal.Data.lean ====
/-
  The pipelines' proof data for the two kernel regions, at any float instance and at the buffer contents `V` a
  region is entered from.

  Region 0 (one row tile of 256 nodes per grid point): the body reads the adjacency tile, the whole feature
  matrix, the same matrix's row tile, the first layer's weights and five row vectors, and stores ONE block:
  the first layer's activations of the tile. Every input window's staging buffer holds its array's block;
  the output window's holds the body's single store over those blocks.

  Region 1 (the same tiling, 32 points in order): besides its input blocks the body keeps a 256 × 384
  scratch across the grid. Point 0 overwrites it with zeros before adding; every point adds the tile's
  pooled contribution; the last point reads it back and stores the projected, rectified result into the
  output block. `sAfter1 n` is the scratch after point `n`, by recursion on the point.
-/
import proofs.«420502_j10273561772114_1_alg».proof.Proof.Gen.KernelIdeal.Launch
import proofs.«420502_j10273561772114_1_alg».proof.Proof.Gen.KernelIdeal.Skeleton
import proofs.«420502_j10273561772114_1_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-! ## The whole-buffer rectangles the bodies load and store through -/

abbrev rAdj : Rect S256x8192 := Rect.unit (s := S256x8192) ![0, 0] S256x8192.size inb_S256x8192_S256x8192_0_0
abbrev rFull : Rect S8192x128 := Rect.unit (s := S8192x128) ![0, 0] S8192x128.size inb_S8192x128_S8192x128_0_0
abbrev rTile : Rect S256x128 := Rect.unit (s := S256x128) ![0, 0] S256x128.size inb_S256x128_S256x128_0_0
abbrev rRow : Rect S1x128 := Rect.unit (s := S1x128) ![0, 0] S1x128.size inb_S1x128_S1x128_0_0
abbrev rIdx : Rect S256x1 := Rect.unit (s := S256x1) ![0, 0] S256x1.size inb_S256x1_S256x1_0_0
abbrev rPool : Rect S256x384 := Rect.unit (s := S256x384) ![0, 0] S256x384.size inb_S256x384_S256x384_0_0
abbrev rW4 : Rect S384x1 := Rect.unit (s := S384x1) ![0, 0] S384x1.size inb_S384x1_S384x1_0_0
abbrev rOne : Rect S1x1 := Rect.unit (s := S1x1) ![0, 0] S1x1.size inb_S1x1_S1x1_0_0

section AtEntry

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body's one store leaves in the output block, from the nine input blocks. -/
def out0_9 (x0 : Vec F S256x8192 .f32) (x1 : Vec F S8192x128 .f32) (x2 x3 : Vec F S256x128 .f32)
    (x4 x5 x6 x7 x8 : Vec F S1x128 .f32) : Vec F S256x128 .f32 :=
  View.canon [⟨rTile, k0_pay1 (View.ld x0 rAdj) (View.ld x1 rFull) (View.ld x2 rTile) (View.ld x3 rTile)
    (View.ld x4 rRow) (View.ld x5 rRow) (View.ld x6 rRow) (View.ld x7 rRow) (View.ld x8 rRow)⟩]

/-- The output block at point `t`. -/
def oblk0 (c : Dev nD) (t : Fin cfg0.N) : Vec F S256x128 .f32 :=
  out0_9 (iblk0 V c 0 t) (iblk0 V c 1 t) (iblk0 V c 2 t) (iblk0 V c 3 t) (iblk0 V c 4 t) (iblk0 V c 5 t)
    (iblk0 V c 6 t) (iblk0 V c 7 t) (iblk0 V c 8 t)

/-- Region 0's proof data. The feature matrix reaches the body through two windows (whole, and by row tile):
    they hold its buffer at the two halves of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => oblk0 V c t
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = oblk0 V c t := by dsimp only [dat0]
theorem Phi0 (c : Dev nD) (t : Fin (cfg0.N + 1)) : (dat0 V c).Φ t = Pipeline.ΦA spec0 c := rfl
theorem owed0 (c : Dev nD) (t : Fin (cfg0.N + 1)) : (dat0 V c).owed t = 0 := rfl

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch once point 0 has overwritten it: zeros. -/
def sReset1 : Vec F S256x384 .f32 := View.canon [⟨rPool, k1_pay3 (F := F)⟩]

/-- One point's update of the scratch: what the body's store leaves there when it found `prev`, from the
    input blocks of the point (the adjacency tile, the first layer's activations whole and by tile, the
    features' tile, the graph ids' tile, the second layer's weights and five row vectors). -/
def sStep1 (x0 : Vec F S256x8192 .f32) (x1 : Vec F S8192x128 .f32) (x2 x3 : Vec F S256x128 .f32) (x4 : Vec F S256x1 .i32)
    (x5 : Vec F S256x128 .f32) (x6 x7 x8 x9 x10 : Vec F S1x128 .f32) (prev : Vec F S256x384 .f32) : Vec F S256x384 .f32 :=
  View.canon [⟨rPool, k1_pay1 (k1_pay4 (View.ld x7 rRow)) (k1_pay5 (View.ld x8 rRow))
    (k1_pay6 (View.ld x0 rAdj) (View.ld x1 rFull) (View.ld x2 rTile) (View.ld x5 rTile) (View.ld x6 rRow) (View.ld x9 rRow))
    (k1_pay7 (View.ld x10 rRow)) (View.ld x3 rTile) (View.ld x2 rTile) (View.ld x4 rIdx) (View.ld prev rPool)⟩]

/-- The update at point `t`, over that point's blocks. -/
def sStepAt1 (c : Dev nD) (t : Fin cfg1.N) (prev : Vec F S256x384 .f32) : Vec F S256x384 .f32 :=
  sStep1 (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) prev

/-- The scratch after point `n`: point 0 updates the zeroed scratch, each later point what the point before left. -/
def sAfter1 (c : Dev nD) : ℕ → Vec F S256x384 .f32
  | 0 => sStepAt1 V c ⟨0, by decide⟩ sReset1
  | n + 1 => if h : n + 1 < cfg1.N then sStepAt1 V c ⟨n + 1, h⟩ (sAfter1 c n) else sAfter1 c n

theorem sAfter1_zero (c : Dev nD) : sAfter1 V c 0 = sStepAt1 V c ⟨0, by decide⟩ sReset1 := rfl
theorem sAfter1_succ (c : Dev nD) (n : ℕ) (h : n + 1 < cfg1.N) :
    sAfter1 V c (n + 1) = sStepAt1 V c ⟨n + 1, h⟩ (sAfter1 V c n) := by
  rw [sAfter1, dif_pos h]

/-- What the last point's store leaves in the output block: the scratch it has just updated, projected by the
    last layer's weights, shifted by its bias and rectified. -/
def out1_13 (s : Vec F S256x384 .f32) (x11 : Vec F S384x1 .f32) (x12 : Vec F S1x1 .f32) : Vec F S256x1 .f32 :=
  View.canon [⟨rIdx, k1_pay2 (View.ld s rPool) (View.ld x11 rW4) (View.ld x12 rOne)⟩]

/-- The output block as point `t` would store it (the pipeline consults it at the last point only). -/
def oblk1 (c : Dev nD) (t : Fin cfg1.N) : Vec F S256x1 .f32 :=
  out1_13 (sAfter1 V c t.val) (iblk1 V c 11 t) (iblk1 V c 12 t)

/-- The core's scoped buffers that are neither a staging buffer of region 1 nor its scratch, each at some
    contents (the buffers region 0 staged through). -/
def scopedOther1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- Region 1's invariant between points: before point 0 the scratch holds anything (the class's invariant);
    after point `n` it holds `sAfter1 n`, the other scoped buffers and the generator register as they were. -/
def Phi1 (c : Dev nD) : Fin (cfg1.N + 1) → sProp 𝕄
  | ⟨0, _⟩ => Pipeline.ΦA spec1 c
  | ⟨n + 1, _⟩ => iprop(scopedOther1 c ∗ owns (c : Thread nD τ) (Memref.whole cc1_scratch0) fullShare (sAfter1 V c n) ∗ ∃ r, prngReg c r)

/-- Region 1's proof data. The first layer's activations reach the body through two windows (whole, and by
    row tile): they hold that buffer at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => oblk1 V c t
  Φ := Phi1 V c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = oblk1 V c t := by dsimp only [dat1]
theorem Phi1_eq (c : Dev nD) (t : Fin (cfg1.N + 1)) : (dat1 V c).Φ t = Phi1 V c t := rfl
theorem Phi1_zero (c : Dev nD) : Phi1 V c 0 = Pipeline.ΦA spec1 c := rfl
theorem Phi1_succ (c : Dev nD) (n : ℕ) (h : n + 1 < cfg1.N + 1) :
    Phi1 V c ⟨n + 1, h⟩ = iprop(scopedOther1 c ∗ owns (c : Thread nD τ) (Memref.whole cc1_scratch0) fullShare (sAfter1 V c n) ∗ ∃ r, prngReg c r) := rfl
theorem owed1 (c : Dev nD) (t : Fin (cfg1.N + 1)) : (dat1 V c).owed t = 0 := rfl

end AtEntry

end Cert.KernelIdeal.Hand

end
-- ==== Proof.KernelIdeal.Body0.lean ====
/-
  Region 0's body at a generic grid point.

  The body reads ten staging buffers whole (the adjacency tile, the feature matrix, the matrix's row tile, the
  weights, five row vectors, and the output buffer, whose value it drops), computes one 256 × 128 value from
  the first nine, and writes that value over the whole output buffer. Three facts are put together here:

  * every input window's current buffer holds that window's block of its array at every point, whether the
    pipeline moved the block in at that point or left the buffer alone because the block index had not
    changed: the body never writes an input buffer, so what it leaves is what it found;
  * run on ten whole buffers, nine at known contents and the tenth at any, the body hands the nine back
    untouched and leaves in the tenth the single write of its value, which covers the buffer and so does not
    depend on what the buffer held;
  * the invariant between points and the empty tally of owed transfers are not read by the body and pass
    through it unchanged.
-/
import proofs.«420502_j10273561772114_1_alg».proof.Proof.KernelIdeal.Data
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

section AtEntry

variable (V : (c : Dev nD) → (b : Ref sig .tc) → Buf (Elt F) ((c : Thread nD τ).loc b))

/-! ## What the body finds in the input buffers

An input window is never written by the body, is cut nowhere and is idle nowhere. So at a point where its block
is moved in the buffer holds the block, and at a point where it is not the block index is the one of the point
before, whose block the buffer still holds. Either way the buffer holds the point's block of the array. -/

theorem found0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem found0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem found0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem found0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem found0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem found0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

theorem found0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

theorem found0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

theorem found0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-! ## The body on ten whole buffers -/

/-- The one write of the body into the output buffer is through the whole-buffer rectangle, so every index of
    the buffer lies under it. -/
theorem whole_write_covers (p : Vec F S256x128 .f32) (y : S256x128.Idx) :
    ∃ pc ∈ ([⟨rTile, p⟩] : List (View.Piece (Elt F) S256x128 .f32)), y ∈ pc.1.set :=
  View.cover_of_tiled [⟨rTile, p⟩] S256x128.size (by rfl) y

set_option maxHeartbeats 1000000 in
/-- The kernel function called on ten whole buffers, the first nine reading `x0 … x8` and the tenth holding
    anything: the ten loads change nothing, the value is computed from the nine, and the store leaves the tenth
    reading `out0_9 x0 … x8`. Whatever is to follow (`K`) may assume the ten buffers so. -/
theorem layer1_on_buffers (c : Dev nD) (E : Set ℕ) (i : grid0.Coords) (a0 : Memref sig .tc .vmem S256x8192 .f32) (w0 : a0.IsWhole) (a1 : Memref sig .tc .vmem S8192x128 .f32) (w1 : a1.IsWhole) (a2 : Memref sig .tc .vmem S256x128 .f32) (w2 : a2.IsWhole) (a3 : Memref sig .tc .vmem S256x128 .f32) (w3 : a3.IsWhole) (a4 : Memref sig .tc .vmem S1x128 .f32) (w4 : a4.IsWhole) (a5 : Memref sig .tc .vmem S1x128 .f32) (w5 : a5.IsWhole) (a6 : Memref sig .tc .vmem S1x128 .f32) (w6 : a6.IsWhole) (a7 : Memref sig .tc .vmem S1x128 .f32) (w7 : a7.IsWhole) (a8 : Memref sig .tc .vmem S1x128 .f32) (w8 : a8.IsWhole) (a9 : Memref sig .tc .vmem S256x128 .f32) (w9 : a9.IsWhole)
    (x0 : Vec F S256x8192 .f32) (x1 : Vec F S8192x128 .f32) (x2 : Vec F S256x128 .f32) (x3 : Vec F S256x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out0_9 x0 x1 x2 x3 x4 x5 x6 x7 x8)) -∗ K ⟨⟩))
      ⊢ wp frame (wpE (defs₀ (F := F)) Variants.none c none) E (cc0__layer1_kernel i a0 w0 a1 w1 a2 w2 a3 w3 a4 w4 a5 w5 a6 w6 a7 w7 a8 w8 a9 w9) K := by
  simp only [cc0__layer1_kernel_eq_skeleton]; unfold cc0__layer1_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  subst e0 e1 e2 e3 e4 e5 e6 e7 e8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (whole_write_covers _)

/-! ## The obligation at a point -/

/-- What the pipeline hands the body at point `t`: the invariant between points, the tally of what the core
    owes, and every window's current buffer at what it then holds. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What the body gives back: the same invariant and tally one point on, and every current buffer at what the
    proof data say the body leaves there. -/
def givenBack0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point. The nine input buffers hold their blocks (`found0_w`), the output buffer holds
    something, so the run on ten whole buffers applies with the blocks as the contents read; the invariant and
    the tally are carried across unread. -/
theorem body_at_point0 (c : Dev nD) (t : Fin cfg0.N) :
    handed0 V c t ⊢ wp frame (wpE (defs₀ (F := F)) Variants.none c none) Set.univ (bodyAt0 t) (fun _ => givenBack0 V c t) := by
  unfold handed0 givenBack0 bodyAt0
  simp only [found0_0, found0_1, found0_2, found0_3, found0_4, found0_5, found0_6, found0_7, found0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  unfold oblk0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (layer1_on_buffers c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t)
    (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end AtEntry

/-- The library's body obligation for region 0's proof data, at every point and any entry contents `V`. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact body_at_point0 V c t

end Cert.KernelIdeal.Hand

end
-- ==== Proof.KernelIdeal.Body1.lean ====
/-
  Region 1's body obligation: the body run at a generic grid point, by the three cases of its two conditionals.

  The body keeps a 256 × 384 scratch across the 32 points. At the first point it overwrites the scratch with
  zeros; at every point it loads eleven input blocks and the scratch and stores the scratch's update; at the
  last point it loads the updated scratch and two more input blocks and stores the projected, rectified result
  whole into the output block. So over the grid there are three cases: the first point (reset, update), a
  middle point (update), the last point (update, output store). In each the input blocks are left as found, the
  scratch goes from what the point before left (anything, at the first point) to this point's update, and the
  output block is stored at the last point only and handed back as found elsewhere.
-/
import proofs.«420502_j10273561772114_1_alg».proof.Proof.KernelIdeal.Data
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! ## The two conditions over the grid, and where the output window is idle -/

/-- The first conditional's condition (the point is the first), from the grid coordinate. -/
abbrev condFirst1 (i : grid1.Coords) : Prop :=
  (Scalar.cmpi .ne (Scalar.extui (Scalar.cmpi .eq (BitVec.ofNat 32 (i 0).val) 0#32)) 0#32) = 1#1

/-- It holds at point 0 only. -/
theorem hcondFirst1 : ∀ t : Fin cfg1.N, condFirst1 (grid1.coords t) ↔ t.val % 32 = 0 :=
  (by decide +kernel : ∀ t : Fin grid1.N, condFirst1 (grid1.coords t) ↔ t.val % 32 = 0)

/-- The second conditional's condition (the point is the last). -/
abbrev condLast1 (i : grid1.Coords) : Prop := k1_cond2 i = 1#1

/-- It holds at point 31 only. -/
theorem hcondLast1 : ∀ t : Fin cfg1.N, condLast1 (grid1.coords t) ↔ t.val % 32 = 31 :=
  (by decide +kernel : ∀ t : Fin grid1.N, condLast1 (grid1.coords t) ↔ t.val % 32 = 31)

/-- The output window is idle wherever the point is not the last, -/
theorem idleAt1_13 : ∀ t : Fin cfg1.N, ¬condLast1 (grid1.coords t) → cfg1.idle 13 (grid1.coords t) = true := by
  decide +kernel
/-- and live at the last. -/
theorem liveAt1_13 : ∀ t : Fin cfg1.N, condLast1 (grid1.coords t) → cfg1.idle 13 (grid1.coords t) = false := by
  decide +kernel
/-- Where the point is not the last the output block is not written back. -/
theorem noFlush1_13 : ∀ t : Fin cfg1.N, ¬condLast1 (grid1.coords t) → (cfg1.win 13).flush t = false := by
  decide +kernel

/-! ## Whole-buffer stores and loads -/

section Whole

variable {sig' : RefSig} {κ : Kind} {sp : Space} {S : Shape} {e : EltTy} {Val : EltTy → Type}

/-- What a buffer reads after a list of stores whose LAST one goes through a rectangle that holds every index:
    that store's payload alone, as the canonical contents of the one piece — whatever the earlier stores and the
    prior contents were. -/
theorem read_writes_cons_whole [∀ e, Nonempty (Val e)] (v : View sig' κ sp S e) (f : v.ty.Contents Val) (r : Rect S)
    (w : r.shape.Idx → Val e) (L : List (View.Piece Val S e)) (h : ∀ y, y ∈ r.set) :
    v.read Val (v.writes Val f (⟨r, w⟩ :: L)) = View.canon [⟨r, w⟩] := by
  funext y
  obtain ⟨x, rfl⟩ := r.exists_idx_of_mem (h y)
  show v.read Val (v.writes Val f (⟨r, w⟩ :: L)) (r.emb x) = View.canon [⟨r, w⟩] (r.emb x)
  rw [View.read_writes_cons_emb, View.canon_cons_emb]

/-- A load through such a rectangle after such a list of stores reads the last store's canonical contents. -/
theorem readCov_cons_whole [∀ e, Nonempty (Val e)] (v : View sig' κ sp S e) (r : Rect S)
    (w : r.shape.Idx → Val e) (L : List (View.Piece Val S e)) (h : ∀ y, y ∈ r.set) :
    v.readCov (⟨r, w⟩ :: L) r.toLoadRect = View.ld (View.canon [⟨r, w⟩]) r := by
  rw [View.readCov_eq_canon']
  funext j
  show View.canon (⟨r, w⟩ :: L) (r.emb j) = View.canon [⟨r, w⟩] (r.emb j)
  rw [View.canon_cons_emb, View.canon_cons_emb]

end Whole

/-- The two zero offsets, as the constant function. -/
theorem off00 : (![0, 0] : Fin 2 → ℕ) = fun _ => 0 := by
  funext a; fin_cases a <;> rfl

/-- The scratch's whole rectangle holds every index of the scratch, -/
theorem rPool_full (y : S256x384.Idx) : y ∈ rPool.set := View.mem_set_unit_zero off00 _ y
/-- and the output block's whole rectangle every index of the block. -/
theorem rIdx_full (y : S256x1.Idx) : y ∈ rIdx.set := View.mem_set_unit_zero off00 _ y

section AtEntry

variable (V : (c : Dev nD) → (b : Ref sig .tc) → Buf (Elt F) ((c : Thread nD τ).loc b))

/-! ## What the body finds in each input window's buffer: the window's block, fetched at the point or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)

theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)

theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)

theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)

theorem before1_12 (c : Dev nD) (t : Fin cfg1.N) (d) : (dat1 V c).before 12 t d = iblk1 V c 12 t :=
  ((dat1 V c).before_in_eq_fetched 12 rfl (fun _ => rfl) (fun _ _ _ => rfl)
    (fun t => by rw [after1_12]; unfold Dat.blockOf iblk1; rw [A_eq1]; try rfl) t d).trans
    (by unfold Dat.fetched Dat.blockOf iblk1; rw [A_eq1]; try rfl)

end AtEntry

section Runs

/-! ## The body on any whole staging memrefs, case by case

In each case the thirteen input buffers are read and left as found. What the scratch and the output buffer end
with is read off the stores: each is stored whole, so each reads as its last store's payload. -/

set_option maxHeartbeats 4000000 in
/-- The first point: the scratch, found at anything, is overwritten with zeros and then updated; the output's
    buffer is left as found. -/
theorem run_first1 (c : Dev nD) (E : Set ℕ) (i : grid1.Coords) (arg1 : Memref sig .tc .vmem S256x8192 .f32) (harg1 : arg1.IsWhole) (arg2 : Memref sig .tc .vmem S8192x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1 .i32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S384x1 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x384 .f32) (harg15 : arg15.IsWhole)
    (hc1 : condFirst1 i) (hc2 : ¬condLast1 i)
    (x0 : Vec F S256x8192 .f32) (x1 : Vec F S8192x128 .f32) (x2 : Vec F S256x128 .f32) (x3 : Vec F S256x128 .f32) (x4 : Vec F S256x1 .i32) (x5 : Vec F S256x128 .f32) (x6 : Vec F S1x128 .f32) (x7 : Vec F S1x128 .f32) (x8 : Vec F S1x128 .f32) (x9 : Vec F S1x128 .f32) (x10 : Vec F S1x128 .f32) (x11 : Vec F S384x1 .f32) (x12 : Vec F S1x1 .f32) (xo : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare (sStep1 x0 x1 x2 x3 x4 x5 x6 x7 x8 x9 x10 (sReset1 (F := F)))) -∗ K ⟨⟩))
      ⊢ wp frame (wpE (defs₀ (F := F)) Variants.none c none) E (cc1__layer2_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fo, %hfo, Ho⟩, ⟨%ds, %fs, -, HS⟩, Hk⟩
  subst hf0; subst hf1; subst hf2; subst hf3; subst hf4; subst hf5; subst hf6; subst hf7; subst hf8; subst hf9; subst hf10; subst hf11; subst hf12; subst hfo
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [Ho]
  · iexists fo; isplitr; · ipureintro; rfl
    iexact Ho
  iexists _; isplitr
  swap; · iexact HS
  ipureintro
  sl_unfold_run_names
  unfold sStep1 sReset1
  rw [readCov_cons_whole _ _ _ _ rPool_full]
  simp only [View.readAt_eq_ld]
  exact read_writes_cons_whole _ _ _ _ _ rPool_full

set_option maxHeartbeats 4000000 in
/-- A middle point: the scratch goes from what the point before left to its update; the output's buffer is left
    as found. -/
theorem run_mid1 (c : Dev nD) (E : Set ℕ) (i : grid1.Coords) (arg1 : Memref sig .tc .vmem S256x8192 .f32) (harg1 : arg1.IsWhole) (arg2 : Memref sig .tc .vmem S8192x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1 .i32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S384x1 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x384 .f32) (harg15 : arg15.IsWhole)
    (hc1 : ¬condFirst1 i) (hc2 : ¬condLast1 i)
    (x0 : Vec F S256x8192 .f32) (x1 : Vec F S8192x128 .f32) (x2 : Vec F S256x128 .f32) (x3 : Vec F S256x128 .f32) (x4 : Vec F S256x1 .i32) (x5 : Vec F S256x128 .f32) (x6 : Vec F S1x128 .f32) (x7 : Vec F S1x128 .f32) (x8 : Vec F S1x128 .f32) (x9 : Vec F S1x128 .f32) (x10 : Vec F S1x128 .f32) (x11 : Vec F S384x1 .f32) (x12 : Vec F S1x1 .f32) (xo : Vec F S256x1 .f32) (prev : Vec F S256x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare prev
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare (sStep1 x0 x1 x2 x3 x4 x5 x6 x7 x8 x9 x10 prev)) -∗ K ⟨⟩))
      ⊢ wp frame (wpE (defs₀ (F := F)) Variants.none c none) E (cc1__layer2_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fo, %hfo, Ho⟩, ⟨%fs, %hfs, HS⟩, Hk⟩
  subst hf0; subst hf1; subst hf2; subst hf3; subst hf4; subst hf5; subst hf6; subst hf7; subst hf8; subst hf9; subst hf10; subst hf11; subst hf12; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [Ho]
  · iexists fo; isplitr; · ipureintro; rfl
    iexact Ho
  iexists _; isplitr
  swap; · iexact HS
  ipureintro
  sl_unfold_run_names
  unfold sStep1
  simp only [View.readAt_eq_ld]
  exact read_writes_cons_whole _ _ _ _ _ rPool_full

set_option maxHeartbeats 4000000 in
/-- The last point: the scratch is updated, read back, and the projected, rectified result stored whole into the
    output's buffer, found at anything. -/
theorem run_last1 (c : Dev nD) (E : Set ℕ) (i : grid1.Coords) (arg1 : Memref sig .tc .vmem S256x8192 .f32) (harg1 : arg1.IsWhole) (arg2 : Memref sig .tc .vmem S8192x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1 .i32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S384x1 .f32) (harg12 : arg12.IsWhole) (arg13 : Memref sig .tc .vmem S1x1 .f32) (harg13 : arg13.IsWhole) (arg14 : Memref sig .tc .vmem S256x1 .f32) (harg14 : arg14.IsWhole) (arg15 : Memref sig .tc .vmem S256x384 .f32) (harg15 : arg15.IsWhole)
    (hc1 : ¬condFirst1 i) (hc2 : condLast1 i)
    (x0 : Vec F S256x8192 .f32) (x1 : Vec F S8192x128 .f32) (x2 : Vec F S256x128 .f32) (x3 : Vec F S256x128 .f32) (x4 : Vec F S256x1 .i32) (x5 : Vec F S256x128 .f32) (x6 : Vec F S1x128 .f32) (x7 : Vec F S1x128 .f32) (x8 : Vec F S1x128 .f32) (x9 : Vec F S1x128 .f32) (x10 : Vec F S1x128 .f32) (x11 : Vec F S384x1 .f32) (x12 : Vec F S1x1 .f32) (prev : Vec F S256x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare prev
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out1_13 (sStep1 x0 x1 x2 x3 x4 x5 x6 x7 x8 x9 x10 prev) x11 x12) ∗ owns (c : Thread nD τ) arg15 fullShare (sStep1 x0 x1 x2 x3 x4 x5 x6 x7 x8 x9 x10 prev)) -∗ K ⟨⟩))
      ⊢ wp frame (wpE (defs₀ (F := F)) Variants.none c none) E (cc1__layer2_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%dout, %fo, -, Ho⟩, ⟨%fs, %hfs, HS⟩, Hk⟩
  subst hf0; subst hf1; subst hf2; subst hf3; subst hf4; subst hf5; subst hf6; subst hf7; subst hf8; subst hf9; subst hf10; subst hf11; subst hf12; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [Ho]
  · iexists _; isplitr
    swap; · iexact Ho
    ipureintro
    sl_unfold_run_names
    unfold out1_13 sStep1
    rw [readCov_cons_whole _ _ _ _ rPool_full]
    simp only [View.readAt_eq_ld]
    exact read_writes_cons_whole _ _ _ _ _ rIdx_full
  iexists _; isplitr
  swap; · iexact HS
  ipureintro
  sl_unfold_run_names
  unfold sStep1
  simp only [View.readAt_eq_ld]
  exact read_writes_cons_whole _ _ _ _ _ rPool_full

end Runs

section AtEntry2

variable (V : (c : Dev nD) → (b : Ref sig .tc) → Buf (Elt F) ((c : Thread nD τ).loc b))

/-! ## The invariant and the scratch's contents, point by point -/

/-- The class's invariant hands out the scratch, at some contents, apart from the other scoped buffers. -/
theorem PhiA1_split (c : Dev nD) :
    (Pipeline.ΦA spec1 c : sProp 𝕄)
      ⊢ iprop(scopedOther1 (F := F) c ∗ (∃ d, owns (c : Thread nD τ) (Memref.whole cc1_scratch0) fullShare d) ∗ ∃ r, prngReg c r) := by
  unfold Pipeline.ΦA scopedOther1; rw [scopedRest1_eq]
  iintro ⟨⟨B0, B1, B2, B3, B4, B5, B6, B7, B8, B9, B10, B11, B12, ⟨%f, HS⟩⟩, Hg⟩
  isplitl [B0 B1 B2 B3 B4 B5 B6 B7 B8 B9 B10 B11 B12]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexact B12
  isplitl [HS]
  · iexists f; rw [owns_whole]; iexact HS
  iexact Hg

/-- Before the first point the invariant is the class's. -/
theorem Phi1_castSucc_zero (c : Dev nD) (t : Fin cfg1.N) (hz : t.val = 0) :
    Phi1 V c t.castSucc = Pipeline.ΦA spec1 c := by
  obtain ⟨n, hn⟩ := t
  cases n with
  | zero => rfl
  | succ n => exact absurd hz (Nat.succ_ne_zero n)

/-- Before a later point it holds the scratch at what the point before left. -/
theorem Phi1_castSucc_pos (c : Dev nD) (t : Fin cfg1.N) (hz : t.val ≠ 0) :
    Phi1 V c t.castSucc = iprop(scopedOther1 c ∗ owns (c : Thread nD τ) (Memref.whole cc1_scratch0) fullShare (sAfter1 V c (t.val - 1)) ∗ ∃ r, prngReg c r) := by
  obtain ⟨n, hn⟩ := t
  cases n with
  | zero => exact absurd rfl hz
  | succ n => rfl

/-- After a point it holds the scratch at what that point left. -/
theorem Phi1_succ_val (c : Dev nD) (t : Fin cfg1.N) :
    Phi1 V c t.succ = iprop(scopedOther1 c ∗ owns (c : Thread nD τ) (Memref.whole cc1_scratch0) fullShare (sAfter1 V c t.val) ∗ ∃ r, prngReg c r) := rfl

/-- What the first point leaves in the scratch: its update of the zeroed scratch. -/
theorem sAfter1_first (c : Dev nD) (t : Fin cfg1.N) (hz : t.val = 0) : sAfter1 V c t.val = sStepAt1 V c t sReset1 := by
  obtain ⟨n, hn⟩ := t
  cases n with
  | zero => exact sAfter1_zero V c
  | succ n => exact absurd hz (Nat.succ_ne_zero n)

/-- What a later point leaves: its update of what the point before left. -/
theorem sAfter1_later (c : Dev nD) (t : Fin cfg1.N) (hz : t.val ≠ 0) :
    sAfter1 V c t.val = sStepAt1 V c t (sAfter1 V c (t.val - 1)) := by
  obtain ⟨n, hn⟩ := t
  cases n with
  | zero => exact absurd rfl hz
  | succ n => exact sAfter1_succ V c n hn

/-! ## The body obligation, at a generic point -/

/-- What the body is called with at point `t`: the invariant, the core's tallies, every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t)

set_option maxHeartbeats 4000000 in
/-- The body at any point. Every input's buffer holds its block; the point's position on the grid says which of
    the three cases it is in; the invariant hands the body the scratch (at anything before the first point, at
    what the point before left afterwards) and takes it back at this point's update; the output's buffer is
    handed back as found, but at the last point, where it holds the stored result. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).owesAt () t.succ = (dat1 V c).owesAt () t.castSucc from rfl]
  rw [Phi1_eq, Phi1_eq, Phi1_succ_val]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [show (dat1 V c).leavesExact 3 t = owns (c : Thread nD τ) (st1_3 t) fullShare ((dat1 V c).after 3 t) from rfl, after1_3]
  rw [show (dat1 V c).leavesExact 4 t = owns (c : Thread nD τ) (st1_4 t) fullShare ((dat1 V c).after 4 t) from rfl, after1_4]
  rw [show (dat1 V c).leavesExact 5 t = owns (c : Thread nD τ) (st1_5 t) fullShare ((dat1 V c).after 5 t) from rfl, after1_5]
  rw [show (dat1 V c).leavesExact 6 t = owns (c : Thread nD τ) (st1_6 t) fullShare ((dat1 V c).after 6 t) from rfl, after1_6]
  rw [show (dat1 V c).leavesExact 7 t = owns (c : Thread nD τ) (st1_7 t) fullShare ((dat1 V c).after 7 t) from rfl, after1_7]
  rw [show (dat1 V c).leavesExact 8 t = owns (c : Thread nD τ) (st1_8 t) fullShare ((dat1 V c).after 8 t) from rfl, after1_8]
  rw [show (dat1 V c).leavesExact 9 t = owns (c : Thread nD τ) (st1_9 t) fullShare ((dat1 V c).after 9 t) from rfl, after1_9]
  rw [show (dat1 V c).leavesExact 10 t = owns (c : Thread nD τ) (st1_10 t) fullShare ((dat1 V c).after 10 t) from rfl, after1_10]
  rw [show (dat1 V c).leavesExact 11 t = owns (c : Thread nD τ) (st1_11 t) fullShare ((dat1 V c).after 11 t) from rfl, after1_11]
  rw [show (dat1 V c).leavesExact 12 t = owns (c : Thread nD τ) (st1_12 t) fullShare ((dat1 V c).after 12 t) from rfl, after1_12]
  have hN : t.val < 32 := lt_of_lt_of_eq t.isLt (show cfg1.N = 32 from N_1)
  by_cases h0 : t.val % 32 = 0
  · have hz : t.val = 0 := by omega
    have h1 : ¬t.val % 32 = 31 := by omega
    have hc1 : condFirst1 (grid1.coords t) := (hcondFirst1 t).mpr h0
    have hc2 : ¬condLast1 (grid1.coords t) := fun h => h1 ((hcondLast1 t).mp h)
    rw [Dat.leavesExact_idle (dat1 V c) 13 t (idleAt1_13 t hc2) (noFlush1_13 t hc2)]
    rw [Phi1_castSucc_zero V c t hz, sAfter1_first V c t hz]
    unfold sStepAt1
    refine (sep_mono (PhiA1_split c) .rfl).trans ?_
    iintro ⟨⟨Hoth, HS, Hg⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_first1 c Set.univ (grid1.coords t) _ _ _ _ _ _ _ _ _ _ _ _ _ _ _ _ _ _ _ _ _ _ _ _ _ _ _ _ _ _ hc1 hc2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) ((dat1 V c).before 13 t d13) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS]; · iexact HS
    iintro ⟨H0, H1, H2, H3, H4, H5, H6, H7, H8, H9, H10, H11, H12, H13, HS⟩
    isplitl [Hoth HS Hg]
    · isplitl [Hoth]; · iexact Hoth
      isplitl [HS]; · iexact HS
      iexact Hg
    isplitl [Howe]; · iexact Howe
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13
  · have hz : t.val ≠ 0 := by omega
    have hc1 : ¬condFirst1 (grid1.coords t) := fun h => h0 ((hcondFirst1 t).mp h)
    rw [Phi1_castSucc_pos V c t hz]
    by_cases h1 : t.val % 32 = 31
    · have hc2 : condLast1 (grid1.coords t) := (hcondLast1 t).mpr h1
      rw [show (dat1 V c).leavesExact 13 t = owns (c : Thread nD τ) (st1_13 t) fullShare ((dat1 V c).after 13 t) from by
        unfold Dat.leavesExact; rw [liveAt1_13 t hc2], after1_13]
      unfold oblk1
      rw [sAfter1_later V c t hz]
      unfold sStepAt1
      iintro ⟨⟨Hoth, HS, Hg⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_last1 c Set.univ (grid1.coords t) _ _ _ _ _ _ _ _ _ _ _ _ _ _ _ _ _ _ _ _ _ _ _ _ _ _ _ _ _ _ hc1 hc2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (sAfter1 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [HS]; · iexact HS
      iintro ⟨H0, H1, H2, H3, H4, H5, H6, H7, H8, H9, H10, H11, H12, H13, HS⟩
      isplitl [Hoth HS Hg]
      · isplitl [Hoth]; · iexact Hoth
        isplitl [HS]; · iexact HS
        iexact Hg
      isplitl [Howe]; · iexact Howe
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · have hc2 : ¬condLast1 (grid1.coords t) := fun h => h1 ((hcondLast1 t).mp h)
      rw [Dat.leavesExact_idle (dat1 V c) 13 t (idleAt1_13 t hc2) (noFlush1_13 t hc2)]
      rw [sAfter1_later V c t hz]
      unfold sStepAt1
      iintro ⟨⟨Hoth, HS, Hg⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_mid1 c Set.univ (grid1.coords t) _ _ _ _ _ _ _ _ _ _ _ _ _ _ _ _ _ _ _ _ _ _ _ _ _ _ _ _ _ _ hc1 hc2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) ((dat1 V c).before 13 t d13) (sAfter1 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS]; · iexact HS
      iintro ⟨H0, H1, H2, H3, H4, H5, H6, H7, H8, H9, H10, H11, H12, H13, HS⟩
      isplitl [Hoth HS Hg]
      · isplitl [Hoth]; · iexact Hoth
        isplitl [HS]; · iexact HS
        iexact Hg
      isplitl [Howe]; · iexact Howe
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists d13; iexact H13

end AtEntry2

/-- The library's body obligation for region 1's proof data, at every point and any entry contents `V`. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

end Cert.KernelIdeal.Hand

end
-- ==== Proof.KernelIdeal.Regs.lean ====
/-
  The two kernel regions as segments of the program's run, and the run itself: every weakly fair execution
  terminates with the argument arrays as launched, and the result array at what region 1's write-back leaves.

  Between two items a core holds every unscoped buffer whole at a valuation, beside its generator register at
  some state and its dues at nothing. Region 0 is entered from the launch contents after the first host stretch;
  it leaves every buffer as entered but its output array, which holds the 32 write-backs folded. Region 1 is
  entered from those contents after the second host stretch and leaves its own output array likewise.

  In each region two input windows read ONE array (the whole matrix, and the same matrix by row tile). The core
  holds that array's buffer once, at the full share; the pipeline holds an array per window. At the entry the
  buffer's points-to is halved along the share (left half to the first of the two windows, right half to the
  second) and at the exit the two halves, which hold the same contents, are joined again.
-/
import proofs.«420502_j10273561772114_1_alg».proof.Proof.KernelIdeal.Data
import proofs.«420502_j10273561772114_1_alg».proof.Proof.KernelIdeal.Body0
import proofs.«420502_j10273561772114_1_alg».proof.Proof.KernelIdeal.Body1
import proofs.«420502_j10273561772114_1_alg».proof.Proof.Gen.KernelIdeal.Regions
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents between the items -/

/-- Region 0 is entered from the launch contents after the first host stretch. -/
abbrev Vin0 : (c : Dev nD) → (b : Ref sig .tc) → Buf (Elt F) ((c : Thread nD τ).loc b) := fun c b => Gen.V1 m c b

/-- What region 0 leaves in its output array: its 32 write-backs folded. -/
def x1Out (c : Dev nD) : Buf (Elt F) ((c : Thread nD τ).loc main_v5) := (dat0 (Vin0 m) c).arrAt 9 cfg0.N

/-- The contents after region 0 alone, whatever the item: region 0's entry contents with its output array replaced. -/
def outsA : Gen.Outs (F := F) := fun _ r c => Function.update (Vin0 m c) main_v5 (x1Out m c) r

/-- Region 1's entry contents, written over region 0's exit alone. -/
abbrev Vin1A : (c : Dev nD) → (b : Ref sig .tc) → Buf (Elt F) ((c : Thread nD τ).loc b) := fun c b => Gen.V3 m (outsA m) c b

/-- What region 1 leaves in its output array: its write-backs folded. -/
def x2Out (c : Dev nD) : Buf (Elt F) ((c : Thread nD τ).loc main_v13) := (dat1 (Vin1A m) c).arrAt 13 cfg1.N

/-- The contents the regions leave: after item 1 region 0's exit contents, after item 3 region 1's entry contents
    with its output array replaced. -/
def outs : Gen.Outs (F := F) := fun j r c =>
  if j = 2 then Function.update (Vin0 m c) main_v5 (x1Out m c) r
  else Function.update (Vin1A m c) main_v13 (x2Out m c) r

/-- Region 1 is entered from those contents after the second host stretch. -/
abbrev Vin1 : (c : Dev nD) → (b : Ref sig .tc) → Buf (Elt F) ((c : Thread nD τ).loc b) := fun c b => Gen.V3 m (outs m) c b

theorem outs_v5 (c : Dev nD) : outs m 2 main_v5 c = (dat0 (Vin0 m) c).arrAt 9 cfg0.N := by
  unfold outs
  rw [if_pos rfl, Function.update_self]
  rfl

theorem outs_two (c : Dev nD) : outs m 2 main_v5 c = outsA m 2 main_v5 c := by
  unfold outs outsA
  rw [if_pos rfl]

/-- The second host stretch runs from the same contents whichever way region 0's exit is written. -/
theorem V2_eq (c : Dev nD) : Gen.V2 m (outs m) c = Gen.V2 m (outsA m) c := by
  show Function.update (Gen.V1 m c) main_v5 (outs m 2 main_v5 c) = Function.update (Gen.V1 m c) main_v5 (outsA m 2 main_v5 c)
  rw [outs_two]

theorem Vin1_eq : Vin1 m = Vin1A m := by
  funext c b
  show StableHlo.after hostOps1 (Gen.V2 m (outs m) c) b = StableHlo.after hostOps1 (Gen.V2 m (outsA m) c) b
  rw [V2_eq]

theorem outs_v13 (c : Dev nD) : outs m 4 main_v13 c = (dat1 (Vin1 m) c).arrAt 13 cfg1.N := by
  rw [Vin1_eq]
  unfold outs
  rw [if_neg (by decide), Function.update_self]
  rfl

section Arrays0

variable (V : (c : Dev nD) → (b : Ref sig .tc) → Buf (Elt F) ((c : Thread nD τ).loc b))

/-- Region 0's windowed arrays at contents read off a valuation `W`, window by window: each array's buffer at the
    window's share, the two windows on one array at the two halves of the full share. -/
theorem arrays0_eq (c : Dev nD) (W : (b : Ref sig .tc) → Buf (Elt F) ((c : Thread nD τ).loc b))
    (Fa : (w : Fin cfg0.W) → Buf (Elt F) ((cfg0.win w).arr.view.loc (c.tc : Thread nD τ)))
    (hF : ∀ w, Fa w = W (Pipeline.arrRef spec0 w)) :
    ((dat0 V c).arrays Fa : sProp 𝕄) = iprop((((c : Thread nD τ).loc main_arg0) ↦{fullShare} W main_arg0) ∗ (((c : Thread nD τ).loc main_arg1) ↦{fullShare.left} W main_arg1) ∗ (((c : Thread nD τ).loc main_arg1) ↦{fullShare.right} W main_arg1) ∗ (((c : Thread nD τ).loc main_arg2) ↦{fullShare} W main_arg2) ∗ (((c : Thread nD τ).loc main_v0) ↦{fullShare} W main_v0) ∗ (((c : Thread nD τ).loc main_v1) ↦{fullShare} W main_v1) ∗ (((c : Thread nD τ).loc main_v2) ↦{fullShare} W main_v2) ∗ (((c : Thread nD τ).loc main_v3) ↦{fullShare} W main_v3) ∗ (((c : Thread nD τ).loc main_v4) ↦{fullShare} W main_v4) ∗ (((c : Thread nD τ).loc main_v5) ↦{fullShare} W main_v5)) := by
  have h : ((dat0 V c).arrays Fa : sProp 𝕄)
      = bigSep Finset.univ fun w => (((c.tc : Thread nD τ).loc (Pipeline.arrRef spec0 w)) ↦{(dat0 V c).share w} W (Pipeline.arrRef spec0 w) : sProp 𝕄) := by
    unfold Pipeline.Dat.arrays
    exact bigSep_congr fun w _ => by rw [(arr_whole0 w).set_eq_univ, hF]
  rw [h, bigSep_W0]
  rfl

/-- The distinct buffers behind region 0's arrays, one by one, each whole at the full share. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄) = iprop((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_v0) ↦{fullShare} W main_v0) ∗ (((c : Thread nD τ).loc main_v1) ↦{fullShare} W main_v1) ∗ (((c : Thread nD τ).loc main_v2) ↦{fullShare} W main_v2) ∗ (((c : Thread nD τ).loc main_v3) ↦{fullShare} W main_v3) ∗ (((c : Thread nD τ).loc main_v4) ↦{fullShare} W main_v4) ∗ (((c : Thread nD τ).loc main_v5) ↦{fullShare} W main_v5)) := by
  unfold Pipeline.arrBufs
  exact bigSep_eq_bigSepL_of_eq [main_arg0, main_arg1, main_arg2, main_v0, main_v1, main_v2, main_v3, main_v4, main_v5] (by decide) (by decide) _

/-- ENTRY: the buffers behind the arrays make the windows' arrays; the shared buffer's points-to is halved. -/
theorem arrays0_of_bufs (c : Dev nD) (W : (b : Ref sig .tc) → Buf (Elt F) ((c : Thread nD τ).loc b))
    (Fa : (w : Fin cfg0.W) → Buf (Elt F) ((cfg0.win w).arr.view.loc (c.tc : Thread nD τ)))
    (hF : ∀ w, Fa w = W (Pipeline.arrRef spec0 w)) :
    (Pipeline.arrBufs (Ix := Unit) (Name := ℕ) (U := UR sig nD τ) (Lvl := ℕ) spec0 c W : sProp 𝕄) ⊢ (dat0 V c).arrays Fa := by
  rw [arrBufs0_eq, arrays0_eq V c W Fa hF]
  iintro ⟨H0, H1, H2, H3, H4, H5, H6, H7, H8⟩
  ihave Hs := (pointsTo_share (PosShare.mem_left_op_right fullShare)).1 $$ H1
  icases Hs with ⟨Hl, Hr⟩
  isplitl [H0]; · iexact H0
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  iexact H8

/-- EXIT: the windows' arrays make the buffers behind them; the two halves of the shared buffer, at the same
    contents, are joined. -/
theorem bufs_of_arrays0 (c : Dev nD) (W : (b : Ref sig .tc) → Buf (Elt F) ((c : Thread nD τ).loc b))
    (Fa : (w : Fin cfg0.W) → Buf (Elt F) ((cfg0.win w).arr.view.loc (c.tc : Thread nD τ)))
    (hF : ∀ w, Fa w = W (Pipeline.arrRef spec0 w)) :
    ((dat0 V c).arrays Fa : sProp 𝕄) ⊢ Pipeline.arrBufs (Ix := Unit) (Name := ℕ) (U := UR sig nD τ) (Lvl := ℕ) spec0 c W := by
  rw [arrBufs0_eq, arrays0_eq V c W Fa hF]
  iintro ⟨G0, G1, G2, G3, G4, G5, G6, G7, G8, G9⟩
  ihave H1 := (pointsTo_share (PosShare.mem_left_op_right fullShare)).2 $$ [G1 G2]
  · isplitl [G1]; · iexact G1
    iexact G2
  isplitl [G0]; · iexact G0
  isplitl [H1]; · iexact H1
  isplitl [G3]; · iexact G3
  isplitl [G4]; · iexact G4
  isplitl [G5]; · iexact G5
  isplitl [G6]; · iexact G6
  isplitl [G7]; · iexact G7
  isplitl [G8]; · iexact G8
  iexact G9

end Arrays0

section Arrays1

variable (V : (c : Dev nD) → (b : Ref sig .tc) → Buf (Elt F) ((c : Thread nD τ).loc b))

/-- Region 1's windowed arrays at contents read off a valuation `W`, window by window: each array's buffer at the
    window's share, the two windows on one array at the two halves of the full share. -/
theorem arrays1_eq (c : Dev nD) (W : (b : Ref sig .tc) → Buf (Elt F) ((c : Thread nD τ).loc b))
    (Fa : (w : Fin cfg1.W) → Buf (Elt F) ((cfg1.win w).arr.view.loc (c.tc : Thread nD τ)))
    (hF : ∀ w, Fa w = W (Pipeline.arrRef spec1 w)) :
    ((dat1 V c).arrays Fa : sProp 𝕄) = iprop((((c : Thread nD τ).loc main_arg0) ↦{fullShare} W main_arg0) ∗ (((c : Thread nD τ).loc main_v5) ↦{fullShare.left} W main_v5) ∗ (((c : Thread nD τ).loc main_v5) ↦{fullShare.right} W main_v5) ∗ (((c : Thread nD τ).loc main_arg1) ↦{fullShare} W main_arg1) ∗ (((c : Thread nD τ).loc main_v12) ↦{fullShare} W main_v12) ∗ (((c : Thread nD τ).loc main_arg4) ↦{fullShare} W main_arg4) ∗ (((c : Thread nD τ).loc main_v6) ↦{fullShare} W main_v6) ∗ (((c : Thread nD τ).loc main_v7) ↦{fullShare} W main_v7) ∗ (((c : Thread nD τ).loc main_v8) ↦{fullShare} W main_v8) ∗ (((c : Thread nD τ).loc main_v9) ↦{fullShare} W main_v9) ∗ (((c : Thread nD τ).loc main_v10) ↦{fullShare} W main_v10) ∗ (((c : Thread nD τ).loc main_arg6) ↦{fullShare} W main_arg6) ∗ (((c : Thread nD τ).loc main_v11) ↦{fullShare} W main_v11) ∗ (((c : Thread nD τ).loc main_v13) ↦{fullShare} W main_v13)) := by
  have h : ((dat1 V c).arrays Fa : sProp 𝕄)
      = bigSep Finset.univ fun w => (((c.tc : Thread nD τ).loc (Pipeline.arrRef spec1 w)) ↦{(dat1 V c).share w} W (Pipeline.arrRef spec1 w) : sProp 𝕄) := by
    unfold Pipeline.Dat.arrays
    exact bigSep_congr fun w _ => by rw [(arr_whole1 w).set_eq_univ, hF]
  rw [h, bigSep_W1]
  rfl

/-- The distinct buffers behind region 1's arrays, one by one, each whole at the full share. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄) = iprop((((c : Thread nD τ).loc main_arg0) ↦{fullShare} W main_arg0) ∗ (((c : Thread nD τ).loc main_v5) ↦{fullShare} W main_v5) ∗ (((c : Thread nD τ).loc main_arg1) ↦{fullShare} W main_arg1) ∗ (((c : Thread nD τ).loc main_v12) ↦{fullShare} W main_v12) ∗ (((c : Thread nD τ).loc main_arg4) ↦{fullShare} W main_arg4) ∗ (((c : Thread nD τ).loc main_v6) ↦{fullShare} W main_v6) ∗ (((c : Thread nD τ).loc main_v7) ↦{fullShare} W main_v7) ∗ (((c : Thread nD τ).loc main_v8) ↦{fullShare} W main_v8) ∗ (((c : Thread nD τ).loc main_v9) ↦{fullShare} W main_v9) ∗ (((c : Thread nD τ).loc main_v10) ↦{fullShare} W main_v10) ∗ (((c : Thread nD τ).loc main_arg6) ↦{fullShare} W main_arg6) ∗ (((c : Thread nD τ).loc main_v11) ↦{fullShare} W main_v11) ∗ (((c : Thread nD τ).loc main_v13) ↦{fullShare} W main_v13)) := by
  unfold Pipeline.arrBufs
  exact bigSep_eq_bigSepL_of_eq [main_arg0, main_v5, main_arg1, main_v12, main_arg4, main_v6, main_v7, main_v8, main_v9, main_v10, main_arg6, main_v11, main_v13] (by decide) (by decide) _

/-- ENTRY: the buffers behind the arrays make the windows' arrays; the shared buffer's points-to is halved. -/
theorem arrays1_of_bufs (c : Dev nD) (W : (b : Ref sig .tc) → Buf (Elt F) ((c : Thread nD τ).loc b))
    (Fa : (w : Fin cfg1.W) → Buf (Elt F) ((cfg1.win w).arr.view.loc (c.tc : Thread nD τ)))
    (hF : ∀ w, Fa w = W (Pipeline.arrRef spec1 w)) :
    (Pipeline.arrBufs (Ix := Unit) (Name := ℕ) (U := UR sig nD τ) (Lvl := ℕ) spec1 c W : sProp 𝕄) ⊢ (dat1 V c).arrays Fa := by
  rw [arrBufs1_eq, arrays1_eq V c W Fa hF]
  iintro ⟨H0, H1, H2, H3, H4, H5, H6, H7, H8, H9, H10, H11, H12⟩
  ihave Hs := (pointsTo_share (PosShare.mem_left_op_right fullShare)).1 $$ H1
  icases Hs with ⟨Hl, Hr⟩
  isplitl [H0]; · iexact H0
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- EXIT: the windows' arrays make the buffers behind them; the two halves of the shared buffer, at the same
    contents, are joined. -/
theorem bufs_of_arrays1 (c : Dev nD) (W : (b : Ref sig .tc) → Buf (Elt F) ((c : Thread nD τ).loc b))
    (Fa : (w : Fin cfg1.W) → Buf (Elt F) ((cfg1.win w).arr.view.loc (c.tc : Thread nD τ)))
    (hF : ∀ w, Fa w = W (Pipeline.arrRef spec1 w)) :
    ((dat1 V c).arrays Fa : sProp 𝕄) ⊢ Pipeline.arrBufs (Ix := Unit) (Name := ℕ) (U := UR sig nD τ) (Lvl := ℕ) spec1 c W := by
  rw [arrBufs1_eq, arrays1_eq V c W Fa hF]
  iintro ⟨G0, G1, G2, G3, G4, G5, G6, G7, G8, G9, G10, G11, G12, G13⟩
  ihave H1 := (pointsTo_share (PosShare.mem_left_op_right fullShare)).2 $$ [G1 G2]
  · isplitl [G1]; · iexact G1
    iexact G2
  isplitl [G0]; · iexact G0
  isplitl [H1]; · iexact H1
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  iexact G13

end Arrays1

/-! ## The proof data and the rest state -/

/-- Each pipeline's proof data at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## Region 0 -/

/-- At region 0's exit every window's array holds what the valuation after the region reads there: the output
    array its folded write-backs, an input array what it held at entry. -/
theorem exitF0 (c : Dev nD) (w : Fin cfg0.W) :
    (dat0 (Vin0 m) c).arrAt w cfg0.N = Gen.V2 m (outs m) c (Pipeline.arrRef spec0 w) := by
  by_cases hw : w = 9
  · subst hw
    have h : Gen.V2 m (outs m) c (Pipeline.arrRef spec0 9) = outs m 2 main_v5 c := by
      show Function.update (Gen.V1 m c) (Proc.devRef .tc main_v5) (outs m 2 main_v5 c) (Proc.devRef .tc main_v5) = _
      exact Function.update_self ..
    rw [h, outs_v5]
  · have hin : (cfg0.win w).isOut = false := by revert w; decide
    have hne : Pipeline.arrRef spec0 w ∉ ([main_v5] : List (Ref sig .tc)) := by revert w; decide
    rw [(dat0 (Vin0 m) c).arrAt_in w hin, A_eq0, V2_of m (outs m) c _ hne]

/-- The buffers no window of region 0 reads or writes hold after it what they held before. -/
theorem rest0_eq (c : Dev nD) :
    (Pipeline.unscopedRest (Ix := Unit) (Name := ℕ) (U := UR sig nD τ) (Lvl := ℕ) spec0 c (Vin0 m c) : sProp 𝕄)
      = Pipeline.unscopedRest spec0 c (fun b => Gen.V2 m (outs m) c b) := by
  unfold Pipeline.unscopedRest
  refine bigSep_congr fun b hb => ?_
  have hne : b ∉ ([main_v5] : List (Ref sig .tc)) := fun h => by
    rw [List.mem_singleton] at h; subst h
    exact (Finset.mem_sdiff.mp hb).2 (Finset.mem_image.mpr ⟨9, Finset.mem_univ _, rfl⟩)
  beta_reduce
  rw [V2_of m (outs m) c b hne]

set_option backward.isDefEq.respectTransparency.types false in
/-- REGION 0 over the thread state: entered from every unscoped buffer at the contents after the first host
    stretch, left at those contents with the output array replaced. Its arrays are split out of the unscoped
    buffers at entry and put back at exit; the generator register goes into the class invariant and out; nothing
    is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (StableHlo.held (c : Thread nD τ) (Pipeline.ucRefs τ sig) (Gen.V1 m c) : sProp 𝕄)
        ⊢ iprop((pdats m 0 c).arrays ((pdats m 0 c).arrAt · 0)
            ∗ Pipeline.unscopedRest (Ix := Unit) (Name := ℕ) (U := UR sig nD τ) (Lvl := ℕ) spec0 c (Vin0 m c)) := by
      rw [← Pipeline.unscopedBufs_held (Ix := Unit) (Name := ℕ) (U := UR sig nD τ) (Lvl := ℕ) c (Gen.V1 m c),
        show unscopedBufs c (fun b => Gen.V1 m c b) = iprop((Pipeline.arrBufs spec0 c (Vin0 m c) : sProp 𝕄) ∗ Pipeline.unscopedRest spec0 c (Vin0 m c))
          from Pipeline.unscopedBufs_split₀ cfgs 0 winFacts₀0.arr_unscoped c (Vin0 m c)]
      exact sep_mono (arrays0_of_bufs (Vin0 m) c (Vin0 m c) _ fun w => A_eq0 (Vin0 m) c w) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (Vin0 m c))
        ⊢ (StableHlo.held (c : Thread nD τ) (Pipeline.ucRefs τ sig) (Gen.V2 m (outs m) c) : sProp 𝕄) := by
      rw [← Pipeline.unscopedBufs_held (Ix := Unit) (Name := ℕ) (U := UR sig nD τ) (Lvl := ℕ) c (Gen.V2 m (outs m) c),
        show unscopedBufs c (fun b => Gen.V2 m (outs m) c b) = iprop((Pipeline.arrBufs spec0 c (fun b => Gen.V2 m (outs m) c b) : sProp 𝕄) ∗ Pipeline.unscopedRest spec0 c (fun b => Gen.V2 m (outs m) c b))
          from Pipeline.unscopedBufs_split₀ cfgs 0 winFacts₀0.arr_unscoped c (fun b => Gen.V2 m (outs m) c b),
        rest0_eq m c]
      exact sep_mono (bufs_of_arrays0 (Vin0 m) c (fun b => Gen.V2 m (outs m) c b) _ fun w => exitF0 m c w) .rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit every window's array holds what the valuation after the region reads there. -/
theorem exitF1 (c : Dev nD) (w : Fin cfg1.W) :
    (dat1 (Vin1 m) c).arrAt w cfg1.N = Gen.V4 m (outs m) c (Pipeline.arrRef spec1 w) := by
  by_cases hw : w = 13
  · subst hw
    have h : Gen.V4 m (outs m) c (Pipeline.arrRef spec1 13) = outs m 4 main_v13 c := by
      show Function.update (Gen.V3 m (outs m) c) (Proc.devRef .tc main_v13) (outs m 4 main_v13 c) (Proc.devRef .tc main_v13) = _
      exact Function.update_self ..
    rw [h, outs_v13]
  · have hin : (cfg1.win w).isOut = false := by revert w; decide
    have hne : Pipeline.arrRef spec1 w ∉ ([main_v13] : List (Ref sig .tc)) := by revert w; decide
    rw [(dat1 (Vin1 m) c).arrAt_in w hin, A_eq1, V4_of m (outs m) c _ hne]

/-- The buffers no window of region 1 reads or writes hold after it what they held before. -/
theorem rest1_eq (c : Dev nD) :
    (Pipeline.unscopedRest (Ix := Unit) (Name := ℕ) (U := UR sig nD τ) (Lvl := ℕ) spec1 c (Vin1 m c) : sProp 𝕄)
      = Pipeline.unscopedRest spec1 c (fun b => Gen.V4 m (outs m) c b) := by
  unfold Pipeline.unscopedRest
  refine bigSep_congr fun b hb => ?_
  have hne : b ∉ ([main_v13] : List (Ref sig .tc)) := fun h => by
    rw [List.mem_singleton] at h; subst h
    exact (Finset.mem_sdiff.mp hb).2 (Finset.mem_image.mpr ⟨13, Finset.mem_univ _, rfl⟩)
  beta_reduce
  rw [V4_of m (outs m) c b hne]

set_option backward.isDefEq.respectTransparency.types false in
/-- REGION 1 over the thread state: entered from every unscoped buffer at the contents after the second host
    stretch, left at those contents with the output array replaced. Its invariant starts as the class invariant and
    ends with the scratch at the last point's update, which is forgotten again among the scoped buffers. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit : (StableHlo.held (c : Thread nD τ) (Pipeline.ucRefs τ sig) (Gen.V3 m (outs m) c) : sProp 𝕄)
        ⊢ iprop((pdats m 1 c).arrays ((pdats m 1 c).arrAt · 0)
            ∗ Pipeline.unscopedRest (Ix := Unit) (Name := ℕ) (U := UR sig nD τ) (Lvl := ℕ) spec1 c (Vin1 m c)) := by
      rw [← Pipeline.unscopedBufs_held (Ix := Unit) (Name := ℕ) (U := UR sig nD τ) (Lvl := ℕ) c (Gen.V3 m (outs m) c),
        show unscopedBufs c (fun b => Gen.V3 m (outs m) c b) = iprop((Pipeline.arrBufs spec1 c (Vin1 m c) : sProp 𝕄) ∗ Pipeline.unscopedRest spec1 c (Vin1 m c))
          from Pipeline.unscopedBufs_split₀ cfgs 1 winFacts₀1.arr_unscoped c (Vin1 m c)]
      exact sep_mono (arrays1_of_bufs (Vin1 m) c (Vin1 m c) _ fun w => A_eq1 (Vin1 m) c w) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _)
        = iprop(scopedOther1 c ∗ owns (c : Thread nD τ) (Memref.whole cc1_scratch0) fullShare (sAfter1 (Vin1 m) c 31) ∗ ∃ r, prngReg c r)
        from Phi1_succ (Vin1 m) c 31 (by decide),
      owns_whole (c : Thread nD τ) cc1_scratch0 fullShare,
      show (Pipeline.scopedRest (Ix := Unit) (Name := ℕ) (U := UR sig nD τ) (Lvl := ℕ) (Val := Elt F) (Pipeline.pin (pcfgs (F := F)) adm 1).spec c : sProp 𝕄) = _
        from scopedRest1_eq c]
    unfold scopedOther1
    iintro ⟨⟨S0, S1, S2, S3, S4, S5, S6, S7, S8, S9, S10, S11, S12⟩, Hs, Hp⟩
    isplitl [Hp]; · iexact Hp
    isplitr; · iempintro
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexists _; iexact Hs
  hexit c := by
    have hjoin : iprop((pdats m 1 c).arrays ((pdats m 1 c).arrAt · cfg1.N)
          ∗ Pipeline.unscopedRest (Ix := Unit) (Name := ℕ) (U := UR sig nD τ) (Lvl := ℕ) spec1 c (Vin1 m c))
        ⊢ (StableHlo.held (c : Thread nD τ) (Pipeline.ucRefs τ sig) (Gen.V4 m (outs m) c) : sProp 𝕄) := by
      rw [← Pipeline.unscopedBufs_held (Ix := Unit) (Name := ℕ) (U := UR sig nD τ) (Lvl := ℕ) c (Gen.V4 m (outs m) c),
        show unscopedBufs c (fun b => Gen.V4 m (outs m) c b) = iprop((Pipeline.arrBufs spec1 c (fun b => Gen.V4 m (outs m) c b) : sProp 𝕄) ∗ Pipeline.unscopedRest spec1 c (fun b => Gen.V4 m (outs m) c b))
          from Pipeline.unscopedBufs_split₀ cfgs 1 winFacts₀1.arr_unscoped c (fun b => Gen.V4 m (outs m) c b),
        rest1_eq m c]
      exact sep_mono (bufs_of_arrays1 (Vin1 m) c (fun b => Gen.V4 m (outs m) c b) _ fun w => exitF1 m c w) .rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The last valuation reads, at the result array, what region 1 leaves there. -/
theorem V4_v13 (c : Dev nD) : Gen.V4 m (outs m) c main_v13 = outs m 4 main_v13 c := by
  show Function.update (Gen.V3 m (outs m) c) (Proc.devRef .tc main_v13) (outs m 4 main_v13 c) (Proc.devRef .tc main_v13) = _
  exact Function.update_self ..

/-- The launch element yields the pipeline library's at every staging cell; no ghost resource besides. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the rest state on every core: its generator register, and its dues, which are none. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME, at any float instance: every weakly fair execution terminates and every final memory holds each
    argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Gen.frame_cond m emb₁ () 𝒱₀ L lv (fun _ _ => rfl) ρ (outs m) (pdats m) 0 (fun _ => BI.emp)
    (initOf (Pipeline.cells cfgs cellOf_inj) (Pipeline.launchToks cfgs cellOf_inj)) hu₀
    (fun _ c => R c) (hE0 ρ) (fun c => by iintro ⟨-, HO⟩; iexact HO)
    (reg0 m) (fun _ => .rfl) (fun _ => .rfl) (reg1 m) (fun _ => .rfl) (fun _ => .rfl)

set_option backward.isDefEq.respectTransparency.types false in
/-- THE RUN WITH THE RESULT NAMED: the same launch, the last thread state read at the result array too, which holds
    what region 1's write-backs leave. -/
theorem run_value (ρ : Dev nD → PrngReg) : θ_run defs (onTc (τ := τ) (main (F := F))) ⟨m, fun _ => 0, ρ⟩ (fun r => ∀ c : Dev nD,
      r.2.mem ((c.tc : Thread nD τ).loc main_v13) = (dat1 (Vin1 m) c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine Pipeline.θ_run_regions_kit_dev (pcfgs (F := F)) adm (pdats m) () cellOf_inj emb₁ defs₀ 𝒱₀ L lv m ρ main
    (Gen.segs m (outs m) 𝒱₀ L lv (fun _ c => R c) () (pdats m) (reg0 m) (reg1 m))
    (fun c Q => by
      rewrite [main_chain c, Pipeline.Seg.run_eq_chain,
        show (Gen.segs m (outs m) 𝒱₀ L lv (fun _ c => R c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide) 0 (fun _ _ => rfl) (fun _ => BI.emp)
    (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held (Ix := Unit) (Name := ℕ) (U := UR sig nD τ) (Lvl := ℕ) c (Gen.V0 m c)]
      iintro ⟨⟨Hh, -, HO, -, Hp, -⟩, -⟩
      imodintro
      isplitl [Hh]; · iexact Hh
      isplitl [Hp]; · iexists _; iexact Hp
      iexists ∅; iexact HO) (QY := fun c s => s.mem ((c.tc : Thread nD τ).loc main_v13) = (dat1 (Vin1 m) c).arrAt 13 cfg1.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16))
    (hfin := fun c s' => ?_) (hQ := fun _ h => h)
  · -- the end: the result array and each argument's buffer read off the last valuation
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨((h (Proc.devRef .tc main_v13) (Finset.mem_filter.mpr ⟨StableHlo.devRef_mem_tcRefs main_v13, by decide⟩)).trans (V4_v13 m c)).trans (outs_v13 m c),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c),
        (h (Proc.devRef .tc main_arg6) (Finset.mem_filter.mpr ⟨StableHlo.devRef_mem_tcRefs main_arg6, by decide⟩)).trans (V4_main_arg6 m (outs m) c),
        (h (Proc.devRef .tc main_arg7) (Finset.mem_filter.mpr ⟨StableHlo.devRef_mem_tcRefs main_arg7, by decide⟩)).trans (V4_main_arg7 m (outs m) c),
        (h (Proc.devRef .tc main_arg8) (Finset.mem_filter.mpr ⟨StableHlo.devRef_mem_tcRefs main_arg8, by decide⟩)).trans (V4_main_arg8 m (outs m) c),
        (h (Proc.devRef .tc main_arg9) (Finset.mem_filter.mpr ⟨StableHlo.devRef_mem_tcRefs main_arg9, by decide⟩)).trans (V4_main_arg9 m (outs m) c),
        (h (Proc.devRef .tc main_arg10) (Finset.mem_filter.mpr ⟨StableHlo.devRef_mem_tcRefs main_arg10, by decide⟩)).trans (V4_main_arg10 m (outs m) c),
        (h (Proc.devRef .tc main_arg11) (Finset.mem_filter.mpr ⟨StableHlo.devRef_mem_tcRefs main_arg11, by decide⟩)).trans (V4_main_arg11 m (outs m) c),
        (h (Proc.devRef .tc main_arg12) (Finset.mem_filter.mpr ⟨StableHlo.devRef_mem_tcRefs main_arg12, by decide⟩)).trans (V4_main_arg12 m (outs m) c),
        (h (Proc.devRef .tc main_arg13) (Finset.mem_filter.mpr ⟨StableHlo.devRef_mem_tcRefs main_arg13, by decide⟩)).trans (V4_main_arg13 m (outs m) c),
        (h (Proc.devRef .tc main_arg14) (Finset.mem_filter.mpr ⟨StableHlo.devRef_mem_tcRefs main_arg14, by decide⟩)).trans (V4_main_arg14 m (outs m) c),
        (h (Proc.devRef .tc main_arg15) (Finset.mem_filter.mpr ⟨StableHlo.devRef_mem_tcRefs main_arg15, by decide⟩)).trans (V4_main_arg15 m (outs m) c),
        (h (Proc.devRef .tc main_arg16) (Finset.mem_filter.mpr ⟨StableHlo.devRef_mem_tcRefs main_arg16, by decide⟩)).trans (V4_main_arg16 m (outs m) c)⟩
    · iexact HSI

end Cert.KernelIdeal.Hand

end
-- ==== Proof.Spec.lean ====
/-
  The network both programs compute, as plain functions of coordinates over the extended reals.

  A layer takes node features `x` (8192 nodes, 128 features), sums each node's neighbours' features with the
  adjacency weights, lays the node's own features and that sum end to end (256 entries), applies an affine map
  to 128 entries, rectifies, and normalises each entry with running statistics: (z − mean) · rsqrt(var + ε) · γ + β.
  Two layers are stacked; the input features and both layers' outputs are laid end to end (384 entries), summed
  over the nodes of each of 256 graphs (a node belongs to graph `g` when its id word is the 32-bit numeral `g`;
  a node with any other id belongs to none), projected to one number per graph by a weight column and a bias,
  and rectified.
-/
import Idealize.ShloMosaic.PureOps.Ideal

noncomputable section

open scoped BigOperators

namespace Cert.Spec

open Idealize.ShloMosaic

/-- The normalisation's ε as the extended reals read its 32-bit pattern (the same pattern in both programs). -/
def eps : EReal := Ideal.ofBits .f32 0x3727C5AC#32

/-- A node's neighbours' feature `k`, weighted by the adjacency row. -/
def agg (adj : Fin 8192 → Fin 8192 → EReal) (x : Fin 8192 → Fin 128 → EReal) (r : Fin 8192) (k : Fin 128) : EReal :=
  ∑ l : Fin 8192, adj r l * x l k

/-- Two rows of 128 entries laid end to end. -/
def cat2 (a b : Fin 128 → EReal) (k : Fin 256) : EReal :=
  if h : k.val < 128 then a ⟨k.val, h⟩ else b ⟨k.val - 128, by have := k.isLt; omega⟩

/-- Three rows of 128 entries laid end to end. -/
def cat3 (a b c : Fin 128 → EReal) (k : Fin 384) : EReal :=
  if h : k.val < 128 then a ⟨k.val, h⟩
  else if h' : k.val < 256 then b ⟨k.val - 128, by omega⟩
  else c ⟨k.val - 256, by have := k.isLt; omega⟩

/-- Normalisation with running statistics. -/
def bn (z mean var gamma beta : EReal) : EReal := (z - mean) * Ideal.rsqrt (var + eps) * gamma + beta

/-- The affine map's value at node `r`, output feature `j`, before rectification. -/
def lin (adj : Fin 8192 → Fin 8192 → EReal) (x : Fin 8192 → Fin 128 → EReal) (W : Fin 256 → Fin 128 → EReal)
    (b : Fin 128 → EReal) (r : Fin 8192) (j : Fin 128) : EReal :=
  (∑ k : Fin 256, cat2 (x r) (agg adj x r) k * W k j) + b j

/-- One layer. -/
def layer (adj : Fin 8192 → Fin 8192 → EReal) (x : Fin 8192 → Fin 128 → EReal) (W : Fin 256 → Fin 128 → EReal)
    (b gamma beta mean var : Fin 128 → EReal) (r : Fin 8192) (j : Fin 128) : EReal :=
  bn (max (lin adj x W b r j) 0) (mean j) (var j) (gamma j) (beta j)

/-- A node's 384 readout entries: its input features and both layers' outputs. -/
def readout (x x1 x2 : Fin 8192 → Fin 128 → EReal) (r : Fin 8192) (f : Fin 384) : EReal :=
  cat3 (x r) (x1 r) (x2 r) f

/-- Graph `g`'s pooled entry `f`: the sum over the nodes whose id word is `g`. -/
def pooled (idx : Fin 8192 → BitVec 32) (xc : Fin 8192 → Fin 384 → EReal) (g : Fin 256) (f : Fin 384) : EReal :=
  ∑ r : Fin 8192, if idx r = BitVec.ofNat 32 g.val then xc r f else 0

/-- Graph `g`'s result. -/
def head (p : Fin 256 → Fin 384 → EReal) (W4 : Fin 384 → EReal) (b4 : EReal) (g : Fin 256) : EReal :=
  max ((∑ f : Fin 384, p g f * W4 f) + b4) 0

/-- The whole network. -/
def result (adj : Fin 8192 → Fin 8192 → EReal) (x : Fin 8192 → Fin 128 → EReal)
    (W1 : Fin 256 → Fin 128 → EReal) (b1 g1 be1 mu1 va1 : Fin 128 → EReal)
    (W2 : Fin 256 → Fin 128 → EReal) (b2 g2 be2 mu2 va2 : Fin 128 → EReal)
    (W4 : Fin 384 → EReal) (b4 : EReal) (idx : Fin 8192 → BitVec 32) (g : Fin 256) : EReal :=
  let x1 := layer adj x W1 b1 g1 be1 mu1 va1
  let x2 := layer adj x1 W2 b2 g2 be2 mu2 va2
  head (pooled idx (readout x x1 x2)) W4 b4 g

end Cert.Spec

end
-- ==== Proof.KernelIdeal.Value0.lean ====
/-
  What region 0 leaves in its output array, over the extended reals.

  The region runs 32 points. Point `t` stores one 256 × 128 tile and writes it back to rows `256 t … 256 t + 255` of the
  output array, so the 32 tiles cover the array and row `r` is written by point `r / 256` at tile row `r % 256`.
  The tile's entry at tile row `p` and feature `j` is computed from the point's blocks: row `p` of the adjacency tile
  (row `256 t + p` of the adjacency matrix) is multiplied into the whole feature matrix, giving the neighbours' weighted
  sum of each feature; row `p` of the feature tile (row `256 t + p` of the feature matrix) and that sum are laid end to
  end (256 entries) and multiplied into the 256 × 128 weights; the bias row is added, the result rectified against zero,
  and normalised as (z − mean) · rsqrt(var + ε) · γ + β with the four rows read at feature `j`. Over the extended reals
  a product onto a zero accumulator is the plain sum over the contracted axis and a change of float format is the
  identity, so this entry is the specification's `layer` at node `256 t + p`, feature `j`, of the arrays the region was
  entered with.

  In order: the two products read at an entry; the side-by-side layout and the row broadcast read at an entry; the
  body's payload at an entry; each window's block read off its array; what a point writes back as a tile of one
  function of the output array's index; the tiles' cover; the array after the last point.
-/
import proofs.«420502_j10273561772114_1_alg».proof.Proof.KernelIdeal.Data
import proofs.«420502_j10273561772114_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Value0

theorem hz00 : (![0, 0] : Fin 2 → Nat) = fun _ => 0 := funext fun a => by fin_cases a <;> rfl

/-! ## The two products -/

theorem aggL0 (i : S256x128.Idx) (q : dot_S256x8192_S8192x128_S256x128_1_0_0_1_n_n.contr.Idx) :
    (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
theorem aggL1 (i : S256x128.Idx) (q : dot_S256x8192_S8192x128_S256x128_1_0_0_1_n_n.contr.Idx) :
    (dot_S256x8192_S8192x128_S256x128_1_0_0_1_n_n.lhsIdx i q 1).val = (q ⟨0, by decide⟩).val :=
  dot_S256x8192_S8192x128_S256x128_1_0_0_1_n_n.lhsIdx_val_of_single rfl i q
theorem aggR0 (i : S256x128.Idx) (q : dot_S256x8192_S8192x128_S256x128_1_0_0_1_n_n.contr.Idx) :
    (dot_S256x8192_S8192x128_S256x128_1_0_0_1_n_n.rhsIdx i q 0).val = (q ⟨0, by decide⟩).val :=
  dot_S256x8192_S8192x128_S256x128_1_0_0_1_n_n.rhsIdx_val_of_single rfl i q
theorem aggR1 (i : S256x128.Idx) (q : dot_S256x8192_S8192x128_S256x128_1_0_0_1_n_n.contr.Idx) :
    (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

/-- The first product onto a zero accumulator, entry by entry: row `p` of the left factor against column `k` of the right. -/
theorem agg_apply {φ₁ φ₂ : FTy} (a : FVec Ideal S256x8192 φ₁) (b : FVec Ideal S8192x128 φ₂) (p : Fin 256) (k : Fin 128) :
    matmul dot_S256x8192_S8192x128_S256x128_1_0_0_1_n_n none a b (constant (F := Ideal) S256x128 .f32 0x00000000#32) (ix2 p k)
      = ∑ l : Fin 8192, a (ix2 p l) * b (ix2 l k) := by
  show FloatOps.matmul dot_S256x8192_S8192x128_S256x128_1_0_0_1_n_n none a b (constant (F := Ideal) S256x128 .f32 0x00000000#32) (ix2 p k) = _
  rw [Ideal.matmul_constant_zero_apply, ← Equiv.sum_comp (contrEquiv1 dot_S256x8192_S8192x128_S256x128_1_0_0_1_n_n 8192 rfl rfl).symm]
  refine Finset.sum_congr rfl fun l _ => ?_
  have hk := contrEquiv1_symm_val dot_S256x8192_S8192x128_S256x128_1_0_0_1_n_n 8192 rfl rfl l
  have el : dot_S256x8192_S8192x128_S256x128_1_0_0_1_n_n.lhsIdx (ix2 p k) ((contrEquiv1 dot_S256x8192_S8192x128_S256x128_1_0_0_1_n_n 8192 rfl rfl).symm l) = ix2 p l := funext fun a => Fin.ext (by
    match a with
    | ⟨0, _⟩ => exact aggL0 _ _
    | ⟨1, _⟩ => exact (aggL1 _ _).trans hk)
  have er : dot_S256x8192_S8192x128_S256x128_1_0_0_1_n_n.rhsIdx (ix2 p k) ((contrEquiv1 dot_S256x8192_S8192x128_S256x128_1_0_0_1_n_n 8192 rfl rfl).symm l) = ix2 l k := funext fun a => Fin.ext (by
    match a with
    | ⟨0, _⟩ => exact (aggR0 _ _).trans hk
    | ⟨1, _⟩ => exact aggR1 _ _)
  rw [el, er]

theorem linL0 (i : S256x128.Idx) (q : dot_S256x256_S256x128_S256x128_1_0_0_1_n_n.contr.Idx) :
    (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
theorem linL1 (i : S256x128.Idx) (q : dot_S256x256_S256x128_S256x128_1_0_0_1_n_n.contr.Idx) :
    (dot_S256x256_S256x128_S256x128_1_0_0_1_n_n.lhsIdx i q 1).val = (q ⟨0, by decide⟩).val :=
  dot_S256x256_S256x128_S256x128_1_0_0_1_n_n.lhsIdx_val_of_single rfl i q
theorem linR0 (i : S256x128.Idx) (q : dot_S256x256_S256x128_S256x128_1_0_0_1_n_n.contr.Idx) :
    (dot_S256x256_S256x128_S256x128_1_0_0_1_n_n.rhsIdx i q 0).val = (q ⟨0, by decide⟩).val :=
  dot_S256x256_S256x128_S256x128_1_0_0_1_n_n.rhsIdx_val_of_single rfl i q
theorem linR1 (i : S256x128.Idx) (q : dot_S256x256_S256x128_S256x128_1_0_0_1_n_n.contr.Idx) :
    (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

/-- The second product onto a zero accumulator, entry by entry. -/
theorem lin_apply {φ₁ φ₂ : FTy} (a : FVec Ideal S256x256 φ₁) (b : FVec Ideal S256x128 φ₂) (p : Fin 256) (j : Fin 128) :
    matmul dot_S256x256_S256x128_S256x128_1_0_0_1_n_n none a b (constant (F := Ideal) S256x128 .f32 0x00000000#32) (ix2 p j)
      = ∑ k : Fin 256, a (ix2 p k) * b (ix2 k j) := by
  show FloatOps.matmul dot_S256x256_S256x128_S256x128_1_0_0_1_n_n none a b (constant (F := Ideal) S256x128 .f32 0x00000000#32) (ix2 p j) = _
  rw [Ideal.matmul_constant_zero_apply, ← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx (ix2 p j) ((contrEquiv1 dot_S256x256_S256x128_S256x128_1_0_0_1_n_n 256 rfl rfl).symm k) = ix2 p k := funext fun a => Fin.ext (by
    match a with
    | ⟨0, _⟩ => exact linL0 _ _
    | ⟨1, _⟩ => exact (linL1 _ _).trans hk)
  have er : dot_S256x256_S256x128_S256x128_1_0_0_1_n_n.rhsIdx (ix2 p j) ((contrEquiv1 dot_S256x256_S256x128_S256x128_1_0_0_1_n_n 256 rfl rfl).symm k) = ix2 k j := funext fun a => Fin.ext (by
    match a with
    | ⟨0, _⟩ => exact (linR0 _ _).trans hk
    | ⟨1, _⟩ => exact linR1 _ _)
  rw [el, er]

/-! ## The layout operations -/

/-- Two 256 × 128 blocks laid side by side, read at row `p`, column `k`: the specification's `cat2` of the two rows. -/
theorem cat_apply (u v : S256x128.Idx → EReal) (p : Fin 256) (k : Fin 256) :
    concatenate S256x256 1 [⟨S256x128, u⟩, ⟨S256x128, v⟩] concatenates_S256x128_S256x128_S256x256_d1 (ix2 p k)
      = Cert.Spec.cat2 (fun k' => u (ix2 p k')) (fun k' => v (ix2 p k')) k := by
  unfold Cert.Spec.cat2
  by_cases h : k.val < 128
  · rw [dif_pos h]
    refine concatenate_pair_apply_left (1 : Fin S256x256.rank) u v concatenates_S256x128_S256x128_S256x256_d1 (ix2 p k) rfl (ix2 p ⟨k.val, h⟩) fun b => ?_
    match b with
    | ⟨0, _⟩ => rfl
    | ⟨1, _⟩ => rfl
  · rw [dif_neg h]
    refine concatenate_pair_apply_right (1 : Fin S256x256.rank) u v concatenates_S256x128_S256x128_S256x256_d1 (ix2 p k) rfl rfl (ix2 p ⟨k.val - 128, by have := k.isLt; omega⟩) (fun b hb => ?_) ?_
    · match b with
      | ⟨0, _⟩ => rfl
      | ⟨1, _⟩ => exact absurd rfl hb
    · show (k.val - 128) + 128 = k.val
      omega

/-- A 1 × 128 row repeated down 256 rows reads, at any row, the row's entry. -/
theorem row_apply (x : S1x128.Idx → EReal) (p : Fin 256) (j : Fin 128) :
    broadcastTo S256x128 x broadcasts_S1x128_S256x128 (ix2 p j) = x (ix2 0 j) := by
  refine broadcastTo_apply x broadcasts_S1x128_S256x128 (ix2 p j) (ix2 0 j) fun a => ?_
  match a with
  | ⟨0, _⟩ => rfl
  | ⟨1, _⟩ => rfl

/-! ## The body's payload at an entry -/

/-- Row `p`, feature `j` of the block the body stores: the row's own features and its adjacency row's weighted sum
    of all nodes' features laid end to end, the affine map, the rectifier, the normalisation. -/
theorem pay_apply (x0 : Vec Ideal S256x8192 .f32) (x1 : Vec Ideal S8192x128 .f32) (x2 x3 : Vec Ideal S256x128 .f32)
    (x4 x5 x6 x7 x8 : Vec Ideal S1x128 .f32) (p : Fin 256) (j : Fin 128) :
    (k0_pay1 x0 x1 x2 x3 x4 x5 x6 x7 x8 : S256x128.Idx → EReal) (ix2 p j)
      = Cert.Spec.bn (max ((∑ k : Fin 256, Cert.Spec.cat2 (fun k' => x2 (ix2 p k')) (fun k' => ∑ l : Fin 8192, x0 (ix2 p l) * x1 (ix2 l k')) k * x3 (ix2 k j)) + x4 (ix2 0 j)) 0)
          (x7 (ix2 0 j)) (x8 (ix2 0 j)) (x5 (ix2 0 j)) (x6 (ix2 0 j)) := by
  unfold k0_pay1 Cert.Spec.bn Cert.Spec.eps
  simp only [shapeCast_self]
  simp only [addf_apply, mulf_apply, subf_apply, maximumf_apply, broadcast_apply, row_apply, lin_apply, cat_apply, agg_apply, truncf_apply, Ideal.ofBits_def, Ideal.ofBits_zero_f32]
  rfl

/-- The same entry when the blocks are read off whole arrays: the adjacency block's row `p` and the feature tile's row `p`
    are the arrays' row `r`, the other blocks are their arrays. It is the specification's layer at node `r`. -/
theorem tile_entry (A0 : S8192x8192.Idx → EReal) (A1 : S8192x128.Idx → EReal) (A2 : S256x128.Idx → EReal)
    (b g be mu va : S1x128.Idx → EReal)
    (x0 : Vec Ideal S256x8192 .f32) (x1 : Vec Ideal S8192x128 .f32) (x2 x3 : Vec Ideal S256x128 .f32)
    (x4 x5 x6 x7 x8 : Vec Ideal S1x128 .f32) (r : Fin 8192) (p : Fin 256) (j : Fin 128)
    (h0 : ∀ l : Fin 8192, x0 (ix2 p l) = A0 (ix2 r l)) (h1 : x1 = A1) (h2 : ∀ k : Fin 128, x2 (ix2 p k) = A1 (ix2 r k))
    (h3 : x3 = A2) (h4 : x4 = b) (h5 : x5 = g) (h6 : x6 = be) (h7 : x7 = mu) (h8 : x8 = va) :
    (k0_pay1 x0 x1 x2 x3 x4 x5 x6 x7 x8 : S256x128.Idx → EReal) (ix2 p j)
      = Cert.Spec.layer (fun a k => A0 (ix2 a k)) (fun a k => A1 (ix2 a k)) (fun a k => A2 (ix2 a k))
          (fun k => b (ix2 0 k)) (fun k => g (ix2 0 k)) (fun k => be (ix2 0 k)) (fun k => mu (ix2 0 k)) (fun k => va (ix2 0 k)) r j := by
  subst h1 h3 h4 h5 h6 h7 h8
  rw [pay_apply]
  unfold Cert.Spec.layer Cert.Spec.lin
  simp only [h0, h2]
  rfl

/-! ## Each block read off its array -/

/-- The block index of every window at every point: the adjacency tile, the feature tile and the output tile move down
    one block of rows per point; the whole-array windows stay at block zero. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The adjacency block at point `t` is rows `256 t … 256 t + 255` of the adjacency matrix. -/
theorem adj_blk (c : Dev nD) (t : Fin cfg0.N) (p : Fin 256) (l : Fin 8192) (r : Fin 8192) (hr : r.val = 256 * t.val + p.val) :
    (iblk0 (F := Ideal) V c 0 t : Vec Ideal S256x8192 .f32) (ix2 p l) = (V c main_arg0 : S8192x8192.Idx → EReal) (ix2 r l) := by
  obtain ⟨e0, e1, -⟩ := blockIdx0 t
  unfold iblk0
  rw [View.read_apply]
  show (V c main_arg0 : S8192x8192.Idx → EReal) _ = (V c main_arg0 : S8192x8192.Idx → EReal) _
  refine congrArg (V c main_arg0 : S8192x8192.Idx → EReal) (funext fun a => Fin.ext ?_)
  match a with
  | ⟨0, _⟩ => show win0_0.index t (0 : Fin 2) * 256 + 1 * p.val = r.val; omega
  | ⟨1, _⟩ => show win0_0.index t (1 : Fin 2) * 8192 + 1 * l.val = l.val; omega

/-- The feature tile at point `t` is rows `256 t … 256 t + 255` of the feature matrix. -/
theorem featTile_blk (c : Dev nD) (t : Fin cfg0.N) (p : Fin 256) (k : Fin 128) (r : Fin 8192) (hr : r.val = 256 * t.val + p.val) :
    (iblk0 (F := Ideal) V c 2 t : Vec Ideal S256x128 .f32) (ix2 p k) = (V c main_arg1 : S8192x128.Idx → EReal) (ix2 r k) := by
  obtain ⟨a0, a1, b0, b1, c0, c1, d0, d1, e0, e1, f0, f1, g0, g1, h0, h1, i0, i1, j0, j1⟩ := blockIdx0 t
  unfold iblk0
  rw [View.read_apply]
  show (V c main_arg1 : S8192x128.Idx → EReal) _ = (V c main_arg1 : S8192x128.Idx → EReal) _
  refine congrArg (V c main_arg1 : S8192x128.Idx → EReal) (funext fun a => Fin.ext ?_)
  match a with
  | ⟨0, _⟩ => show win0_2.index t (0 : Fin 2) * 256 + 1 * p.val = r.val; omega
  | ⟨1, _⟩ => show win0_2.index t (1 : Fin 2) * 128 + 1 * k.val = k.val; omega

/-- The whole-matrix window of the features holds the feature matrix at every point. -/
theorem feat_blk (c : Dev nD) (t : Fin cfg0.N) :
    (iblk0 (F := Ideal) V c 1 t : Vec Ideal S8192x128 .f32) = (V c main_arg1 : S8192x128.Idx → EReal) := by
  obtain ⟨a0, a1, b0, b1, c0, c1, d0, d1, e0, e1, f0, f1, g0, g1, h0, h1, i0, i1, j0, j1⟩ := blockIdx0 t
  funext y
  unfold iblk0
  rw [View.read_apply]
  show (V c main_arg1 : S8192x128.Idx → EReal) _ = (V c main_arg1 : S8192x128.Idx → EReal) y
  refine congrArg (V c main_arg1 : S8192x128.Idx → EReal) (funext fun a => Fin.ext ?_)
  match a with
  | ⟨0, _⟩ => show win0_1.index t (0 : Fin 2) * 8192 + 1 * (y 0).val = (y 0).val; omega
  | ⟨1, _⟩ => show win0_1.index t (1 : Fin 2) * 128 + 1 * (y 1).val = (y 1).val; omega

/-- The weights' window holds the weight matrix at every point. -/
theorem weight_blk (c : Dev nD) (t : Fin cfg0.N) :
    (iblk0 (F := Ideal) V c 3 t : Vec Ideal S256x128 .f32) = (V c main_arg2 : S256x128.Idx → EReal) := by
  obtain ⟨a0, a1, b0, b1, c0, c1, d0, d1, e0, e1, f0, f1, g0, g1, h0, h1, i0, i1, j0, j1⟩ := blockIdx0 t
  funext y
  unfold iblk0
  rw [View.read_apply]
  show (V c main_arg2 : S256x128.Idx → EReal) _ = (V c main_arg2 : S256x128.Idx → EReal) y
  refine congrArg (V c main_arg2 : S256x128.Idx → EReal) (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

/-- The bias row's window holds the row at every point. -/
theorem bias_blk (c : Dev nD) (t : Fin cfg0.N) :
    (iblk0 (F := Ideal) V c 4 t : Vec Ideal S1x128 .f32) = (V c main_v0 : S1x128.Idx → EReal) := by
  obtain ⟨a0, a1, b0, b1, c0, c1, d0, d1, e0, e1, f0, f1, g0, g1, h0, h1, i0, i1, j0, j1⟩ := blockIdx0 t
  funext y
  unfold iblk0
  rw [View.read_apply]
  show (V c main_v0 : S1x128.Idx → EReal) _ = (V c main_v0 : S1x128.Idx → EReal) y
  refine congrArg (V c main_v0 : S1x128.Idx → EReal) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The scale row's window holds the row at every point. -/
theorem gamma_blk (c : Dev nD) (t : Fin cfg0.N) :
    (iblk0 (F := Ideal) V c 5 t : Vec Ideal S1x128 .f32) = (V c main_v1 : S1x128.Idx → EReal) := by
  obtain ⟨a0, a1, b0, b1, c0, c1, d0, d1, e0, e1, f0, f1, g0, g1, h0, h1, i0, i1, j0, j1⟩ := blockIdx0 t
  funext y
  unfold iblk0
  rw [View.read_apply]
  show (V c main_v1 : S1x128.Idx → EReal) _ = (V c main_v1 : S1x128.Idx → EReal) y
  refine congrArg (V c main_v1 : S1x128.Idx → EReal) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The shift row's window holds the row at every point. -/
theorem beta_blk (c : Dev nD) (t : Fin cfg0.N) :
    (iblk0 (F := Ideal) V c 6 t : Vec Ideal S1x128 .f32) = (V c main_v2 : S1x128.Idx → EReal) := by
  obtain ⟨a0, a1, b0, b1, c0, c1, d0, d1, e0, e1, f0, f1, g0, g1, h0, h1, i0, i1, j0, j1⟩ := blockIdx0 t
  funext y
  unfold iblk0
  rw [View.read_apply]
  show (V c main_v2 : S1x128.Idx → EReal) _ = (V c main_v2 : S1x128.Idx → EReal) y
  refine congrArg (V c main_v2 : S1x128.Idx → EReal) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The running mean's window holds the row at every point. -/
theorem mean_blk (c : Dev nD) (t : Fin cfg0.N) :
    (iblk0 (F := Ideal) V c 7 t : Vec Ideal S1x128 .f32) = (V c main_v3 : S1x128.Idx → EReal) := by
  obtain ⟨a0, a1, b0, b1, c0, c1, d0, d1, e0, e1, f0, f1, g0, g1, h0, h1, i0, i1, j0, j1⟩ := blockIdx0 t
  funext y
  unfold iblk0
  rw [View.read_apply]
  show (V c main_v3 : S1x128.Idx → EReal) _ = (V c main_v3 : S1x128.Idx → EReal) y
  refine congrArg (V c main_v3 : S1x128.Idx → EReal) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- The running variance's window holds the row at every point. -/
theorem var_blk (c : Dev nD) (t : Fin cfg0.N) :
    (iblk0 (F := Ideal) V c 8 t : Vec Ideal S1x128 .f32) = (V c main_v4 : S1x128.Idx → EReal) := by
  obtain ⟨a0, a1, b0, b1, c0, c1, d0, d1, e0, e1, f0, f1, g0, g1, h0, h1, i0, i1, j0, j1⟩ := blockIdx0 t
  funext y
  unfold iblk0
  rw [View.read_apply]
  show (V c main_v4 : S1x128.Idx → EReal) _ = (V c main_v4 : S1x128.Idx → EReal) y
  refine congrArg (V c main_v4 : S1x128.Idx → EReal) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-! ## From the tiles to the array -/

/-- The specification's first layer of the arrays region 0 is entered with, as one function of the output array's index. -/
abbrev layer0 (c : Dev nD) : S8192x128.Idx → EReal := fun i =>
  Cert.Spec.layer (fun a b => (V c main_arg0 : S8192x8192.Idx → EReal) (ix2 a b))
    (fun a b => (V c main_arg1 : S8192x128.Idx → EReal) (ix2 a b))
    (fun a b => (V c main_arg2 : S256x128.Idx → EReal) (ix2 a b))
    (fun k => (V c main_v0 : S1x128.Idx → EReal) (ix2 0 k))
    (fun k => (V c main_v1 : S1x128.Idx → EReal) (ix2 0 k))
    (fun k => (V c main_v2 : S1x128.Idx → EReal) (ix2 0 k))
    (fun k => (V c main_v3 : S1x128.Idx → EReal) (ix2 0 k))
    (fun k => (V c main_v4 : S1x128.Idx → EReal) (ix2 0 k)) (i 0) (i 1)

/-- What point `t` writes back is tile `t` of that function: rows `256 t … 256 t + 255`. -/
theorem tile_written (c : Dev nD) (t : Fin cfg0.N) :
    (dat0 (F := Ideal) V c).flushed 9 t = ((cfg0.win 9).blk t).view.read (Elt Ideal) (layer0 V c) := by
  show (cfg0.win 9).cut (grid0.coords t) ((dat0 (F := Ideal) V c).after 9 t) = _
  rw [after0_9]
  unfold oblk0 out0_9
  rw [View.canon_unit_zero hz00]
  simp only [View.ld_unit_zero (S := S256x8192) hz00, View.ld_unit_zero (S := S8192x128) hz00,
    View.ld_unit_zero (S := S256x128) hz00, View.ld_unit_zero (S := S1x128) hz00]
  obtain ⟨a0, a1, b0, b1, c0, c1, d0, d1, e0, e1, f0, f1, g0, g1, h0, h1, i0, i1, j0, j1⟩ := blockIdx0 t
  have ht : t.val < 32 := lt_of_lt_of_eq (show t.val < grid0.N from t.isLt) N_0
  funext y
  obtain ⟨p, j, rfl⟩ : ∃ (p : Fin 256) (j : Fin 128), y = ix2 p j := ⟨y 0, y 1, eq_ix2 y⟩
  have hemb : ((cfg0.win 9).blk t).view.emb (ix2 p j) = (ix2 (⟨256 * t.val + p.val, by have := p.isLt; omega⟩ : Fin 8192) j : S8192x128.Idx) :=
    funext fun a => Fin.ext (by
      match a with
      | ⟨0, _⟩ => show win0_9.index t (0 : Fin 2) * 256 + 1 * p.val = 256 * t.val + p.val; omega
      | ⟨1, _⟩ => show win0_9.index t (1 : Fin 2) * 128 + 1 * j.val = j.val; omega)
  rw [View.read_apply, hemb]
  exact tile_entry (V c main_arg0) (V c main_arg1) (V c main_arg2) (V c main_v0) (V c main_v1) (V c main_v2) (V c main_v3) (V c main_v4)
    (iblk0 V c 0 t) (iblk0 V c 1 t) (iblk0 V c 2 t) (iblk0 V c 3 t) (iblk0 V c 4 t) (iblk0 V c 5 t) (iblk0 V c 6 t) (iblk0 V c 7 t) (iblk0 V c 8 t)
    ⟨256 * t.val + p.val, by have := p.isLt; omega⟩ p j
    (fun l => adj_blk V c t p l _ rfl) (feat_blk V c t) (fun k => featTile_blk V c t p k _ rfl) (weight_blk V c t)
    (bias_blk V c t) (gamma_blk V c t) (beta_blk V c t) (mean_blk V c t) (var_blk V c t)

/-- An index of the output array is in point `t`'s tile iff each coordinate is in the tile's range on its axis. -/
theorem mem_tile (t : Fin cfg0.N) (i : S8192x128.Idx) :
    i ∈ ((cfg0.win 9).blk t).view.set ↔ ∀ a : Fin 2, win0_9.index t a * S256x128.size a ≤ (i a).val ∧ (i a).val < win0_9.index t a * S256x128.size a + S256x128.size a := by
  show i ∈ ((View.whole main_v5).slice (win0_9.rect t)).set ↔ _
  rw [View.set_slice_whole, Rect.mem_set_unit]
  exact Iff.rfl

/-- The tiles cover the output array: row `r` lies in the tile of point `r / 256`. -/
theorem tiles_cover (i : S8192x128.Idx) :
    ∃ t : Fin cfg0.N, (cfg0.win 9).flush t = true ∧ i ∈ ((cfg0.win 9).blk t).view.set := by
  have hi0 : (i 0).val < 8192 := (i 0).isLt
  have hi1 : (i 1).val < 128 := (i 1).isLt
  have hlt : (i 0).val / 256 < cfg0.N := by show (i 0).val / 256 < grid0.N; rw [N_0]; omega
  refine ⟨⟨(i 0).val / 256, hlt⟩, flush0_9 _, ?_⟩
  rw [mem_tile]
  obtain ⟨a0, a1, b0, b1, c0, c1, d0, d1, e0, e1, f0, f1, g0, g1, h0, h1, i0, i1, j0, j1⟩ := blockIdx0 ⟨(i 0).val / 256, hlt⟩
  have j0' : win0_9.index ⟨(i 0).val / 256, hlt⟩ (0 : Fin 2) = (i 0).val / 256 := j0
  intro a
  match a with
  | ⟨0, _⟩ => show win0_9.index ⟨(i 0).val / 256, _⟩ (0 : Fin 2) * 256 ≤ (i 0).val ∧ (i 0).val < win0_9.index ⟨(i 0).val / 256, _⟩ (0 : Fin 2) * 256 + 256; omega
  | ⟨1, _⟩ => show win0_9.index ⟨(i 0).val / 256, _⟩ (1 : Fin 2) * 128 ≤ (i 1).val ∧ (i 1).val < win0_9.index ⟨(i 0).val / 256, _⟩ (1 : Fin 2) * 128 + 128; omega

end Value0

/-- Region 0's output array after its last point, entry by entry: the specification's layer of the arrays the
    region was entered with (the adjacency matrix, the features, the weights, and the five row vectors as the
    host's reshapes left them). -/
theorem x1_value (c : Dev nD) (r : Fin 8192) (j : Fin 128) :
    ((dat0 (F := Ideal) V c).arrAt 9 cfg0.N : S8192x128.Idx → EReal) (ix2 r j)
      = Cert.Spec.layer (fun a b => (V c main_arg0 : S8192x8192.Idx → EReal) (ix2 a b))
          (fun a b => (V c main_arg1 : S8192x128.Idx → EReal) (ix2 a b))
          (fun a b => (V c main_arg2 : S256x128.Idx → EReal) (ix2 a b))
          (fun k => (V c main_v0 : S1x128.Idx → EReal) (ix2 0 k))
          (fun k => (V c main_v1 : S1x128.Idx → EReal) (ix2 0 k))
          (fun k => (V c main_v2 : S1x128.Idx → EReal) (ix2 0 k))
          (fun k => (V c main_v3 : S1x128.Idx → EReal) (ix2 0 k))
          (fun k => (V c main_v4 : S1x128.Idx → EReal) (ix2 0 k)) r j :=
  congrFun ((dat0 (F := Ideal) V c).arrAt_eq_of_cover 9 (Value0.layer0 V c) (fun t _ => Value0.tile_written V c t) Value0.tiles_cover) (ix2 r j)

end Cert.KernelIdeal.Hand

end
-- ==== Proof.KernelIdeal.Step1.lean ====
/-
  Region 1's three payload terms read at an index, over the extended reals and over plain vectors of the literal shapes: the zeroed scratch is zero; one point's update adds, at graph g and entry f, the tile's rows whose id word is g (the row's input features, first-layer activations and second-layer value laid end to end); the last point's store is the rectified projection of the scratch.
-/
import proofs.«420502_j10273561772114_1_alg».proof.Proof.KernelIdeal.Data
import proofs.«420502_j10273561772114_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The second layer's value at row `p` of a tile and feature `j`, from the tile's blocks: the adjacency tile `x0`,
    the first layer's activations whole (`x1`) and by tile (`x2`), the weights `x5` and the row vectors
    (bias `x6`, scale `x7`, shift `x8`, running mean `x9`, running variance `x10`). -/
def tileLayer2 (x0 : Vec Ideal S256x8192 .f32) (x1 : Vec Ideal S8192x128 .f32) (x2 : Vec Ideal S256x128 .f32)
    (x5 : Vec Ideal S256x128 .f32) (x6 x7 x8 x9 x10 : Vec Ideal S1x128 .f32) (p : Fin 256) (j : Fin 128) : EReal :=
  Cert.Spec.bn
    (max ((∑ k : Fin 256, Cert.Spec.cat2 (fun k => x2 (ix2 p k)) (fun k => ∑ l : Fin 8192, x0 (ix2 p l) * x1 (ix2 l k)) k * x5 (ix2 k j))
      + x6 (ix2 0 j)) 0)
    (x9 (ix2 0 j)) (x10 (ix2 0 j)) (x7 (ix2 0 j)) (x8 (ix2 0 j))

namespace Step1

/-- The zero offsets of a whole-buffer rectangle of rank two. -/
theorem zeroOff2 : (![0, 0] : Fin 2 → Nat) = fun _ => 0 := funext fun a => by fin_cases a <;> rfl

/-- The projection's product (scratch rows against the weight column): on its contracted axis the left operand's index is the contraction position. -/
theorem head_lhs_1 (i : S256x1.Idx) (q : dot_S256x384_S384x1_S256x1_1_0_0_1_n_n.contr.Idx) :
    (dot_S256x384_S384x1_S256x1_1_0_0_1_n_n.lhsIdx i q 1).val = (q ⟨0, by decide⟩).val :=
  dot_S256x384_S384x1_S256x1_1_0_0_1_n_n.lhsIdx_val_of_single rfl i q
/-- On its other axis the left operand's index is the result's row. -/
theorem head_lhs_0 (i : S256x1.Idx) (q : dot_S256x384_S384x1_S256x1_1_0_0_1_n_n.contr.Idx) :
    (dot_S256x384_S384x1_S256x1_1_0_0_1_n_n.lhsIdx i q 0).val = (i 0).val := by
  unfold DotDims.lhsIdx
  rw [dif_neg (show ¬(0 : Fin S256x384.rank) ∈ dot_S256x384_S384x1_S256x1_1_0_0_1_n_n.lhsBatch by decide), dif_pos (show (0 : Fin S256x384.rank) ∈ dot_S256x384_S384x1_S256x1_1_0_0_1_n_n.lhsNonContracting by decide)]
  rfl
/-- On its contracted axis the right operand's index is the contraction position. -/
theorem head_rhs_0 (i : S256x1.Idx) (q : dot_S256x384_S384x1_S256x1_1_0_0_1_n_n.contr.Idx) :
    (dot_S256x384_S384x1_S256x1_1_0_0_1_n_n.rhsIdx i q 0).val = (q ⟨0, by decide⟩).val :=
  dot_S256x384_S384x1_S256x1_1_0_0_1_n_n.rhsIdx_val_of_single rfl i q
/-- On its other axis the right operand's index is the result's column. -/
theorem head_rhs_1 (i : S256x1.Idx) (q : dot_S256x384_S384x1_S256x1_1_0_0_1_n_n.contr.Idx) :
    (dot_S256x384_S384x1_S256x1_1_0_0_1_n_n.rhsIdx i q 1).val = (i 1).val := by
  unfold DotDims.rhsIdx
  rw [dif_neg (show ¬(1 : Fin S384x1.rank) ∈ dot_S256x384_S384x1_S256x1_1_0_0_1_n_n.rhsBatch by decide), dif_pos (show (1 : Fin S384x1.rank) ∈ dot_S256x384_S384x1_S256x1_1_0_0_1_n_n.rhsNonContracting by decide)]
  rfl

/-- The projection's product onto zeros at row `r`: the sum over the 384 entries of the row times the weight column. -/
theorem head_matmul_apply (a : FVec Ideal S256x384 .f32) (b : FVec Ideal S384x1 .f32) (r : Fin 256) (c : Fin 1) :
    matmul dot_S256x384_S384x1_S256x1_1_0_0_1_n_n none a b (constant S256x1 .f32 0x00000000#32) (ix2 r c)
      = ∑ k : Fin 384, a (ix2 r k) * b (ix2 k c) := by
  simp only [matmul]
  rw [Ideal.matmul_constant_zero_apply, ← Equiv.sum_comp (contrEquiv1 dot_S256x384_S384x1_S256x1_1_0_0_1_n_n 384 rfl rfl).symm]
  refine Finset.sum_congr rfl fun k _ => ?_
  have hk := contrEquiv1_symm_val dot_S256x384_S384x1_S256x1_1_0_0_1_n_n 384 rfl rfl k
  have el : dot_S256x384_S384x1_S256x1_1_0_0_1_n_n.lhsIdx (ix2 r c) ((contrEquiv1 dot_S256x384_S384x1_S256x1_1_0_0_1_n_n 384 rfl rfl).symm k) = ix2 r k := funext fun x => Fin.ext (by
    match x with
    | ⟨0, _⟩ => exact head_lhs_0 _ _
    | ⟨1, _⟩ => exact (head_lhs_1 _ _).trans hk)
  have er : dot_S256x384_S384x1_S256x1_1_0_0_1_n_n.rhsIdx (ix2 r c) ((contrEquiv1 dot_S256x384_S384x1_S256x1_1_0_0_1_n_n 384 rfl rfl).symm k) = ix2 k c := funext fun x => Fin.ext (by
    match x with
    | ⟨0, _⟩ => exact (head_rhs_0 _ _).trans hk
    | ⟨1, _⟩ => exact head_rhs_1 _ _)
  rw [el, er]

/-- The neighbour sum's product (adjacency tile against the whole activations): on its contracted axis the left operand's index is the contraction position. -/
theorem agg_lhs_1 (i : S256x128.Idx) (q : dot_S256x8192_S8192x128_S256x128_1_0_0_1_n_n.contr.Idx) :
    (dot_S256x8192_S8192x128_S256x128_1_0_0_1_n_n.lhsIdx i q 1).val = (q ⟨0, by decide⟩).val :=
  dot_S256x8192_S8192x128_S256x128_1_0_0_1_n_n.lhsIdx_val_of_single rfl i q
/-- On its other axis the left operand's index is the result's row. -/
theorem agg_lhs_0 (i : S256x128.Idx) (q : dot_S256x8192_S8192x128_S256x128_1_0_0_1_n_n.contr.Idx) :
    (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
/-- On its contracted axis the right operand's index is the contraction position. -/
theorem agg_rhs_0 (i : S256x128.Idx) (q : dot_S256x8192_S8192x128_S256x128_1_0_0_1_n_n.contr.Idx) :
    (dot_S256x8192_S8192x128_S256x128_1_0_0_1_n_n.rhsIdx i q 0).val = (q ⟨0, by decide⟩).val :=
  dot_S256x8192_S8192x128_S256x128_1_0_0_1_n_n.rhsIdx_val_of_single rfl i q
/-- On its other axis the right operand's index is the result's column. -/
theorem agg_rhs_1 (i : S256x128.Idx) (q : dot_S256x8192_S8192x128_S256x128_1_0_0_1_n_n.contr.Idx) :
    (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

/-- The neighbour sum's product onto zeros at row `r`, feature `c`: the sum over the 8192 nodes of the adjacency weight times the node's feature. -/
theorem agg_matmul_apply (a : FVec Ideal S256x8192 .bf16) (b : FVec Ideal S8192x128 .bf16) (r : Fin 256) (c : Fin 128) :
    matmul dot_S256x8192_S8192x128_S256x128_1_0_0_1_n_n none a b (constant S256x128 .f32 0x00000000#32) (ix2 r c)
      = ∑ k : Fin 8192, a (ix2 r k) * b (ix2 k c) := by
  simp only [matmul]
  rw [Ideal.matmul_constant_zero_apply, ← Equiv.sum_comp (contrEquiv1 dot_S256x8192_S8192x128_S256x128_1_0_0_1_n_n 8192 rfl rfl).symm]
  refine Finset.sum_congr rfl fun k _ => ?_
  have hk := contrEquiv1_symm_val dot_S256x8192_S8192x128_S256x128_1_0_0_1_n_n 8192 rfl rfl k
  have el : dot_S256x8192_S8192x128_S256x128_1_0_0_1_n_n.lhsIdx (ix2 r c) ((contrEquiv1 dot_S256x8192_S8192x128_S256x128_1_0_0_1_n_n 8192 rfl rfl).symm k) = ix2 r k := funext fun x => Fin.ext (by
    match x with
    | ⟨0, _⟩ => exact agg_lhs_0 _ _
    | ⟨1, _⟩ => exact (agg_lhs_1 _ _).trans hk)
  have er : dot_S256x8192_S8192x128_S256x128_1_0_0_1_n_n.rhsIdx (ix2 r c) ((contrEquiv1 dot_S256x8192_S8192x128_S256x128_1_0_0_1_n_n 8192 rfl rfl).symm k) = ix2 k c := funext fun x => Fin.ext (by
    match x with
    | ⟨0, _⟩ => exact (agg_rhs_0 _ _).trans hk
    | ⟨1, _⟩ => exact agg_rhs_1 _ _)
  rw [el, er]

/-- The affine map's product (the 256 laid-out entries against the weights): on its contracted axis the left operand's index is the contraction position. -/
theorem lin_lhs_1 (i : S256x128.Idx) (q : dot_S256x256_S256x128_S256x128_1_0_0_1_n_n.contr.Idx) :
    (dot_S256x256_S256x128_S256x128_1_0_0_1_n_n.lhsIdx i q 1).val = (q ⟨0, by decide⟩).val :=
  dot_S256x256_S256x128_S256x128_1_0_0_1_n_n.lhsIdx_val_of_single rfl i q
/-- On its other axis the left operand's index is the result's row. -/
theorem lin_lhs_0 (i : S256x128.Idx) (q : dot_S256x256_S256x128_S256x128_1_0_0_1_n_n.contr.Idx) :
    (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
/-- On its contracted axis the right operand's index is the contraction position. -/
theorem lin_rhs_0 (i : S256x128.Idx) (q : dot_S256x256_S256x128_S256x128_1_0_0_1_n_n.contr.Idx) :
    (dot_S256x256_S256x128_S256x128_1_0_0_1_n_n.rhsIdx i q 0).val = (q ⟨0, by decide⟩).val :=
  dot_S256x256_S256x128_S256x128_1_0_0_1_n_n.rhsIdx_val_of_single rfl i q
/-- On its other axis the right operand's index is the result's column. -/
theorem lin_rhs_1 (i : S256x128.Idx) (q : dot_S256x256_S256x128_S256x128_1_0_0_1_n_n.contr.Idx) :
    (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

/-- The affine map's product onto zeros at row `r`, output feature `c`: the sum over the 256 entries of the row times the weights' column. -/
theorem lin_matmul_apply (a : FVec Ideal S256x256 .f32) (b : FVec Ideal S256x128 .f32) (r : Fin 256) (c : Fin 128) :
    matmul dot_S256x256_S256x128_S256x128_1_0_0_1_n_n none a b (constant S256x128 .f32 0x00000000#32) (ix2 r c)
      = ∑ k : Fin 256, a (ix2 r k) * b (ix2 k c) := by
  simp only [matmul]
  rw [Ideal.matmul_constant_zero_apply, ← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx (ix2 r c) ((contrEquiv1 dot_S256x256_S256x128_S256x128_1_0_0_1_n_n 256 rfl rfl).symm k) = ix2 r k := funext fun x => Fin.ext (by
    match x with
    | ⟨0, _⟩ => exact lin_lhs_0 _ _
    | ⟨1, _⟩ => exact (lin_lhs_1 _ _).trans hk)
  have er : dot_S256x256_S256x128_S256x128_1_0_0_1_n_n.rhsIdx (ix2 r c) ((contrEquiv1 dot_S256x256_S256x128_S256x128_1_0_0_1_n_n 256 rfl rfl).symm k) = ix2 k c := funext fun x => Fin.ext (by
    match x with
    | ⟨0, _⟩ => exact (lin_rhs_0 _ _).trans hk
    | ⟨1, _⟩ => exact lin_rhs_1 _ _)
  rw [el, er]

/-- The pooling product (both operands contracted along their rows): on its contracted axis the left operand's index is the contraction position. -/
theorem pool_lhs_0 (i : S256x384.Idx) (q : dot_S256x256_S256x384_S256x384_0_0_1_1_n_n.contr.Idx) :
    (dot_S256x256_S256x384_S256x384_0_0_1_1_n_n.lhsIdx i q 0).val = (q ⟨0, by decide⟩).val :=
  dot_S256x256_S256x384_S256x384_0_0_1_1_n_n.lhsIdx_val_of_single rfl i q
/-- On its other axis the left operand's index is the result's row. -/
theorem pool_lhs_1 (i : S256x384.Idx) (q : dot_S256x256_S256x384_S256x384_0_0_1_1_n_n.contr.Idx) :
    (dot_S256x256_S256x384_S256x384_0_0_1_1_n_n.lhsIdx i q 1).val = (i 0).val := by
  unfold DotDims.lhsIdx
  rw [dif_neg (show ¬(1 : Fin S256x256.rank) ∈ dot_S256x256_S256x384_S256x384_0_0_1_1_n_n.lhsBatch by decide), dif_pos (show (1 : Fin S256x256.rank) ∈ dot_S256x256_S256x384_S256x384_0_0_1_1_n_n.lhsNonContracting by decide)]
  rfl
/-- On its contracted axis the right operand's index is the contraction position. -/
theorem pool_rhs_0 (i : S256x384.Idx) (q : dot_S256x256_S256x384_S256x384_0_0_1_1_n_n.contr.Idx) :
    (dot_S256x256_S256x384_S256x384_0_0_1_1_n_n.rhsIdx i q 0).val = (q ⟨0, by decide⟩).val :=
  dot_S256x256_S256x384_S256x384_0_0_1_1_n_n.rhsIdx_val_of_single rfl i q
/-- On its other axis the right operand's index is the result's column. -/
theorem pool_rhs_1 (i : S256x384.Idx) (q : dot_S256x256_S256x384_S256x384_0_0_1_1_n_n.contr.Idx) :
    (dot_S256x256_S256x384_S256x384_0_0_1_1_n_n.rhsIdx i q 1).val = (i 1).val := by
  unfold DotDims.rhsIdx
  rw [dif_neg (show ¬(1 : Fin S256x384.rank) ∈ dot_S256x256_S256x384_S256x384_0_0_1_1_n_n.rhsBatch by decide), dif_pos (show (1 : Fin S256x384.rank) ∈ dot_S256x256_S256x384_S256x384_0_0_1_1_n_n.rhsNonContracting by decide)]
  rfl

/-- The pooling product onto zeros at graph `r`, entry `c`: the sum over the tile's 256 rows of the row's indicator for graph `r` times the row's entry `c` (both operands are read down their rows). -/
theorem pool_matmul_apply (a : FVec Ideal S256x256 .f32) (b : FVec Ideal S256x384 .f32) (r : Fin 256) (c : Fin 384) :
    matmul dot_S256x256_S256x384_S256x384_0_0_1_1_n_n none a b (constant S256x384 .f32 0x00000000#32) (ix2 r c)
      = ∑ k : Fin 256, a (ix2 k r) * b (ix2 k c) := by
  simp only [matmul]
  rw [Ideal.matmul_constant_zero_apply, ← Equiv.sum_comp (contrEquiv1 dot_S256x256_S256x384_S256x384_0_0_1_1_n_n 256 rfl rfl).symm]
  refine Finset.sum_congr rfl fun k _ => ?_
  have hk := contrEquiv1_symm_val dot_S256x256_S256x384_S256x384_0_0_1_1_n_n 256 rfl rfl k
  have el : dot_S256x256_S256x384_S256x384_0_0_1_1_n_n.lhsIdx (ix2 r c) ((contrEquiv1 dot_S256x256_S256x384_S256x384_0_0_1_1_n_n 256 rfl rfl).symm k) = ix2 k r := funext fun x => Fin.ext (by
    match x with
    | ⟨0, _⟩ => exact (pool_lhs_0 _ _).trans hk
    | ⟨1, _⟩ => exact pool_lhs_1 _ _)
  have er : dot_S256x256_S256x384_S256x384_0_0_1_1_n_n.rhsIdx (ix2 r c) ((contrEquiv1 dot_S256x256_S256x384_S256x384_0_0_1_1_n_n 256 rfl rfl).symm k) = ix2 k c := funext fun x => Fin.ext (by
    match x with
    | ⟨0, _⟩ => exact (pool_rhs_0 _ _).trans hk
    | ⟨1, _⟩ => exact pool_rhs_1 _ _)
  rw [el, er]

/-- Two 128-wide blocks joined along the columns, read at row `p`, column `k`: the row's two halves laid end to end. -/
theorem cat2_apply (a b : S256x128.Idx → EReal) (p : Fin 256) (k : Fin 256) :
    concatenate S256x256 1 [⟨S256x128, a⟩, ⟨S256x128, b⟩] concatenates_S256x128_S256x128_S256x256_d1 (ix2 p k)
      = Cert.Spec.cat2 (fun j => a (ix2 p j)) (fun j => b (ix2 p j)) k := by
  unfold Cert.Spec.cat2
  split
  · next h =>
    exact concatenate_pair_apply_left 1 a b _ (ix2 p k) rfl (ix2 p ⟨k.val, h⟩)
      (fun c => by match c with | ⟨0, _⟩ => rfl | ⟨1, _⟩ => rfl)
  · next h =>
    exact concatenate_pair_apply_right 1 a b _ (ix2 p k) rfl rfl (ix2 p ⟨k.val - 128, by have := k.isLt; omega⟩)
      (fun c hc => by match c with | ⟨0, _⟩ => rfl | ⟨1, _⟩ => exact absurd rfl hc)
      (by show (k.val - 128) + 128 = k.val; omega)

/-- Three 128-wide blocks joined along the columns, read at row `p`, column `f`: the row's three parts laid end to end
    (columns below 128 from the first, below 256 from the second, the rest from the third). -/
theorem cat3_apply (a b c : S256x128.Idx → EReal) (p : Fin 256) (f : Fin 384) :
    concatenate S256x384 1 [⟨S256x128, a⟩, ⟨S256x128, b⟩, ⟨S256x128, c⟩] concatenates_S256x128_S256x128_S256x128_S256x384_d1 (ix2 p f)
      = Cert.Spec.cat3 (fun j => a (ix2 p j)) (fun j => b (ix2 p j)) (fun j => c (ix2 p j)) f := by
  unfold Cert.Spec.cat3
  split
  · next h =>
    exact concatenate_apply_piece 1 _ _ (ix2 p f) 0 (by simp) S256x128 a rfl rfl 0 rfl (ix2 p ⟨f.val, h⟩)
      (fun d hd => by match d with | ⟨0, _⟩ => rfl | ⟨1, _⟩ => exact absurd rfl hd)
      (by show 0 + f.val = f.val; omega)
  · next h =>
    split
    · next h' =>
      exact concatenate_apply_piece 1 _ _ (ix2 p f) 1 (by simp) S256x128 b rfl rfl 128 rfl (ix2 p ⟨f.val - 128, by omega⟩)
        (fun d hd => by match d with | ⟨0, _⟩ => rfl | ⟨1, _⟩ => exact absurd rfl hd)
        (by show 128 + (f.val - 128) = f.val; omega)
    · next h' =>
      exact concatenate_apply_piece 1 _ _ (ix2 p f) 2 (by simp) S256x128 c rfl rfl 256 rfl (ix2 p ⟨f.val - 256, by have := f.isLt; omega⟩)
        (fun d hd => by match d with | ⟨0, _⟩ => rfl | ⟨1, _⟩ => exact absurd rfl hd)
        (by show 256 + (f.val - 256) = f.val; omega)

/-- The indicator matrix at row `p`, column `g`: the row's id word, copied along the row, is compared with the column
    number's 32-bit numeral; the one-bit answer widened to 32 bits and read as a signed integer is the extended real
    one when the id word is that numeral and zero otherwise. -/
theorem onehot_apply (x4 : Vec Ideal S256x1 .i32) (p g : Fin 256) :
    (sitofp .f32 (extui 32 (cmpi .eq (broadcastTo S256x256 x4 broadcasts_S256x1_S256x256)
        (iota .tc S256x256 32 [1] iota_S256x256_d1_w32)) natLt_1_32) : FVec Ideal S256x256 .f32) (ix2 p g)
      = if x4 (ix2 p 0) = BitVec.ofNat 32 g.val then 1 else 0 := by
  rw [sitofp_apply, extui_apply]
  show FloatOps.sitofp .f32 ((IntOp.cmpi .eq (broadcastTo S256x256 x4 broadcasts_S256x1_S256x256 (ix2 p g))
      (iota .tc S256x256 32 [1] iota_S256x256_d1_w32 (ix2 p g))).setWidth 32) = _
  rw [iota_single_apply, broadcastTo_apply x4 _ (ix2 p g) (ix2 p 0) (fun a => by match a with | ⟨0, _⟩ => rfl | ⟨1, _⟩ => rfl)]
  show (((((BitVec.ofBool (x4 (ix2 p 0) == BitVec.ofNat 32 g.val)).setWidth 32).toInt : ℝ)) : EReal) = _
  by_cases h : x4 (ix2 p 0) = BitVec.ofNat 32 g.val
  · have hb : (x4 (ix2 p 0) == BitVec.ofNat 32 g.val) = true := by rw [h]; exact beq_self_eq_true _
    have e1 : ((BitVec.ofBool true).setWidth 32).toInt = 1 := by decide
    rw [if_pos h, hb, e1]
    norm_num
  · have hb : (x4 (ix2 p 0) == BitVec.ofNat 32 g.val) = false := by
      rcases hx : (x4 (ix2 p 0) == BitVec.ofNat 32 g.val) with _ | _
      · rfl
      · exact absurd (eq_of_beq hx) h
    have e0 : ((BitVec.ofBool false).setWidth 32).toInt = 0 := by decide
    rw [if_neg h, hb, e0]
    norm_num

/-- The second layer before normalisation, less the running mean, at row `p`, feature `j`: the row's own activations and
    its neighbour sums laid end to end, mapped by the weights, shifted by the bias, rectified; the running mean taken off. -/
theorem pay6_apply (x0 : Vec Ideal S256x8192 .f32) (x1 : Vec Ideal S8192x128 .f32) (x2 x5 : Vec Ideal S256x128 .f32)
    (x6 x9 : Vec Ideal S1x128 .f32) (p : Fin 256) (j : Fin 128) :
    k1_pay6 (F := Ideal) x0 x1 x2 x5 x6 x9 (ix2 p j)
      = max ((∑ k : Fin 256, Cert.Spec.cat2 (fun k => x2 (ix2 p k)) (fun k => ∑ l : Fin 8192, x0 (ix2 p l) * x1 (ix2 l k)) k * x5 (ix2 k j))
          + x6 (ix2 0 j)) 0 - x9 (ix2 0 j) := by
  unfold k1_pay6
  simp only [shapeCast_self]
  rw [subf_apply, maximumf_apply, addf_apply, broadcast_apply, lin_matmul_apply, broadcastTo_1b_ab_apply, broadcastTo_1b_ab_apply,
    Ideal.ofBits_def, Ideal.ofBits_zero_f32]
  simp only [cat2_apply, agg_matmul_apply, truncf_apply, shapeCast_self]

/-- The normalisation's factor at any row, feature `j`: the reciprocal square root of the running variance plus ε. -/
theorem pay7_apply (x10 : Vec Ideal S1x128 .f32) (p : Fin 256) (j : Fin 128) :
    k1_pay7 (F := Ideal) x10 (ix2 p j) = Ideal.rsqrt (x10 (ix2 0 j) + Cert.Spec.eps) := by
  unfold k1_pay7
  simp only [shapeCast_self]
  rw [broadcastTo_1b_ab_apply]
  rfl

/-- The scale row is the row it was read as. -/
theorem pay4_eq (x7 : Vec Ideal S1x128 .f32) : k1_pay4 (F := Ideal) x7 = x7 := by
  unfold k1_pay4
  exact shapeCast_self _ _

/-- The shift row is the row it was read as. -/
theorem pay5_eq (x8 : Vec Ideal S1x128 .f32) : k1_pay5 (F := Ideal) x8 = x8 := by
  unfold k1_pay5
  exact shapeCast_self _ _

/-- The centred value times the normalisation's factor, times the scale, plus the shift, at row `p`, feature `j`, is the
    second layer's value there. -/
theorem layer2_apply (x0 : Vec Ideal S256x8192 .f32) (x1 : Vec Ideal S8192x128 .f32) (x2 x5 : Vec Ideal S256x128 .f32)
    (x6 x7 x8 x9 x10 : Vec Ideal S1x128 .f32) (p : Fin 256) (j : Fin 128) :
    (addf (mulf (mulf (k1_pay6 (F := Ideal) x0 x1 x2 x5 x6 x9) (k1_pay7 x10))
        (broadcastTo S256x128 (k1_pay4 x7) broadcasts_S1x128_S256x128))
      (broadcastTo S256x128 (k1_pay5 x8) broadcasts_S1x128_S256x128)) (ix2 p j)
      = tileLayer2 x0 x1 x2 x5 x6 x7 x8 x9 x10 p j := by
  rw [addf_apply, mulf_apply, mulf_apply, pay6_apply, pay7_apply, broadcastTo_1b_ab_apply, broadcastTo_1b_ab_apply, pay4_eq, pay5_eq]
  rfl

end Step1

/-- The zeroed scratch is zero everywhere. -/
theorem sReset1_apply (i : S256x384.Idx) : (sReset1 (F := Ideal)) i = 0 := by
  unfold sReset1
  rw [View.canon_unit_zero Step1.zeroOff2]
  unfold k1_pay3
  rw [shapeCast_self]
  exact Ideal.ofBits_zero_f32

/-- One point's update of the scratch at graph `g`, entry `f`: what it held plus the tile's rows of that graph. -/
theorem sStep1_apply (x0 : Vec Ideal S256x8192 .f32) (x1 : Vec Ideal S8192x128 .f32) (x2 x3 : Vec Ideal S256x128 .f32)
    (x4 : Vec Ideal S256x1 .i32) (x5 : Vec Ideal S256x128 .f32) (x6 x7 x8 x9 x10 : Vec Ideal S1x128 .f32)
    (prev : Vec Ideal S256x384 .f32) (g : Fin 256) (f : Fin 384) :
    sStep1 (F := Ideal) x0 x1 x2 x3 x4 x5 x6 x7 x8 x9 x10 prev (ix2 g f)
      = prev (ix2 g f) + ∑ p : Fin 256,
          if x4 (ix2 p 0) = BitVec.ofNat 32 g.val
          then Cert.Spec.cat3 (fun k => x3 (ix2 p k)) (fun k => x2 (ix2 p k)) (tileLayer2 x0 x1 x2 x5 x6 x7 x8 x9 x10 p) f
          else 0 := by
  unfold sStep1
  rw [View.canon_unit_zero Step1.zeroOff2]
  simp only [View.ld_unit_zero (S := S256x8192) Step1.zeroOff2, View.ld_unit_zero (S := S8192x128) Step1.zeroOff2,
    View.ld_unit_zero (S := S256x128) Step1.zeroOff2, View.ld_unit_zero (S := S1x128) Step1.zeroOff2,
    View.ld_unit_zero (S := S256x1) Step1.zeroOff2, View.ld_unit_zero (S := S256x384) Step1.zeroOff2]
  unfold k1_pay1
  simp only [shapeCast_self]
  rw [addf_apply, Step1.pool_matmul_apply]
  refine congrArg (prev (ix2 g f) + ·) (Finset.sum_congr rfl fun p _ => ?_)
  rw [Step1.onehot_apply, Step1.cat3_apply]
  simp only [shapeCast_self, Step1.layer2_apply]
  by_cases h : x4 (ix2 p 0) = BitVec.ofNat 32 g.val
  · rw [if_pos h, if_pos h, one_mul]
  · rw [if_neg h, if_neg h, zero_mul]

/-- The last point's store at graph `g`: the scratch's row projected, shifted and rectified. -/
theorem out1_13_apply (s : Vec Ideal S256x384 .f32) (x11 : Vec Ideal S384x1 .f32) (x12 : Vec Ideal S1x1 .f32) (g : Fin 256) :
    out1_13 (F := Ideal) s x11 x12 (ix2 g 0)
      = Cert.Spec.head (fun a b => s (ix2 a b)) (fun k => x11 (ix2 k 0)) (x12 (ix2 0 0)) g := by
  unfold out1_13
  rw [View.canon_unit_zero Step1.zeroOff2]
  simp only [View.ld_unit_zero (S := S256x384) Step1.zeroOff2, View.ld_unit_zero (S := S384x1) Step1.zeroOff2,
    View.ld_unit_zero (S := S1x1) Step1.zeroOff2]
  unfold k1_pay2
  rw [maximumf_apply, addf_apply, broadcast_apply, Step1.head_matmul_apply, shapeCast_self, broadcastTo_1b_ab_apply,
    Ideal.ofBits_def, Ideal.ofBits_zero_f32]
  rfl

end Cert.KernelIdeal.Hand

end
-- ==== Proof.KernelIdeal.Value1.lean ====
/-
  What region 1 leaves in its output array, over the extended reals, for any contents the region is entered with.

  The region walks the 8192 nodes in 32 tiles of 256 rows. A window that moves with the grid shows the body, at
  point t, rows 256 t … 256 t + 255 of its array (a block element sits at block index × block size + its coordinate
  inside the block); every other window shows its whole array at every point. Read through the windows, the
  second-layer value the body computes for row p of tile t is the specification's layer at node 256 t + p, and what
  the body adds to the scratch at graph g, entry f is the sum, over the tile's rows whose id word is g, of the
  node's readout entry f.

  The scratch is zero when point 0 starts adding and every point adds its own tile's amount, so by induction on the
  point the scratch after point n is the sum over the tiles 0 … n (addition's associativity and its zero are all
  that is used: no value has to be finite). Thirty-two runs of 256 consecutive rows are exactly the 8192 nodes, so
  after the last point the scratch is the specification's pooled readout. The output window's one block is the whole
  256 × 1 array; it is written back once, at the last point, holding the rectified projection of that scratch, which
  is the specification's head.
-/
import proofs.«420502_j10273561772114_1_alg».proof.Proof.KernelIdeal.Data
import proofs.«420502_j10273561772114_1_alg».proof.Proof.Spec
import proofs.«420502_j10273561772114_1_alg».proof.Proof.KernelIdeal.Step1
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Algebra.BigOperators.Group.Finset.Basic

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Value1

/-! ## The index maps -/

/-- The windows' index maps over the grid: a window that moves with the grid has the point as its block index on the
    row axis and zero on the other; every other input window has zero on both. -/
theorem idx1_facts : ∀ t : Fin cfg1.N,
    (win1_0.index t (0 : Fin 2) = t.val ∧ win1_0.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_1.index t (0 : Fin 2) = 0 ∧ win1_1.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0) :=
  (by decide +kernel : ∀ t : Fin grid1.N, _)

theorem row_lt (t : Fin cfg1.N) (p : Fin 256) : 256 * t.val + p.val < 8192 := by
  have hN : cfg1.N = 32 := N_1
  have := t.isLt; have := p.isLt; omega

/-- Row `p` of tile `t` is node `256 t + p`. -/
def row (t : Fin cfg1.N) (p : Fin 256) : Fin 8192 := ⟨256 * t.val + p.val, row_lt t p⟩

/-! ## Each input block, read where its window says -/

/-- The adjacency tile at point `t`: rows `256 t … 256 t + 255` of the matrix, every column. -/
theorem iblk1_0_apply (c : Dev nD) (t : Fin cfg1.N) (p : Fin 256) (k : Fin 8192) :
    (iblk1 (F := Ideal) V c 0 t : S256x8192.Idx → EReal) (ix2 p k)
      = (V c main_arg0 : S8192x8192.Idx → EReal) (ix2 (row t p) k) := by
  obtain ⟨⟨h0, h1⟩, -⟩ := idx1_facts t
  unfold iblk1
  rw [View.read_apply]
  show V c main_arg0 _ = V c main_arg0 _
  congr 1
  funext a
  apply Fin.ext
  match a with
  | ⟨0, _⟩ => show win1_0.index t 0 * 256 + 1 * p.val = 256 * t.val + p.val; rw [h0]; omega
  | ⟨1, _⟩ => show win1_0.index t 1 * 8192 + 1 * k.val = k.val; rw [h1]; omega

/-- The first layer's activations by tile: the same rows of that array. -/
theorem iblk1_2_apply (c : Dev nD) (t : Fin cfg1.N) (p : Fin 256) (k : Fin 128) :
    (iblk1 (F := Ideal) V c 2 t : S256x128.Idx → EReal) (ix2 p k)
      = (V c main_v5 : S8192x128.Idx → EReal) (ix2 (row t p) k) := by
  obtain ⟨-, ⟨h0, h1⟩, -⟩ := idx1_facts t
  unfold iblk1
  rw [View.read_apply]
  show V c main_v5 _ = V c main_v5 _
  congr 1
  funext a
  apply Fin.ext
  match a with
  | ⟨0, _⟩ => show win1_2.index t 0 * 256 + 1 * p.val = 256 * t.val + p.val; rw [h0]; omega
  | ⟨1, _⟩ => show win1_2.index t 1 * 128 + 1 * k.val = k.val; rw [h1]; omega

/-- The features' tile: the same rows of the feature matrix. -/
theorem iblk1_3_apply (c : Dev nD) (t : Fin cfg1.N) (p : Fin 256) (k : Fin 128) :
    (iblk1 (F := Ideal) V c 3 t : S256x128.Idx → EReal) (ix2 p k)
      = (V c main_arg1 : S8192x128.Idx → EReal) (ix2 (row t p) k) := by
  obtain ⟨-, -, ⟨h0, h1⟩, -⟩ := idx1_facts t
  unfold iblk1
  rw [View.read_apply]
  show V c main_arg1 _ = V c main_arg1 _
  congr 1
  funext a
  apply Fin.ext
  match a with
  | ⟨0, _⟩ => show win1_3.index t 0 * 256 + 1 * p.val = 256 * t.val + p.val; rw [h0]; omega
  | ⟨1, _⟩ => show win1_3.index t 1 * 128 + 1 * k.val = k.val; rw [h1]; omega

/-- The graph ids' tile: the same rows of the id column. -/
theorem iblk1_4_apply (c : Dev nD) (t : Fin cfg1.N) (p : Fin 256) (k : Fin 1) :
    (iblk1 (F := Ideal) V c 4 t : S256x1.Idx → BitVec 32) (ix2 p k)
      = (V c main_v12 : S8192x1.Idx → BitVec 32) (ix2 (row t p) k) := by
  obtain ⟨-, -, -, ⟨h0, h1⟩, -⟩ := idx1_facts t
  unfold iblk1
  rw [View.read_apply]
  show V c main_v12 _ = V c main_v12 _
  congr 1
  funext a
  apply Fin.ext
  match a with
  | ⟨0, _⟩ => show win1_4.index t 0 * 256 + 1 * p.val = 256 * t.val + p.val; rw [h0]; omega
  | ⟨1, _⟩ => show win1_4.index t 1 * 1 + 1 * k.val = k.val; rw [h1]; omega

/-- The first layer's activations whole: the array itself. -/
theorem iblk1_1_apply (c : Dev nD) (t : Fin cfg1.N) (a : Fin 8192) (b : Fin 128) :
    (iblk1 (F := Ideal) V c 1 t : S8192x128.Idx → EReal) (ix2 a b)
      = (V c main_v5 : S8192x128.Idx → EReal) (ix2 a b) := by
  obtain ⟨-, -, -, -, ⟨h0, h1⟩, -⟩ := idx1_facts t
  unfold iblk1
  rw [View.read_apply]
  show V c main_v5 _ = V c main_v5 _
  congr 1
  funext d
  apply Fin.ext
  match d with
  | ⟨0, _⟩ => show win1_1.index t 0 * 8192 + 1 * a.val = a.val; rw [h0]; omega
  | ⟨1, _⟩ => show win1_1.index t 1 * 128 + 1 * b.val = b.val; rw [h1]; omega

/-- The second layer's weights: the array itself. -/
theorem iblk1_5_apply (c : Dev nD) (t : Fin cfg1.N) (a : Fin 256) (b : Fin 128) :
    (iblk1 (F := Ideal) V c 5 t : S256x128.Idx → EReal) (ix2 a b)
      = (V c main_arg4 : S256x128.Idx → EReal) (ix2 a b) := by
  obtain ⟨-, -, -, -, -, ⟨h0, h1⟩, -⟩ := idx1_facts t
  unfold iblk1
  rw [View.read_apply]
  show V c main_arg4 _ = V c main_arg4 _
  congr 1
  funext d
  apply Fin.ext
  match d with
  | ⟨0, _⟩ => show win1_5.index t 0 * 256 + 1 * a.val = a.val; rw [h0]; omega
  | ⟨1, _⟩ => show win1_5.index t 1 * 128 + 1 * b.val = b.val; rw [h1]; omega
/-- The second layer's five row vectors: each its array. -/
theorem iblk1_6_apply (c : Dev nD) (t : Fin cfg1.N) (a : Fin 1) (b : Fin 128) :
    (iblk1 (F := Ideal) V c 6 t : S1x128.Idx → EReal) (ix2 a b)
      = (V c main_v6 : S1x128.Idx → EReal) (ix2 a b) := by
  obtain ⟨-, -, -, -, -, -, ⟨h0, h1⟩, -⟩ := idx1_facts t
  unfold iblk1
  rw [View.read_apply]
  show V c main_v6 _ = V c main_v6 _
  congr 1
  funext d
  apply Fin.ext
  match d with
  | ⟨0, _⟩ => show win1_6.index t 0 * 1 + 1 * a.val = a.val; rw [h0]; omega
  | ⟨1, _⟩ => show win1_6.index t 1 * 128 + 1 * b.val = b.val; rw [h1]; omega

theorem iblk1_7_apply (c : Dev nD) (t : Fin cfg1.N) (a : Fin 1) (b : Fin 128) :
    (iblk1 (F := Ideal) V c 7 t : S1x128.Idx → EReal) (ix2 a b)
      = (V c main_v7 : S1x128.Idx → EReal) (ix2 a b) := by
  obtain ⟨-, -, -, -, -, -, -, ⟨h0, h1⟩, -⟩ := idx1_facts t
  unfold iblk1
  rw [View.read_apply]
  show V c main_v7 _ = V c main_v7 _
  congr 1
  funext d
  apply Fin.ext
  match d with
  | ⟨0, _⟩ => show win1_7.index t 0 * 1 + 1 * a.val = a.val; rw [h0]; omega
  | ⟨1, _⟩ => show win1_7.index t 1 * 128 + 1 * b.val = b.val; rw [h1]; omega

theorem iblk1_8_apply (c : Dev nD) (t : Fin cfg1.N) (a : Fin 1) (b : Fin 128) :
    (iblk1 (F := Ideal) V c 8 t : S1x128.Idx → EReal) (ix2 a b)
      = (V c main_v8 : S1x128.Idx → EReal) (ix2 a b) := by
  obtain ⟨-, -, -, -, -, -, -, -, ⟨h0, h1⟩, -⟩ := idx1_facts t
  unfold iblk1
  rw [View.read_apply]
  show V c main_v8 _ = V c main_v8 _
  congr 1
  funext d
  apply Fin.ext
  match d with
  | ⟨0, _⟩ => show win1_8.index t 0 * 1 + 1 * a.val = a.val; rw [h0]; omega
  | ⟨1, _⟩ => show win1_8.index t 1 * 128 + 1 * b.val = b.val; rw [h1]; omega

theorem iblk1_9_apply (c : Dev nD) (t : Fin cfg1.N) (a : Fin 1) (b : Fin 128) :
    (iblk1 (F := Ideal) V c 9 t : S1x128.Idx → EReal) (ix2 a b)
      = (V c main_v9 : S1x128.Idx → EReal) (ix2 a b) := by
  obtain ⟨-, -, -, -, -, -, -, -, -, ⟨h0, h1⟩, -⟩ := idx1_facts t
  unfold iblk1
  rw [View.read_apply]
  show V c main_v9 _ = V c main_v9 _
  congr 1
  funext d
  apply Fin.ext
  match d with
  | ⟨0, _⟩ => show win1_9.index t 0 * 1 + 1 * a.val = a.val; rw [h0]; omega
  | ⟨1, _⟩ => show win1_9.index t 1 * 128 + 1 * b.val = b.val; rw [h1]; omega

theorem iblk1_10_apply (c : Dev nD) (t : Fin cfg1.N) (a : Fin 1) (b : Fin 128) :
    (iblk1 (F := Ideal) V c 10 t : S1x128.Idx → EReal) (ix2 a b)
      = (V c main_v10 : S1x128.Idx → EReal) (ix2 a b) := by
  obtain ⟨-, -, -, -, -, -, -, -, -, -, ⟨h0, h1⟩, -⟩ := idx1_facts t
  unfold iblk1
  rw [View.read_apply]
  show V c main_v10 _ = V c main_v10 _
  congr 1
  funext d
  apply Fin.ext
  match d with
  | ⟨0, _⟩ => show win1_10.index t 0 * 1 + 1 * a.val = a.val; rw [h0]; omega
  | ⟨1, _⟩ => show win1_10.index t 1 * 128 + 1 * b.val = b.val; rw [h1]; omega

/-- The last layer's weight column: the array itself. -/
theorem iblk1_11_apply (c : Dev nD) (t : Fin cfg1.N) (a : Fin 384) (b : Fin 1) :
    (iblk1 (F := Ideal) V c 11 t : S384x1.Idx → EReal) (ix2 a b)
      = (V c main_arg6 : S384x1.Idx → EReal) (ix2 a b) := by
  obtain ⟨-, -, -, -, -, -, -, -, -, -, -, ⟨h0, h1⟩, -⟩ := idx1_facts t
  unfold iblk1
  rw [View.read_apply]
  show V c main_arg6 _ = V c main_arg6 _
  congr 1
  funext d
  apply Fin.ext
  match d with
  | ⟨0, _⟩ => show win1_11.index t 0 * 384 + 1 * a.val = a.val; rw [h0]; omega
  | ⟨1, _⟩ => show win1_11.index t 1 * 1 + 1 * b.val = b.val; rw [h1]; omega

/-- The last layer's bias: the array itself. -/
theorem iblk1_12_apply (c : Dev nD) (t : Fin cfg1.N) (a : Fin 1) (b : Fin 1) :
    (iblk1 (F := Ideal) V c 12 t : S1x1.Idx → EReal) (ix2 a b)
      = (V c main_v11 : S1x1.Idx → EReal) (ix2 a b) := by
  obtain ⟨-, -, -, -, -, -, -, -, -, -, -, -, h0, h1⟩ := idx1_facts t
  unfold iblk1
  rw [View.read_apply]
  show V c main_v11 _ = V c main_v11 _
  congr 1
  funext d
  apply Fin.ext
  match d with
  | ⟨0, _⟩ => show win1_12.index t 0 * 1 + 1 * a.val = a.val; rw [h0]; omega
  | ⟨1, _⟩ => show win1_12.index t 1 * 1 + 1 * b.val = b.val; rw [h1]; omega

/-! ## The arrays as functions of coordinates -/

/-- The adjacency matrix. -/
abbrev adjA (c : Dev nD) : Fin 8192 → Fin 8192 → EReal := fun a b => (V c main_arg0 : S8192x8192.Idx → EReal) (ix2 a b)
/-- The feature matrix. -/
abbrev featA (c : Dev nD) : Fin 8192 → Fin 128 → EReal := fun a b => (V c main_arg1 : S8192x128.Idx → EReal) (ix2 a b)
/-- The first layer's activations. -/
abbrev act1A (c : Dev nD) : Fin 8192 → Fin 128 → EReal := fun a b => (V c main_v5 : S8192x128.Idx → EReal) (ix2 a b)
/-- The graph id words. -/
abbrev idsA (c : Dev nD) : Fin 8192 → BitVec 32 := fun r => (V c main_v12 : S8192x1.Idx → BitVec 32) (ix2 r 0)
/-- The second layer's activations, as the specification computes them. -/
abbrev act2A (c : Dev nD) : Fin 8192 → Fin 128 → EReal :=
  Cert.Spec.layer (adjA V c) (act1A V c) (fun a b => (V c main_arg4 : S256x128.Idx → EReal) (ix2 a b))
    (fun k => (V c main_v6 : S1x128.Idx → EReal) (ix2 0 k))
    (fun k => (V c main_v7 : S1x128.Idx → EReal) (ix2 0 k))
    (fun k => (V c main_v8 : S1x128.Idx → EReal) (ix2 0 k))
    (fun k => (V c main_v9 : S1x128.Idx → EReal) (ix2 0 k))
    (fun k => (V c main_v10 : S1x128.Idx → EReal) (ix2 0 k))
/-- A node's 384 readout entries. -/
abbrev readA (c : Dev nD) : Fin 8192 → Fin 384 → EReal := Cert.Spec.readout (featA V c) (act1A V c) (act2A V c)

/-! ## One tile's contribution -/

/-- The tile's second-layer value at row `p` is the specification's layer at node `256 t + p`: the same sums,
    each block entry read at its array. -/
theorem tileLayer2_eq (c : Dev nD) (t : Fin cfg1.N) (p : Fin 256) (j : Fin 128) :
    tileLayer2 (iblk1 V c 0 t) (iblk1 V c 1 t) (iblk1 V c 2 t) (iblk1 V c 5 t) (iblk1 V c 6 t) (iblk1 V c 7 t)
        (iblk1 V c 8 t) (iblk1 V c 9 t) (iblk1 V c 10 t) p j
      = act2A V c (row t p) j := by
  unfold tileLayer2
  simp only [iblk1_0_apply, iblk1_1_apply, iblk1_2_apply, iblk1_5_apply, iblk1_6_apply, iblk1_7_apply, iblk1_8_apply,
    iblk1_9_apply, iblk1_10_apply]
  rfl

/-- Node `r`'s term in graph `g`'s entry `f`: its readout entry if its id word is `g`, else nothing. -/
abbrev nodeTerm (c : Dev nD) (g : Fin 256) (f : Fin 384) (r : Fin 8192) : EReal :=
  if idsA V c r = BitVec.ofNat 32 g.val then readA V c r f else 0

/-- One point's update at graph `g`, entry `f`: what the scratch held plus the terms of the tile's 256 nodes. -/
theorem sStepAt1_apply (c : Dev nD) (t : Fin cfg1.N) (prev : Vec Ideal S256x384 .f32) (g : Fin 256) (f : Fin 384) :
    sStepAt1 (F := Ideal) V c t prev (ix2 g f) = prev (ix2 g f) + ∑ p : Fin 256, nodeTerm V c g f (row t p) := by
  unfold sStepAt1
  refine (sStep1_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) prev g f).trans ?_
  congr 1
  refine Finset.sum_congr rfl fun p _ => ?_
  have e3 : (fun k => (iblk1 (F := Ideal) V c 3 t : S256x128.Idx → EReal) (ix2 p k)) = featA V c (row t p) :=
    funext fun k => iblk1_3_apply V c t p k
  have e2 : (fun k => (iblk1 (F := Ideal) V c 2 t : S256x128.Idx → EReal) (ix2 p k)) = act1A V c (row t p) :=
    funext fun k => iblk1_2_apply V c t p k
  have eL : tileLayer2 (iblk1 V c 0 t) (iblk1 V c 1 t) (iblk1 V c 2 t) (iblk1 V c 5 t) (iblk1 V c 6 t) (iblk1 V c 7 t)
      (iblk1 V c 8 t) (iblk1 V c 9 t) (iblk1 V c 10 t) p = act2A V c (row t p) :=
    funext fun j => tileLayer2_eq V c t p j
  rw [iblk1_4_apply, e3, e2, eL]
  rfl

/-! ## The scratch after each point -/

/-- A node's term by its number, nothing past the last node. -/
def nodeTermN (c : Dev nD) (g : Fin 256) (f : Fin 384) (r : ℕ) : EReal :=
  if h : r < 8192 then nodeTerm V c g f ⟨r, h⟩ else 0

theorem nodeTerm_row (c : Dev nD) (g : Fin 256) (f : Fin 384) (t : Fin cfg1.N) (p : Fin 256) :
    nodeTerm V c g f (row t p) = nodeTermN V c g f (256 * t.val + p.val) := by
  unfold nodeTermN
  rw [dif_pos (row_lt t p)]
  rfl

/-- After point `n` the scratch holds, at graph `g` and entry `f`, the terms of the tiles `0 … n` (addition over the
    extended reals is associative and zero is its unit: nothing else is used). -/
theorem sAfter1_apply (c : Dev nD) (g : Fin 256) (f : Fin 384) : ∀ n : ℕ, n < 32 →
    sAfter1 (F := Ideal) V c n (ix2 g f)
      = ∑ t ∈ Finset.range (n + 1), ∑ p : Fin 256, nodeTermN V c g f (256 * t + p.val)
  | 0, _ => by
    rw [sAfter1_zero, sStepAt1_apply, sReset1_apply, zero_add, Finset.sum_range_one]
    exact Finset.sum_congr rfl fun p _ => nodeTerm_row V c g f _ p
  | n + 1, h => by
    have hN : cfg1.N = 32 := N_1
    rw [sAfter1_succ V c n (by omega), sStepAt1_apply, sAfter1_apply c g f n (by omega), Finset.sum_range_succ _ (n + 1)]
    congr 1
    exact Finset.sum_congr rfl fun p _ => nodeTerm_row V c g f _ p

/-! ## The tiles' rows are the nodes -/

/-- Summing 256 consecutive numbers' values tile by tile is summing over all the numbers below `256 n`. -/
theorem sum_tiles {M : Type*} [AddCommMonoid M] (h : ℕ → M) (n : ℕ) :
    ∑ t ∈ Finset.range n, ∑ p : Fin 256, h (256 * t + p.val) = ∑ r ∈ Finset.range (256 * n), h r := by
  induction n with
  | zero => simp
  | succ n ih =>
    rw [Finset.sum_range_succ, ih, Nat.mul_succ, Finset.sum_range_add, Fin.sum_univ_eq_sum_range (fun p => h (256 * n + p)) 256]

/-- After the last point the scratch is the pooled readout. -/
theorem sAfter1_last (c : Dev nD) (g : Fin 256) (f : Fin 384) :
    sAfter1 (F := Ideal) V c 31 (ix2 g f) = Cert.Spec.pooled (idsA V c) (readA V c) g f := by
  rw [sAfter1_apply V c g f 31 (by omega), sum_tiles]
  unfold Cert.Spec.pooled
  rw [show 256 * (31 + 1) = 8192 from rfl, ← Fin.sum_univ_eq_sum_range]
  refine Finset.sum_congr rfl fun r _ => ?_
  unfold nodeTermN
  exact dif_pos r.isLt

/-! ## The write-back -/

/-- The last point. -/
abbrev t31 : Fin cfg1.N := ⟨31, by decide⟩

/-- The one write-back, at the last point, writes the block the body stored there: block (0, 0) of the 256 × 1 array
    read through zero offsets is the array. -/
theorem flushed1_eq (c : Dev nD) (t : Fin cfg1.N) (hf : (cfg1.win 13).flush t = true) :
    (dat1 (F := Ideal) V c).flushed 13 t = ((cfg1.win 13).blk t).view.read (Elt Ideal) (oblk1 V c t31) := by
  have hN : cfg1.N = 32 := N_1
  have h31 : t.val = 31 := by have := (flush1_13 t).mp hf; have := t.isLt; omega
  obtain rfl : t = t31 := Fin.ext h31
  show (cfg1.win 13).cut (grid1.coords t31) ((dat1 V c).after 13 t31) = _
  rw [after1_13]
  have hz' : (fun a => win1_13.index t31 a * main_v13.ty.shape.size a) = fun _ => 0 := funext fun a => by fin_cases a <;> decide
  exact (Memref.read_access_unit_zero (Elt Ideal) main_v13 hz' (fun a => by rw [congrFun hz' a]; simp) (oblk1 V c t31)).symm

/-- So the output array ends holding that block (the last point's block covers it). -/
theorem final1 (c : Dev nD) : (dat1 (F := Ideal) V c).arrAt 13 cfg1.N = oblk1 V c t31 :=
  (dat1 V c).arrAt_eq_of_cover 13 (oblk1 V c t31) (flushed1_eq V c) fun i =>
    ⟨t31, (flush1_13 t31).mpr rfl, by
      show i ∈ ((View.whole main_v13).slice (win1_13.rect t31)).set
      rw [View.set_slice_whole, Rect.mem_set_unit]
      intro a
      have h0 : (i 0 : Nat) < 256 := (i 0).isLt
      have h1 : (i 1 : Nat) < 1 := (i 1).isLt
      match a with
      | ⟨0, _⟩ => show win1_13.index t31 0 * win1_13.size 0 ≤ (i 0 : Nat) ∧ (i 0 : Nat) < win1_13.index t31 0 * win1_13.size 0 + win1_13.xsize (grid1.coords t31) 0
                  rw [show win1_13.index t31 0 * win1_13.size 0 = 0 from by decide +kernel, show win1_13.xsize (grid1.coords t31) 0 = 256 from by decide +kernel]; omega
      | ⟨1, _⟩ => show win1_13.index t31 1 * win1_13.size 1 ≤ (i 1 : Nat) ∧ (i 1 : Nat) < win1_13.index t31 1 * win1_13.size 1 + win1_13.xsize (grid1.coords t31) 1
                  rw [show win1_13.index t31 1 * win1_13.size 1 = 0 from by decide +kernel, show win1_13.xsize (grid1.coords t31) 1 = 1 from by decide +kernel]; omega⟩

end Value1

open Value1

/-- Region 1's output array after its last point, entry by entry: the specification's head of the pooled readout
    of the arrays the region was entered with (the adjacency matrix, the first layer's activations, the
    features, the graph ids as a column, the second layer's weights and row vectors, the last layer's). -/
theorem out_value (c : Dev nD) (g : Fin 256) :
    ((dat1 (F := Ideal) V c).arrAt 13 cfg1.N : S256x1.Idx → EReal) (ix2 g 0)
      = Cert.Spec.head
          (Cert.Spec.pooled (fun r => (V c main_v12 : S8192x1.Idx → BitVec 32) (ix2 r 0))
            (Cert.Spec.readout (fun a b => (V c main_arg1 : S8192x128.Idx → EReal) (ix2 a b))
              (fun a b => (V c main_v5 : S8192x128.Idx → EReal) (ix2 a b))
              (Cert.Spec.layer (fun a b => (V c main_arg0 : S8192x8192.Idx → EReal) (ix2 a b))
                (fun a b => (V c main_v5 : S8192x128.Idx → EReal) (ix2 a b))
                (fun a b => (V c main_arg4 : S256x128.Idx → EReal) (ix2 a b))
                (fun k => (V c main_v6 : S1x128.Idx → EReal) (ix2 0 k))
                (fun k => (V c main_v7 : S1x128.Idx → EReal) (ix2 0 k))
                (fun k => (V c main_v8 : S1x128.Idx → EReal) (ix2 0 k))
                (fun k => (V c main_v9 : S1x128.Idx → EReal) (ix2 0 k))
                (fun k => (V c main_v10 : S1x128.Idx → EReal) (ix2 0 k)))))
          (fun f => (V c main_arg6 : S384x1.Idx → EReal) (ix2 f 0))
          ((V c main_v11 : S1x1.Idx → EReal) (ix2 0 0)) g := by
  refine (congrFun (final1 V c) (ix2 g 0)).trans ?_
  unfold oblk1
  refine (out1_13_apply _ _ _ g).trans ?_
  have e1 : (fun a b => (sAfter1 (F := Ideal) V c t31.val : S256x384.Idx → EReal) (ix2 a b))
      = Cert.Spec.pooled (idsA V c) (readA V c) :=
    funext fun a => funext fun b => sAfter1_last V c a b
  have e2 : (fun k => (iblk1 (F := Ideal) V c 11 t31 : S384x1.Idx → EReal) (ix2 k 0))
      = fun f => (V c main_arg6 : S384x1.Idx → EReal) (ix2 f 0) :=
    funext fun k => iblk1_11_apply V c t31 k 0
  rw [e1, e2, iblk1_12_apply]

end Cert.KernelIdeal.Hand

end
-- ==== Proof.KernelIdeal.Entry.lean ====
/-
  What the two kernel regions are entered with, in terms of the launch memory: no host operation before a region
  writes an argument array, and each row vector the kernel takes as a 1 × 128 (1 × 1, 8192 × 1) array is the host's
  reshape of a rank-1 argument, so its entry (0, k) (its entry (r, 0)) is the argument's entry k (entry r).
-/
import proofs.«420502_j10273561772114_1_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-- A vector of `a` entries reshaped to an `a × 1` column reads, at `(i, u)`, the vector at `i`: the two indices
    have the same row-major position, `i · 1 + u = i` since the unit coordinate `u` is `0`. -/
theorem column_of_vector_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc nD τ sig) → Buf (Elt Ideal) ℓ) (outs : Gen.Outs (F := Ideal))

/-! ## Region 0's entry: the launch memory after the first five reshapes

The five reshapes write `main_v0 … main_v4` only, so an argument array is as launched; and each of the five
results is a 128-vector argument read as a 1 × 128 array, whose entry `(0, k)` is the argument's entry `k`. -/

theorem V1_main_arg0 (c : Dev nD) : Gen.V1 m c main_arg0 = m ((c : Thread nD τ).loc main_arg0) :=
  (V1_of m c main_arg0 (by decide)).trans rfl

theorem V1_main_arg1 (c : Dev nD) : Gen.V1 m c main_arg1 = m ((c : Thread nD τ).loc main_arg1) :=
  (V1_of m c main_arg1 (by decide)).trans rfl

theorem V1_main_arg2 (c : Dev nD) : Gen.V1 m c main_arg2 = m ((c : Thread nD τ).loc main_arg2) :=
  (V1_of m c main_arg2 (by decide)).trans rfl

/-- `main_v0` is `main_arg3` laid out as one row. -/
theorem V1_main_v0 (c : Dev nD) (k : Fin 128) :
    (Gen.V1 m c main_v0 : S1x128.Idx → EReal) (ix2 0 k) = (m ((c : Thread nD τ).loc main_arg3) : S128.Idx → EReal) (ix1 k) := by
  have e : (Gen.V1 m c main_v0 : S1x128.Idx → EReal)
      = shapeCast S1x128 (Gen.V0 m c main_arg3 : S128.Idx → EReal) shapeCasts_S128_S1x128 := by
    show StableHlo.after hostOps0 _ (Proc.devRef .tc main_v0) = _
    after_results
    rfl
  rw [e]
  exact shapeCast_a_1a_apply _ _ 0 k

/-- `main_v1` is `main_arg8` laid out as one row. -/
theorem V1_main_v1 (c : Dev nD) (k : Fin 128) :
    (Gen.V1 m c main_v1 : S1x128.Idx → EReal) (ix2 0 k) = (m ((c : Thread nD τ).loc main_arg8) : S128.Idx → EReal) (ix1 k) := by
  have e : (Gen.V1 m c main_v1 : S1x128.Idx → EReal)
      = shapeCast S1x128 (Gen.V0 m c main_arg8 : S128.Idx → EReal) shapeCasts_S128_S1x128 := by
    show StableHlo.after hostOps0 _ (Proc.devRef .tc main_v1) = _
    after_results
    rfl
  rw [e]
  exact shapeCast_a_1a_apply _ _ 0 k

/-- `main_v2` is `main_arg9` laid out as one row. -/
theorem V1_main_v2 (c : Dev nD) (k : Fin 128) :
    (Gen.V1 m c main_v2 : S1x128.Idx → EReal) (ix2 0 k) = (m ((c : Thread nD τ).loc main_arg9) : S128.Idx → EReal) (ix1 k) := by
  have e : (Gen.V1 m c main_v2 : S1x128.Idx → EReal)
      = shapeCast S1x128 (Gen.V0 m c main_arg9 : S128.Idx → EReal) shapeCasts_S128_S1x128 := by
    show StableHlo.after hostOps0 _ (Proc.devRef .tc main_v2) = _
    after_results
    rfl
  rw [e]
  exact shapeCast_a_1a_apply _ _ 0 k

/-- `main_v3` is `main_arg10` laid out as one row. -/
theorem V1_main_v3 (c : Dev nD) (k : Fin 128) :
    (Gen.V1 m c main_v3 : S1x128.Idx → EReal) (ix2 0 k) = (m ((c : Thread nD τ).loc main_arg10) : S128.Idx → EReal) (ix1 k) := by
  have e : (Gen.V1 m c main_v3 : S1x128.Idx → EReal)
      = shapeCast S1x128 (Gen.V0 m c main_arg10 : S128.Idx → EReal) shapeCasts_S128_S1x128 := by
    show StableHlo.after hostOps0 _ (Proc.devRef .tc main_v3) = _
    after_results
    rfl
  rw [e]
  exact shapeCast_a_1a_apply _ _ 0 k

/-- `main_v4` is `main_arg11` laid out as one row. -/
theorem V1_main_v4 (c : Dev nD) (k : Fin 128) :
    (Gen.V1 m c main_v4 : S1x128.Idx → EReal) (ix2 0 k) = (m ((c : Thread nD τ).loc main_arg11) : S128.Idx → EReal) (ix1 k) := by
  have e : (Gen.V1 m c main_v4 : S1x128.Idx → EReal)
      = shapeCast S1x128 (Gen.V0 m c main_arg11 : S128.Idx → EReal) shapeCasts_S128_S1x128 := by
    show StableHlo.after hostOps0 _ (Proc.devRef .tc main_v4) = _
    after_results
    rfl
  rw [e]
  exact shapeCast_a_1a_apply _ _ 0 k

/-! ## Region 1's entry: after region 0's exit and the seven further reshapes

Region 0 may change `main_v5` only and the seven reshapes write `main_v6 … main_v12` only, so an argument array
is still as launched, and `main_v5` is what region 0 left. The reshapes' operands are arguments, hence read at
their launch contents. -/

theorem V3_main_arg0 (c : Dev nD) : Gen.V3 m outs c main_arg0 = m ((c : Thread nD τ).loc main_arg0) :=
  (V3_of m outs c main_arg0 (by decide)).trans <| (V2_of m outs c main_arg0 (by decide)).trans <|
    (V1_of m c main_arg0 (by decide)).trans rfl

theorem V3_main_arg1 (c : Dev nD) : Gen.V3 m outs c main_arg1 = m ((c : Thread nD τ).loc main_arg1) :=
  (V3_of m outs c main_arg1 (by decide)).trans <| (V2_of m outs c main_arg1 (by decide)).trans <|
    (V1_of m c main_arg1 (by decide)).trans rfl

theorem V3_main_arg4 (c : Dev nD) : Gen.V3 m outs c main_arg4 = m ((c : Thread nD τ).loc main_arg4) :=
  (V3_of m outs c main_arg4 (by decide)).trans <| (V2_of m outs c main_arg4 (by decide)).trans <|
    (V1_of m c main_arg4 (by decide)).trans rfl

theorem V3_main_arg6 (c : Dev nD) : Gen.V3 m outs c main_arg6 = m ((c : Thread nD τ).loc main_arg6) :=
  (V3_of m outs c main_arg6 (by decide)).trans <| (V2_of m outs c main_arg6 (by decide)).trans <|
    (V1_of m c main_arg6 (by decide)).trans rfl

/-- `main_v5` holds what region 0 left there: no later reshape writes it. -/
theorem V3_main_v5 (c : Dev nD) : Gen.V3 m outs c main_v5 = outs 2 main_v5 c :=
  (V3_of m outs c main_v5 (by decide)).trans (Function.update_self _ _ _)

/-- `main_v6` is `main_arg5` laid out as one row. -/
theorem V3_main_v6 (c : Dev nD) (k : Fin 128) :
    (Gen.V3 m outs c main_v6 : S1x128.Idx → EReal) (ix2 0 k) = (m ((c : Thread nD τ).loc main_arg5) : S128.Idx → EReal) (ix1 k) := by
  have e : (Gen.V3 m outs c main_v6 : S1x128.Idx → EReal)
      = shapeCast S1x128 (Gen.V2 m outs c main_arg5 : S128.Idx → EReal) shapeCasts_S128_S1x128 := by
    show StableHlo.after hostOps1 _ (Proc.devRef .tc main_v6) = _
    after_results
    rfl
  rw [e, (V2_of m outs c main_arg5 (by decide)).trans ((V1_of m c main_arg5 (by decide)).trans rfl)]
  exact shapeCast_a_1a_apply _ _ 0 k

/-- `main_v7` is `main_arg12` laid out as one row. -/
theorem V3_main_v7 (c : Dev nD) (k : Fin 128) :
    (Gen.V3 m outs c main_v7 : S1x128.Idx → EReal) (ix2 0 k) = (m ((c : Thread nD τ).loc main_arg12) : S128.Idx → EReal) (ix1 k) := by
  have e : (Gen.V3 m outs c main_v7 : S1x128.Idx → EReal)
      = shapeCast S1x128 (Gen.V2 m outs c main_arg12 : S128.Idx → EReal) shapeCasts_S128_S1x128 := by
    show StableHlo.after hostOps1 _ (Proc.devRef .tc main_v7) = _
    after_results
    rfl
  rw [e, (V2_of m outs c main_arg12 (by decide)).trans ((V1_of m c main_arg12 (by decide)).trans rfl)]
  exact shapeCast_a_1a_apply _ _ 0 k

/-- `main_v8` is `main_arg13` laid out as one row. -/
theorem V3_main_v8 (c : Dev nD) (k : Fin 128) :
    (Gen.V3 m outs c main_v8 : S1x128.Idx → EReal) (ix2 0 k) = (m ((c : Thread nD τ).loc main_arg13) : S128.Idx → EReal) (ix1 k) := by
  have e : (Gen.V3 m outs c main_v8 : S1x128.Idx → EReal)
      = shapeCast S1x128 (Gen.V2 m outs c main_arg13 : S128.Idx → EReal) shapeCasts_S128_S1x128 := by
    show StableHlo.after hostOps1 _ (Proc.devRef .tc main_v8) = _
    after_results
    rfl
  rw [e, (V2_of m outs c main_arg13 (by decide)).trans ((V1_of m c main_arg13 (by decide)).trans rfl)]
  exact shapeCast_a_1a_apply _ _ 0 k

/-- `main_v9` is `main_arg14` laid out as one row. -/
theorem V3_main_v9 (c : Dev nD) (k : Fin 128) :
    (Gen.V3 m outs c main_v9 : S1x128.Idx → EReal) (ix2 0 k) = (m ((c : Thread nD τ).loc main_arg14) : S128.Idx → EReal) (ix1 k) := by
  have e : (Gen.V3 m outs c main_v9 : S1x128.Idx → EReal)
      = shapeCast S1x128 (Gen.V2 m outs c main_arg14 : S128.Idx → EReal) shapeCasts_S128_S1x128 := by
    show StableHlo.after hostOps1 _ (Proc.devRef .tc main_v9) = _
    after_results
    rfl
  rw [e, (V2_of m outs c main_arg14 (by decide)).trans ((V1_of m c main_arg14 (by decide)).trans rfl)]
  exact shapeCast_a_1a_apply _ _ 0 k

/-- `main_v10` is `main_arg15` laid out as one row. -/
theorem V3_main_v10 (c : Dev nD) (k : Fin 128) :
    (Gen.V3 m outs c main_v10 : S1x128.Idx → EReal) (ix2 0 k) = (m ((c : Thread nD τ).loc main_arg15) : S128.Idx → EReal) (ix1 k) := by
  have e : (Gen.V3 m outs c main_v10 : S1x128.Idx → EReal)
      = shapeCast S1x128 (Gen.V2 m outs c main_arg15 : S128.Idx → EReal) shapeCasts_S128_S1x128 := by
    show StableHlo.after hostOps1 _ (Proc.devRef .tc main_v10) = _
    after_results
    rfl
  rw [e, (V2_of m outs c main_arg15 (by decide)).trans ((V1_of m c main_arg15 (by decide)).trans rfl)]
  exact shapeCast_a_1a_apply _ _ 0 k

/-- `main_v11` is the one-entry `main_arg7` as a 1 × 1 array. -/
theorem V3_main_v11 (c : Dev nD) :
    (Gen.V3 m outs c main_v11 : S1x1.Idx → EReal) (ix2 0 0) = (m ((c : Thread nD τ).loc main_arg7) : S1.Idx → EReal) (ix1 0) := by
  have e : (Gen.V3 m outs c main_v11 : S1x1.Idx → EReal)
      = shapeCast S1x1 (Gen.V2 m outs c main_arg7 : S1.Idx → EReal) shapeCasts_S1_S1x1 := by
    show StableHlo.after hostOps1 _ (Proc.devRef .tc main_v11) = _
    after_results
    rfl
  rw [e, (V2_of m outs c main_arg7 (by decide)).trans ((V1_of m c main_arg7 (by decide)).trans rfl)]
  exact shapeCast_a_1a_apply _ _ 0 0

/-- `main_v12` is the 8192 integers of `main_arg16` laid out as one column. -/
theorem V3_main_v12 (c : Dev nD) (r : Fin 8192) :
    (Gen.V3 m outs c main_v12 : S8192x1.Idx → BitVec 32) (ix2 r 0) = (m ((c : Thread nD τ).loc main_arg16) : S8192.Idx → BitVec 32) (ix1 r) := by
  have e : (Gen.V3 m outs c main_v12 : S8192x1.Idx → BitVec 32)
      = shapeCast S8192x1 (Gen.V2 m outs c main_arg16 : S8192.Idx → BitVec 32) shapeCasts_S8192_S8192x1 := by
    show StableHlo.after hostOps1 _ (Proc.devRef .tc main_v12) = _
    after_results
    rfl
  rw [e, (V2_of m outs c main_arg16 (by decide)).trans ((V1_of m c main_arg16 (by decide)).trans rfl)]
  exact column_of_vector_apply _ _ r 0

end Cert.KernelIdeal.Hand

end
-- ==== Proof.RefValue.lean ====
/-
  The reference program's result, read back one operation at a time, is the specification's network of its
  seventeen argument arrays: two matrix products per layer are row sums, a concatenation picks its operand by the
  column, the broadcasts of the row vectors read their one row, the rectifications are maxima with zero, and the
  accumulating scatter onto a zero array is, at each graph and entry, the sum of the rows whose id is that graph.
-/
import proofs.«420502_j10273561772114_1_alg».proof.Proof.Gen.ReferenceIdeal.Run
import proofs.«420502_j10273561772114_1_alg».proof.Proof.Gen.ReferenceIdeal.Read
import proofs.«420502_j10273561772114_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.ValueIdx
open Cert.ReferenceIdeal Cert.ReferenceIdeal.Read

/-- An array of 32-bit floats of shape `s`, read over the extended reals. -/
abbrev Arr (s : Shape) : Type := (⟨s, .f32⟩ : BufTy).Contents (Elt Ideal)

/-! ## One layer at an index -/

/-- A vector of 128 entries broadcast to a row and then to every row reads, at row `r` and column `j`, its entry `j`. -/
theorem rowvec (x : Arr S128) (r : Fin 8192) (j : Fin 128) :
    val_main_v4 (F := Ideal) x (ix2 r j) = x (ix1 j) := by
  rw [val_main_v4_apply, val_main_v3_apply]
  exact congrArg x (funext fun a => Fin.ext (by match a with | ⟨0, _⟩ => rfl))

/-- The adjacency product at row `r`, column `k`: the sum over the nodes of the adjacency weight times the node's entry. -/
theorem agg_value (x0 : Arr S8192x8192) (feat : Arr S8192x128) (r : Fin 8192) (k : Fin 128) :
    val_main_v0 (F := Ideal) x0 feat (ix2 r k)
      = Cert.Spec.agg (fun a c => x0 (ix2 a c)) (fun a c => feat (ix2 a c)) r k := by
  rw [val_main_v0_apply]
  unfold Cert.Spec.agg
  refine Finset.sum_congr rfl fun l _ => ?_
  have e1 : lidx_main_v0 (ix2 r k) l = ix2 r l :=
    funext fun a => Fin.ext (by match a with | ⟨0, _⟩ => rfl | ⟨1, _⟩ => rfl)
  have e2 : ridx_main_v0 (ix2 r k) l = ix2 l k :=
    funext fun a => Fin.ext (by match a with | ⟨0, _⟩ => rfl | ⟨1, _⟩ => rfl)
  rw [e1, e2]

/-- A node's own entries and its neighbours' sum laid end to end: below column 128 the first, from 128 on the second. -/
theorem cat_value (x0 : Arr S8192x8192) (feat : Arr S8192x128) (r : Fin 8192) (k : Fin 256) :
    val_main_v1 (F := Ideal) x0 feat (ix2 r k)
      = Cert.Spec.cat2 (fun c => feat (ix2 r c)) (Cert.Spec.agg (fun a c => x0 (ix2 a c)) (fun a c => feat (ix2 a c)) r) k := by
  unfold Cert.Spec.cat2 val_main_v1
  by_cases h : k.val < 128
  · rw [dif_pos h]
    exact concatenate_pair_apply_left (t := S8192x256) (s₁ := S8192x128) (s₂ := S8192x128) 1 feat (val_main_v0 (F := Ideal) x0 feat)
      Facts₀.concatenates_S8192x128_S8192x128_S8192x256_d1 (ix2 r k) rfl (ix2 r ⟨k.val, h⟩)
      (fun b => by match b with | ⟨0, _⟩ => rfl | ⟨1, _⟩ => rfl)
  · rw [dif_neg h]
    have hk : k.val - 128 < 128 := by have := k.isLt; omega
    refine (concatenate_pair_apply_right (t := S8192x256) (s₁ := S8192x128) (s₂ := S8192x128) 1 feat (val_main_v0 (F := Ideal) x0 feat)
      Facts₀.concatenates_S8192x128_S8192x128_S8192x256_d1 (ix2 r k) rfl rfl (ix2 r ⟨k.val - 128, hk⟩)
      (fun b hb => by
        match b with
        | ⟨0, _⟩ => rfl
        | ⟨1, _⟩ => exact absurd rfl hb)
      (by show (k.val - 128) + 128 = k.val; omega)).trans ?_
    exact agg_value x0 feat r ⟨k.val - 128, hk⟩

/-- The affine map's product at node `r`, output `j`: the sum over the 256 laid-out entries times the weights. -/
theorem lin_value (x0 : Arr S8192x8192) (feat : Arr S8192x128) (W : Arr S256x128) (r : Fin 8192) (j : Fin 128) :
    val_main_v2 (F := Ideal) x0 feat W (ix2 r j)
      = ∑ k : Fin 256, Cert.Spec.cat2 (fun c => feat (ix2 r c))
          (Cert.Spec.agg (fun a c => x0 (ix2 a c)) (fun a c => feat (ix2 a c)) r) k * W (ix2 k j) := by
  rw [val_main_v2_apply]
  refine Finset.sum_congr rfl fun k _ => ?_
  have e1 : lidx_main_v2 (ix2 r j) k = ix2 r k :=
    funext fun a => Fin.ext (by match a with | ⟨0, _⟩ => rfl | ⟨1, _⟩ => rfl)
  have e2 : ridx_main_v2 (ix2 r j) k = ix2 k j :=
    funext fun a => Fin.ext (by match a with | ⟨0, _⟩ => rfl | ⟨1, _⟩ => rfl)
  rw [e1, e2, cat_value]

/-- One layer of the reference at node `r`, entry `j`, for any feature array: the affine map of the laid-out entries,
    rectified, then normalised with the running statistics: (z − mean) · rsqrt(var + ε) · scale + shift. -/
theorem layer_value (x0 : Arr S8192x8192) (feat : Arr S8192x128) (W : Arr S256x128) (b g be mu va : Arr S128)
    (r : Fin 8192) (j : Fin 128) :
    val_main_v21 (F := Ideal) x0 feat W b g be mu va (ix2 r j)
      = Cert.Spec.layer (fun a c => x0 (ix2 a c)) (fun a c => feat (ix2 a c)) (fun a c => W (ix2 a c))
          (fun k => b (ix1 k)) (fun k => g (ix1 k)) (fun k => be (ix1 k)) (fun k => mu (ix1 k)) (fun k => va (ix1 k)) r j := by
  have hb : val_main_v4 (F := Ideal) b (ix2 r j) = b (ix1 j) := rowvec b r j
  have hmu : val_main_v8 (F := Ideal) mu (ix2 r j) = mu (ix1 j) := rowvec mu r j
  have hg : val_main_v17 (F := Ideal) g (ix2 r j) = g (ix1 j) := rowvec g r j
  have hbe : val_main_v20 (F := Ideal) be (ix2 r j) = be (ix1 j) := rowvec be r j
  have hrs : val_main_v14 (F := Ideal) va (ix2 r j) = Ideal.rsqrt (va (ix1 j) + Cert.Spec.eps) := by
    refine (rowvec (val_main_v12 (F := Ideal) va) r j).trans ?_
    rw [val_main_v12_apply, val_main_v11_apply, val_main_v10_apply, val_main_cst_apply]
    rfl
  have hz : val_main_call0_v0 (F := Ideal) (ix2 r j) = 0 := by
    rw [val_main_call0_v0_apply, val_main_call0_cst_apply]
    exact Ideal.ofBits_zero_f32
  rw [val_main_v21_apply, val_main_v18_apply, val_main_v15_apply, val_main_v9_apply, val_main_v6_apply,
    val_main_v5_apply, hb, hmu, hg, hbe, hrs, hz, lin_value]
  rfl

/-- The second layer is the first layer's chain applied to the first layer's output. -/
theorem second_is_layer (x0 : Arr S8192x8192) (x1 : Arr S8192x128) (x2 : Arr S256x128) (x3 : Arr S128) (x4 : Arr S256x128)
    (x5 x8 x9 x10 x11 x12 x13 x14 x15 : Arr S128) :
    val_main_v43 (F := Ideal) x0 x1 x2 x3 x4 x5 x8 x9 x10 x11 x12 x13 x14 x15
      = val_main_v21 (F := Ideal) x0 (val_main_v21 (F := Ideal) x0 x1 x2 x3 x8 x9 x10 x11) x4 x5 x12 x13 x14 x15 := rfl

/-! ## The readout: three arrays laid end to end -/

/-- The input features and the two layers' outputs laid end to end at node `r`, entry `f`: the piece whose span of
    128 columns holds `f`, at the column less the spans before it. -/
theorem readout_value (x0 : Arr S8192x8192) (x1 : Arr S8192x128) (x2 : Arr S256x128) (x3 : Arr S128) (x4 : Arr S256x128)
    (x5 x8 x9 x10 x11 x12 x13 x14 x15 : Arr S128) (r : Fin 8192) (f : Fin 384) :
    val_main_v44 (F := Ideal) x0 x1 x2 x3 x4 x5 x8 x9 x10 x11 x12 x13 x14 x15 (ix2 r f)
      = Cert.Spec.readout (fun a c => x1 (ix2 a c))
          (fun a c => val_main_v21 (F := Ideal) x0 x1 x2 x3 x8 x9 x10 x11 (ix2 a c))
          (fun a c => val_main_v43 (F := Ideal) x0 x1 x2 x3 x4 x5 x8 x9 x10 x11 x12 x13 x14 x15 (ix2 a c)) r f := by
  unfold Cert.Spec.readout Cert.Spec.cat3 val_main_v44
  generalize val_main_v21 (F := Ideal) x0 x1 x2 x3 x8 x9 x10 x11 = y1
  generalize val_main_v43 (F := Ideal) x0 x1 x2 x3 x4 x5 x8 x9 x10 x11 x12 x13 x14 x15 = y2
  by_cases h : f.val < 128
  · rw [dif_pos h]
    exact concatenate_apply_piece (t := S8192x384) 1 [⟨S8192x128, x1⟩, ⟨S8192x128, y1⟩, ⟨S8192x128, y2⟩]
      Facts₀.concatenates_S8192x128_S8192x128_S8192x128_S8192x384_d1 (ix2 r f) 0 (by show (0 : Nat) < 3; omega) S8192x128 x1 rfl rfl 0 rfl
      (ix2 r ⟨f.val, h⟩)
      (fun b hb => by
        match b with
        | ⟨0, _⟩ => rfl
        | ⟨1, _⟩ => exact absurd rfl hb)
      (by show 0 + f.val = f.val; omega)
  · rw [dif_neg h]
    by_cases h' : f.val < 256
    · rw [dif_pos h']
      exact concatenate_apply_piece (t := S8192x384) 1 [⟨S8192x128, x1⟩, ⟨S8192x128, y1⟩, ⟨S8192x128, y2⟩]
        Facts₀.concatenates_S8192x128_S8192x128_S8192x128_S8192x384_d1 (ix2 r f) 1 (by show (1 : Nat) < 3; omega) S8192x128 y1 rfl rfl 128 rfl
        (ix2 r ⟨f.val - 128, by omega⟩)
        (fun b hb => by
          match b with
          | ⟨0, _⟩ => rfl
          | ⟨1, _⟩ => exact absurd rfl hb)
        (by show 128 + (f.val - 128) = f.val; omega)
    · rw [dif_neg h']
      exact concatenate_apply_piece (t := S8192x384) 1 [⟨S8192x128, x1⟩, ⟨S8192x128, y1⟩, ⟨S8192x128, y2⟩]
        Facts₀.concatenates_S8192x128_S8192x128_S8192x128_S8192x384_d1 (ix2 r f) 2 (by show (2 : Nat) < 3; omega) S8192x128 y2 rfl rfl 256 rfl
        (ix2 r ⟨f.val - 256, by have := f.isLt; omega⟩)
        (fun b hb => by
          match b with
          | ⟨0, _⟩ => rfl
          | ⟨1, _⟩ => exact absurd rfl hb)
        (by show 256 + (f.val - 256) = f.val; omega)

/-! ## The accumulating scatter: a sum over the rows whose id is the graph -/

/-- The scatter's dimension numbers: the ids are a column of start rows, an update row is a window along the columns. -/
abbrev SD : ScatterDims S256x384 S8192x1 S8192x384 := scatter_S256x384_S8192x1_S8192x384_1_0_0_1

/-- A 32-bit word read signed is the natural `g < 256` exactly when it is the numeral `g`. -/
theorem word_eq_iff (w : BitVec 32) (g : Nat) (hg : g < 256) : w.toInt = (g : Int) ↔ w = BitVec.ofNat 32 g := by
  constructor
  · intro h
    apply BitVec.eq_of_toNat_eq
    rw [BitVec.toNat_ofNat]
    have := w.isLt
    rw [BitVec.toInt_eq_toNat_cond] at h
    split at h <;> omega
  · rintro rfl
    rw [BitVec.toInt_eq_toNat_cond, BitVec.toNat_ofNat]
    have : g % 2 ^ 32 = g := Nat.mod_eq_of_lt (by omega)
    rw [this]
    split <;> omega

/-- Update `(r, c)` reads its start row from the id column at row `r`. -/
theorem SD_siIdx (j : S8192x384.Idx) (c : Fin SD.scatterDimsToOperandDims.length) :
    SD.siIdx j c = ix2 (j 0) 0 := by
  funext b
  match b with
  | ⟨0, _⟩ => rfl
  | ⟨1, _⟩ =>
    apply Fin.ext
    show c.val = 0
    have h1 : SD.scatterDimsToOperandDims.length = 1 := rfl
    have := c.isLt
    omega

theorem SD_start0 (j : S8192x384.Idx) (idx : IVec S8192x1 32) :
    SD.start j idx 0 = (idx (ix2 (j 0) 0)).toInt := by
  unfold ScatterDims.start
  rw [dif_pos (show (0 : Fin S256x384.rank) ∈ SD.scatterDimsToOperandDims by decide), SD_siIdx]
  rfl

theorem SD_start1 (j : S8192x384.Idx) (idx : IVec S8192x1 32) : SD.start j idx 1 = 0 := by
  unfold ScatterDims.start
  rw [dif_neg (show ¬ (1 : Fin S256x384.rank) ∈ SD.scatterDimsToOperandDims by decide)]

theorem SD_window0 (j : S8192x384.Idx) : SD.window j 0 = 0 := by
  unfold ScatterDims.window
  rw [dif_neg (show ¬ (0 : Fin S256x384.rank) ∈ SD.sKept by decide)]

theorem SD_window1 (j : S8192x384.Idx) : SD.window j 1 = (j 1).val := by
  unfold ScatterDims.window
  rw [dif_pos (show (1 : Fin S256x384.rank) ∈ SD.sKept by decide)]
  rfl

/-- Update `j` lands on entry `(g, f)` exactly when the id word of `j`'s row is the numeral `g` and `j`'s column is `f`:
    the start row is the word read signed, not clamped; the start column is zero and the window is the column. -/
theorem SD_hit (j : S8192x384.Idx) (idx : IVec S8192x1 32) (g : Fin 256) (f : Fin 384) :
    SD.resultIdx? j idx = some (ix2 g f) ↔ idx (ix2 (j 0) 0) = BitVec.ofNat 32 g.val ∧ j 1 = f := by
  have hj1 : (j 1).val < 384 := idx2_lt1 j
  unfold ScatterDims.resultIdx?
  constructor
  · intro h
    split at h
    · next H =>
      have e := Option.some.inj h
      have e0 : (SD.start j idx 0 + SD.window j 0).toNat = g.val :=
        congrArg (fun i : S256x384.Idx => (i 0).val) e
      have e1 : (SD.start j idx 1 + SD.window j 1).toNat = f.val :=
        congrArg (fun i : S256x384.Idx => (i 1).val) e
      have H0 := (H 0).1
      rw [SD_start0, SD_window0] at H0 e0
      rw [SD_start1, SD_window1] at e1
      exact ⟨(word_eq_iff _ g.val g.isLt).1 (by omega), Fin.ext (by omega)⟩
    · exact absurd h (by simp)
  · rintro ⟨hw, hf⟩
    have hs : SD.start j idx 0 = (g.val : Int) := by
      rw [SD_start0]
      exact (word_eq_iff _ g.val g.isLt).2 hw
    have hg := g.isLt
    have H : ∀ a, 0 ≤ SD.start j idx a + SD.window j a ∧ SD.start j idx a + SD.window j a < S256x384.size a := fun a => by
      match a with
      | ⟨0, _⟩ =>
        show 0 ≤ SD.start j idx 0 + SD.window j 0 ∧ SD.start j idx 0 + SD.window j 0 < ((256 : Nat) : Int)
        rw [hs, SD_window0]
        omega
      | ⟨1, _⟩ =>
        show 0 ≤ SD.start j idx 1 + SD.window j 1 ∧ SD.start j idx 1 + SD.window j 1 < ((384 : Nat) : Int)
        rw [SD_start1, SD_window1]
        omega
    rw [dif_pos H]
    refine congrArg some (funext fun a => Fin.ext ?_)
    match a with
    | ⟨0, _⟩ =>
      show (SD.start j idx 0 + SD.window j 0).toNat = g.val
      rw [hs, SD_window0]
      omega
    | ⟨1, _⟩ =>
      show (SD.start j idx 1 + SD.window j 1).toNat = f.val
      rw [SD_start1, SD_window1, ← hf]
      omega

/-- The accumulating scatter at graph `g`, entry `f`: the operand's entry plus the sum, over the rows whose id word is
    the numeral `g`, of the row's entry `f`. -/
theorem scatter_value (x : Arr S256x384) (idx : IVec S8192x1 32) (upd : Arr S8192x384) (g : Fin 256) (f : Fin 384) :
    Ideal.hostScatterAdd SD x idx upd (ix2 g f)
      = x (ix2 g f) + ∑ r : Fin 8192, if idx (ix2 r 0) = BitVec.ofNat 32 g.val then upd (ix2 r f) else 0 := by
  have key : ∀ (a : Fin 8192) (b : Fin 384),
      (SD.resultIdx? (ix2 a b) idx = some (ix2 g f)) ↔ (idx (ix2 a 0) = BitVec.ofNat 32 g.val ∧ b = f) :=
    fun a b => SD_hit (ix2 a b) idx g f
  unfold Ideal.hostScatterAdd
  refine congrArg (x (ix2 g f) + ·) ?_
  rw [Finset.sum_filter, sum_idx2]
  refine Finset.sum_congr rfl fun a _ => ?_
  simp only [key]
  by_cases hw : idx (ix2 a 0) = BitVec.ofNat 32 g.val
  · simp only [hw, true_and, if_true]
    rw [Finset.sum_ite_eq', if_pos (Finset.mem_univ f)]
  · simp only [hw, false_and, if_false]
    exact Finset.sum_const_zero

/-- The pooled array at graph `g`, entry `f`: the scatter onto the zero array of the readout rows, by the id column. -/
theorem pooled_value (x0 : Arr S8192x8192) (x1 : Arr S8192x128) (x2 : Arr S256x128) (x3 : Arr S128) (x4 : Arr S256x128)
    (x5 x8 x9 x10 x11 x12 x13 x14 x15 : Arr S128) (x16 : (⟨S8192, .i32⟩ : BufTy).Contents (Elt Ideal))
    (g : Fin 256) (f : Fin 384) :
    val_main_v47 (F := Ideal) x0 x1 x2 x3 x4 x5 x8 x9 x10 x11 x12 x13 x14 x15 x16 (ix2 g f)
      = Cert.Spec.pooled (fun r => x16 (ix1 r))
          (fun r c => val_main_v44 (F := Ideal) x0 x1 x2 x3 x4 x5 x8 x9 x10 x11 x12 x13 x14 x15 (ix2 r c)) g f := by
  unfold val_main_v47 Cert.Spec.pooled
  generalize val_main_v44 (F := Ideal) x0 x1 x2 x3 x4 x5 x8 x9 x10 x11 x12 x13 x14 x15 = upd
  refine (scatter_value (val_main_v45 (F := Ideal)) (val_main_v46 (F := Ideal) x16) upd g f).trans ?_
  rw [val_main_v45_apply, val_main_cst_1_apply,
    show FloatOps.ofBits (F := Ideal) .f32 0x00000000#32 = 0 from Ideal.ofBits_zero_f32, zero_add]
  refine Finset.sum_congr rfl fun r _ => ?_
  have e : idx_main_v46 (ix2 r 0) = ix1 r := funext fun a => Fin.ext (by match a with | ⟨0, _⟩ => rfl)
  rw [val_main_v46_apply, e]

/-! ## The head, and the whole network -/

/-- The last stage at graph `g`: the pooled row times the weight column, plus the bias, rectified. -/
theorem head_value (x0 : Arr S8192x8192) (x1 : Arr S8192x128) (x2 : Arr S256x128) (x3 : Arr S128) (x4 : Arr S256x128)
    (x5 : Arr S128) (x6 : Arr S384x1) (x7 : Arr S1) (x8 x9 x10 x11 x12 x13 x14 x15 : Arr S128)
    (x16 : (⟨S8192, .i32⟩ : BufTy).Contents (Elt Ideal)) (g : Fin 256) :
    val_main_v52 (F := Ideal) x0 x1 x2 x3 x4 x5 x6 x7 x8 x9 x10 x11 x12 x13 x14 x15 x16 (ix2 g 0)
      = Cert.Spec.head
          (fun a c => val_main_v47 (F := Ideal) x0 x1 x2 x3 x4 x5 x8 x9 x10 x11 x12 x13 x14 x15 x16 (ix2 a c))
          (fun f => x6 (ix2 f 0)) (x7 (ix1 0)) g := by
  have hz : val_main_call2_v0 (F := Ideal) (ix2 g 0) = 0 := by
    rw [val_main_call2_v0_apply, val_main_call2_cst_apply]
    exact Ideal.ofBits_zero_f32
  have hb : val_main_v50 (F := Ideal) x7 (ix2 g 0) = x7 (ix1 0) := by
    rw [val_main_v50_apply, val_main_v49_apply]
    exact congrArg x7 (funext fun a => Fin.ext (by match a with | ⟨0, _⟩ => rfl))
  rw [val_main_v52_apply, val_main_v51_apply, hz, hb, val_main_v48_apply]
  generalize val_main_v47 (F := Ideal) x0 x1 x2 x3 x4 x5 x8 x9 x10 x11 x12 x13 x14 x15 x16 = p
  unfold Cert.Spec.head
  have es : (∑ k : Fin 384, p (lidx_main_v48 (ix2 g 0) k) * x6 (ridx_main_v48 (ix2 g 0) k))
      = ∑ k : Fin 384, p (ix2 g k) * x6 (ix2 k 0) :=
    Finset.sum_congr rfl fun k _ => by
      have e1 : lidx_main_v48 (ix2 g 0) k = ix2 g k :=
        funext fun a => Fin.ext (by match a with | ⟨0, _⟩ => rfl | ⟨1, _⟩ => rfl)
      have e2 : ridx_main_v48 (ix2 g 0) k = ix2 k 0 :=
        funext fun a => Fin.ext (by match a with | ⟨0, _⟩ => rfl | ⟨1, _⟩ => rfl)
      rw [e1, e2]
  rw [es]
  rfl

/-- The first layer's output as a function of node and entry. -/
theorem layer1_fun (x0 : Arr S8192x8192) (x1 : Arr S8192x128) (x2 : Arr S256x128) (x3 x8 x9 x10 x11 : Arr S128) :
    (fun a c => val_main_v21 (F := Ideal) x0 x1 x2 x3 x8 x9 x10 x11 (ix2 a c))
      = Cert.Spec.layer (fun a c => x0 (ix2 a c)) (fun a c => x1 (ix2 a c)) (fun a c => x2 (ix2 a c))
          (fun k => x3 (ix1 k)) (fun k => x8 (ix1 k)) (fun k => x9 (ix1 k)) (fun k => x10 (ix1 k)) (fun k => x11 (ix1 k)) :=
  funext fun a => funext fun c => layer_value x0 x1 x2 x3 x8 x9 x10 x11 a c

/-- The second layer's output as a function of node and entry: the layer applied to the first layer's output. -/
theorem layer2_fun (x0 : Arr S8192x8192) (x1 : Arr S8192x128) (x2 : Arr S256x128) (x3 : Arr S128) (x4 : Arr S256x128)
    (x5 x8 x9 x10 x11 x12 x13 x14 x15 : Arr S128) :
    (fun a c => val_main_v43 (F := Ideal) x0 x1 x2 x3 x4 x5 x8 x9 x10 x11 x12 x13 x14 x15 (ix2 a c))
      = Cert.Spec.layer (fun a c => x0 (ix2 a c))
          (Cert.Spec.layer (fun a c => x0 (ix2 a c)) (fun a c => x1 (ix2 a c)) (fun a c => x2 (ix2 a c))
            (fun k => x3 (ix1 k)) (fun k => x8 (ix1 k)) (fun k => x9 (ix1 k)) (fun k => x10 (ix1 k)) (fun k => x11 (ix1 k)))
          (fun a c => x4 (ix2 a c))
          (fun k => x5 (ix1 k)) (fun k => x12 (ix1 k)) (fun k => x13 (ix1 k)) (fun k => x14 (ix1 k)) (fun k => x15 (ix1 k)) :=
  funext fun a => funext fun c => by
    rw [second_is_layer, layer_value, layer1_fun]

/-- The reference's last stage at graph `g` is the specification's result there. -/
theorem result_value
    (x0 : (⟨S8192x8192, .f32⟩ : BufTy).Contents (Elt Ideal)) (x1 : (⟨S8192x128, .f32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal))
    (x6 : (⟨S384x1, .f32⟩ : BufTy).Contents (Elt Ideal)) (x7 : (⟨S1, .f32⟩ : BufTy).Contents (Elt Ideal))
    (x8 x9 x10 x11 x12 x13 x14 x15 : (⟨S128, .f32⟩ : BufTy).Contents (Elt Ideal))
    (x16 : (⟨S8192, .i32⟩ : BufTy).Contents (Elt Ideal)) (g : Fin 256) :
    val_main_v52 (F := Ideal) x0 x1 x2 x3 x4 x5 x6 x7 x8 x9 x10 x11 x12 x13 x14 x15 x16 (ix2 g 0)
      = Cert.Spec.result (fun a b => x0 (ix2 a b)) (fun a b => x1 (ix2 a b))
          (fun a b => x2 (ix2 a b)) (fun k => x3 (ix1 k)) (fun k => x8 (ix1 k)) (fun k => x9 (ix1 k)) (fun k => x10 (ix1 k)) (fun k => x11 (ix1 k))
          (fun a b => x4 (ix2 a b)) (fun k => x5 (ix1 k)) (fun k => x12 (ix1 k)) (fun k => x13 (ix1 k)) (fun k => x14 (ix1 k)) (fun k => x15 (ix1 k))
          (fun f => x6 (ix2 f 0)) (x7 (ix1 0)) (fun r => x16 (ix1 r)) g := by
  rw [head_value]
  have h44 : (fun r c => val_main_v44 (F := Ideal) x0 x1 x2 x3 x4 x5 x8 x9 x10 x11 x12 x13 x14 x15 (ix2 r c))
      = Cert.Spec.readout (fun a c => x1 (ix2 a c))
          (fun a c => val_main_v21 (F := Ideal) x0 x1 x2 x3 x8 x9 x10 x11 (ix2 a c))
          (fun a c => val_main_v43 (F := Ideal) x0 x1 x2 x3 x4 x5 x8 x9 x10 x11 x12 x13 x14 x15 (ix2 a c)) :=
    funext fun r => funext fun c => readout_value x0 x1 x2 x3 x4 x5 x8 x9 x10 x11 x12 x13 x14 x15 r c
  have h47 : (fun a c => val_main_v47 (F := Ideal) x0 x1 x2 x3 x4 x5 x8 x9 x10 x11 x12 x13 x14 x15 x16 (ix2 a c))
      = Cert.Spec.pooled (fun r => x16 (ix1 r))
          (fun r c => val_main_v44 (F := Ideal) x0 x1 x2 x3 x4 x5 x8 x9 x10 x11 x12 x13 x14 x15 (ix2 r c)) :=
    funext fun a => funext fun c => pooled_value x0 x1 x2 x3 x4 x5 x8 x9 x10 x11 x12 x13 x14 x15 x16 a c
  rw [h47, h44, layer2_fun, layer1_fun]
  rfl

end Cert.ReferenceIdeal.RefValue

end
-- ==== Proof.Algebraic.lean ====
/-
  The two idealized programs end with the same result array. The kernel's result is what its second region's one
  write-back leaves, which is the specification's head of the pooled readout of the arrays that region was
  entered with; of those, the first layer's activations are what the first region's 32 write-backs leave, the
  specification's first layer of the launch arrays, and the others are the launch arrays or the host's reshapes of
  them. The reference's result, read back operation by operation, is the same specification of its own launch
  arrays, which agree with the kernel's.
-/
import proofs.«420502_j10273561772114_1_alg».proof.Defs
import proofs.«420502_j10273561772114_1_alg».proof.Proof.KernelIdeal.Regs
import proofs.«420502_j10273561772114_1_alg».proof.Proof.KernelIdeal.Value0
import proofs.«420502_j10273561772114_1_alg».proof.Proof.KernelIdeal.Value1
import proofs.«420502_j10273561772114_1_alg».proof.Proof.KernelIdeal.Entry
import proofs.«420502_j10273561772114_1_alg».proof.Proof.RefValue
import proofs.«420502_j10273561772114_1_alg».proof.Proof.Gen.Pre_finite_inputs
import proofs.«420502_j10273561772114_1_alg».proof.Proof.Gen.ReferenceIdeal

set_option maxRecDepth 16384

noncomputable section

open scoped BigOperators

namespace Cert.Proof.Bridge

open Idealize.ShloMosaic Idealize.ShloMosaic.TcCoe Idealize.ShloMosaic.ValueIdx
open Idealize.SL Idealize.SL.Sem
open Cert.KernelIdeal Cert.KernelIdeal.Gen Cert.KernelIdeal.Hand

/-- The kernel's result array at graph `g`, as the specification's network of the launch arrays. -/
theorem kernel_result (m : (ℓ : Loc nD τ sig) → Buf (Elt Ideal) ℓ) (c : Dev nD) (g : Fin 256) :
    ((dat1 (F := Ideal) (Vin1 m) c).arrAt 13 cfg1.N : S256x1.Idx → EReal) (ix2 g 0)
      = Cert.Spec.result
          (fun a b => (m ((c : Thread nD τ).loc main_arg0) : S8192x8192.Idx → EReal) (ix2 a b))
          (fun a b => (m ((c : Thread nD τ).loc main_arg1) : S8192x128.Idx → EReal) (ix2 a b))
          (fun a b => (m ((c : Thread nD τ).loc main_arg2) : S256x128.Idx → EReal) (ix2 a b))
          (fun k => (m ((c : Thread nD τ).loc main_arg3) : S128.Idx → EReal) (ix1 k))
          (fun k => (m ((c : Thread nD τ).loc main_arg8) : S128.Idx → EReal) (ix1 k))
          (fun k => (m ((c : Thread nD τ).loc main_arg9) : S128.Idx → EReal) (ix1 k))
          (fun k => (m ((c : Thread nD τ).loc main_arg10) : S128.Idx → EReal) (ix1 k))
          (fun k => (m ((c : Thread nD τ).loc main_arg11) : S128.Idx → EReal) (ix1 k))
          (fun a b => (m ((c : Thread nD τ).loc main_arg4) : S256x128.Idx → EReal) (ix2 a b))
          (fun k => (m ((c : Thread nD τ).loc main_arg5) : S128.Idx → EReal) (ix1 k))
          (fun k => (m ((c : Thread nD τ).loc main_arg12) : S128.Idx → EReal) (ix1 k))
          (fun k => (m ((c : Thread nD τ).loc main_arg13) : S128.Idx → EReal) (ix1 k))
          (fun k => (m ((c : Thread nD τ).loc main_arg14) : S128.Idx → EReal) (ix1 k))
          (fun k => (m ((c : Thread nD τ).loc main_arg15) : S128.Idx → EReal) (ix1 k))
          (fun f => (m ((c : Thread nD τ).loc main_arg6) : S384x1.Idx → EReal) (ix2 f 0))
          ((m ((c : Thread nD τ).loc main_arg7) : S1.Idx → EReal) (ix1 0))
          (fun r => (m ((c : Thread nD τ).loc main_arg16) : S8192.Idx → BitVec 32) (ix1 r)) g := by
  rw [out_value]
  have a0 : Vin1 m c main_arg0 = m ((c : Thread nD τ).loc main_arg0) := V3_main_arg0 m (outs m) c
  have a1 : Vin1 m c main_arg1 = m ((c : Thread nD τ).loc main_arg1) := V3_main_arg1 m (outs m) c
  have a4 : Vin1 m c main_arg4 = m ((c : Thread nD τ).loc main_arg4) := V3_main_arg4 m (outs m) c
  have a6 : Vin1 m c main_arg6 = m ((c : Thread nD τ).loc main_arg6) := V3_main_arg6 m (outs m) c
  have v5 : Vin1 m c main_v5 = (dat0 (F := Ideal) (Vin0 m) c).arrAt 9 cfg0.N := (V3_main_v5 m (outs m) c).trans (outs_v5 m c)
  have v6 : ∀ k : Fin 128, (Vin1 m c main_v6 : S1x128.Idx → EReal) (ix2 0 k) = (m ((c : Thread nD τ).loc main_arg5) : S128.Idx → EReal) (ix1 k) :=
    fun k => V3_main_v6 m (outs m) c k
  have v7 : ∀ k : Fin 128, (Vin1 m c main_v7 : S1x128.Idx → EReal) (ix2 0 k) = (m ((c : Thread nD τ).loc main_arg12) : S128.Idx → EReal) (ix1 k) :=
    fun k => V3_main_v7 m (outs m) c k
  have v8 : ∀ k : Fin 128, (Vin1 m c main_v8 : S1x128.Idx → EReal) (ix2 0 k) = (m ((c : Thread nD τ).loc main_arg13) : S128.Idx → EReal) (ix1 k) :=
    fun k => V3_main_v8 m (outs m) c k
  have v9 : ∀ k : Fin 128, (Vin1 m c main_v9 : S1x128.Idx → EReal) (ix2 0 k) = (m ((c : Thread nD τ).loc main_arg14) : S128.Idx → EReal) (ix1 k) :=
    fun k => V3_main_v9 m (outs m) c k
  have v10 : ∀ k : Fin 128, (Vin1 m c main_v10 : S1x128.Idx → EReal) (ix2 0 k) = (m ((c : Thread nD τ).loc main_arg15) : S128.Idx → EReal) (ix1 k) :=
    fun k => V3_main_v10 m (outs m) c k
  have v11 : (Vin1 m c main_v11 : S1x1.Idx → EReal) (ix2 0 0) = (m ((c : Thread nD τ).loc main_arg7) : S1.Idx → EReal) (ix1 0) :=
    V3_main_v11 m (outs m) c
  have v12 : ∀ r : Fin 8192, (Vin1 m c main_v12 : S8192x1.Idx → BitVec 32) (ix2 r 0) = (m ((c : Thread nD τ).loc main_arg16) : S8192.Idx → BitVec 32) (ix1 r) :=
    fun r => V3_main_v12 m (outs m) c r
  have x1 := fun (a : Fin 8192) (b : Fin 128) => x1_value (Vin0 m) c a b
  have b0 : Vin0 m c main_arg0 = m ((c : Thread nD τ).loc main_arg0) := V1_main_arg0 m c
  have b1 : Vin0 m c main_arg1 = m ((c : Thread nD τ).loc main_arg1) := V1_main_arg1 m c
  have b2 : Vin0 m c main_arg2 = m ((c : Thread nD τ).loc main_arg2) := V1_main_arg2 m c
  have w0 : ∀ k : Fin 128, (Vin0 m c main_v0 : S1x128.Idx → EReal) (ix2 0 k) = (m ((c : Thread nD τ).loc main_arg3) : S128.Idx → EReal) (ix1 k) :=
    fun k => V1_main_v0 m c k
  have w1 : ∀ k : Fin 128, (Vin0 m c main_v1 : S1x128.Idx → EReal) (ix2 0 k) = (m ((c : Thread nD τ).loc main_arg8) : S128.Idx → EReal) (ix1 k) :=
    fun k => V1_main_v1 m c k
  have w2 : ∀ k : Fin 128, (Vin0 m c main_v2 : S1x128.Idx → EReal) (ix2 0 k) = (m ((c : Thread nD τ).loc main_arg9) : S128.Idx → EReal) (ix1 k) :=
    fun k => V1_main_v2 m c k
  have w3 : ∀ k : Fin 128, (Vin0 m c main_v3 : S1x128.Idx → EReal) (ix2 0 k) = (m ((c : Thread nD τ).loc main_arg10) : S128.Idx → EReal) (ix1 k) :=
    fun k => V1_main_v3 m c k
  have w4 : ∀ k : Fin 128, (Vin0 m c main_v4 : S1x128.Idx → EReal) (ix2 0 k) = (m ((c : Thread nD τ).loc main_arg11) : S128.Idx → EReal) (ix1 k) :=
    fun k => V1_main_v4 m c k
  simp only [a0, a1, a4, a6, v5, v6, v7, v8, v9, v10, v11, v12, x1, b0, b1, b2, w0, w1, w2, w3, w4]
  rfl

end Cert.Proof.Bridge

namespace Cert.Proof

open Idealize.ShloMosaic Idealize.ShloMosaic.TcCoe Idealize.ShloMosaic.ValueIdx
open Idealize.SL Idealize.SL.Sem

/-- Both idealized programs run to the end from memories that agree on the arguments, with one result array. -/
theorem algebraic : Cert.algebraic_KernelIdeal_ReferenceIdeal := by
  intro m ρ m' ρ' _ hagree
  refine ⟨fun c => (Cert.KernelIdeal.Hand.dat1 (F := Ideal) (Cert.KernelIdeal.Hand.Vin1 m) c).arrAt 13 Cert.KernelIdeal.cfg1.N,
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq]
  funext i
  obtain ⟨g, z, rfl⟩ : ∃ (g : Fin 256) (z : Fin 1), i = ix2 g z := ⟨i 0, i 1, eq_ix2 i⟩
  obtain rfl : z = 0 := Subsingleton.elim _ _
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  exact (Cert.ReferenceIdeal.RefValue.result_value _ _ _ _ _ _ _ _ _ _ _ _ _ _ _ _ _ g).trans
    (Cert.Proof.Bridge.kernel_result m c g).symm

end Cert.Proof

end
-- ==== Proof.lean ====
/-
  The certificate's five claims.

  The word-level kernel and its idealization are one text read at two float instances: each runs to the end from
  any memory, nothing faulting, its argument arrays unchanged, because its two kernel regions keep the pipeline's
  discipline at every grid point (each region's two windows on one array holding that array's buffer at the two
  halves of its share). The reference is a straight line of host operations. The idealization pass rewrote no
  operation, so there is nothing to preserve. Over the extended reals both programs compute one network of the
  seventeen argument arrays: the kernel's row tiles are the rows of the reference's whole-array operations, and
  its one-hot product accumulated over the row tiles is the reference's sum of each graph's rows.
-/
import proofs.«420502_j10273561772114_1_alg».proof.Defs
import proofs.«420502_j10273561772114_1_alg».proof.Proof.Gen.Kernel
import proofs.«420502_j10273561772114_1_alg».proof.Proof.Gen.KernelIdeal
import proofs.«420502_j10273561772114_1_alg».proof.Proof.Gen.ReferenceIdeal
import proofs.«420502_j10273561772114_1_alg».proof.Proof.Gen.Pre_finite_inputs
import proofs.«420502_j10273561772114_1_alg».proof.Proof.Gen.ReferenceIdeal.Run
import proofs.«420502_j10273561772114_1_alg».proof.Proof.Kernel.Regs
import proofs.«420502_j10273561772114_1_alg».proof.Proof.KernelIdeal.Regs
import proofs.«420502_j10273561772114_1_alg».proof.Proof.Algebraic
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Proof.algebraic⟩

end Cert.Proof

end
